-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S32 : Shape := ⟨1, ![32]⟩
abbrev S50000 : Shape := ⟨1, ![50000]⟩
abbrev S224x128 : Shape := ⟨2, ![224, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S32 : S_.BroadcastsInDim S32 (![] : Fin 0 → Fin S32.rank)
  reducesTo_S32_S_d0 : S32.ReducesTo [0] S_
  bcast_S_S224x128 : S_.BroadcastsInDim S224x128 (![] : Fin 0 → Fin S224x128.rank)
  reducesTo_S224x128_S_d0_1 : S224x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S256x128 .f32) (main_arg12 : FVec F S128 .f32) (main_arg13 : FVec F S128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S256x128 .f32) (main_arg12 : FVec F S128 .f32) (main_arg13 : FVec F S128 .f32) (main_arg14 : FVec F S128 .f32) (main_arg15 : FVec F S128x128 .f32) (main_arg16 : FVec F S128 .f32) (main_v13 : IVec S_ 1) (main_v16 : IVec S224x128 1) : IVec S_ 1 :=
  let main_c_5 : IVec S_ 1 := constantI S_ 1 1#1
  let main_v17 : IVec S_ 1 := (fun x v => Host.reduce IntOp.andi x v reducesTo_S224x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000x64 .f32) (main_arg3 : FVec F S32 .f32) (main_arg4 : IVec S50000 32) (main_arg5 : FVec F S224x128 .f32) (main_arg6 : FVec F S128 .f32) (main_arg7 : FVec F S128 .f32) (main_arg8 : FVec F S128 .f32) (main_arg9 : FVec F S128x128 .f32) (main_arg10 : FVec F S128 .f32) (main_arg11 : FVec F S256x128 .f32) (main_arg12 : FVec F S128 .f32) (main_arg13 : FVec F S128 .f32) (main_arg14 : FVec F S128 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S224x128 .f32 := Host.absf main_arg5
  let main_cst_4 : FVec F S_ .f32 := constant S_ .f32 0x7F800000#32
  let main_v15 : FVec F S224x128 .f32 := broadcastInDim S224x128 ![] bcast_S_S224x128 main_cst_4
  let main_v16 : IVec S224x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S32 : Shape := ⟨1, ![32]⟩
abbrev S50000 : Shape := ⟨1, ![50000]⟩
abbrev S224x128 : Shape := ⟨2, ![224, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S32x128 : Shape := ⟨2, ![32, 128]⟩
abbrev S1x32 : Shape := ⟨2, ![1, 32]⟩
abbrev S1x128 : Shape := ⟨2, ![1, 128]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S50000x1 : Shape := ⟨2, ![50000, 1]⟩

abbrev nBuf : Space → Nat
  | .hbm => 64
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S32, .f32⟩
  | .hbm, ⟨4, _⟩ => ⟨S50000, .i32⟩
  | .hbm, ⟨5, _⟩ => ⟨S224x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S128x128, .f32⟩
  | .hbm, ⟨31, _⟩ => ⟨S64x128, .f32⟩
  | .hbm, ⟨32, _⟩ => ⟨S32x128, .f32⟩
  | .hbm, ⟨33, _⟩ => ⟨S1x32, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S50000, .f32⟩
  | .hbm, ⟨49, _⟩ => ⟨S800000x1, .i32⟩
  | .hbm, ⟨50, _⟩ => ⟨S50000, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S128x128, .f32⟩
  | .hbm, ⟨58, _⟩ => ⟨S128x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S224x128_S128x128_0_0 : S224x128.Slices ![0, 0] S128x128
  slices_S224x128_S64x128_128_0 : S224x128.Slices ![128, 0] S64x128
  slices_S224x128_S32x128_192_0 : S224x128.Slices ![192, 0] S32x128
  bcast_S32_S1x32_1 : S32.BroadcastsInDim S1x32 (![1] : Fin 1 → Fin S1x32.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  gather_S50000x128_S800000x1_S800000x128_1_0_n_n_0_1_1128_wf : GatherDims.WF S50000x128 S800000x1 S800000x128 [1] [0] [] [0] [] 1 ![1, 128]
  dot_S1x32_S32x128_S1x128_1_0_0_1_n_n_wf : DotDims.WF S1x32 S32x128 S1x128 [1] [0] [0] [1] [] []
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .f32 = 32 ∨ (Rect.block (s := S800000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S800000x128.size a
  hwx0_9 : ∀ i : grid0.Coords, EltTy.bits .f32 = 32 ∨ (Rect.block (s := S800000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S32 : Shape := ⟨1, ![32]⟩
abbrev S50000 : Shape := ⟨1, ![50000]⟩
abbrev S224x128 : Shape := ⟨2, ![224, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x32 : Shape := ⟨2, ![1, 32]⟩
abbrev S800000x32 : Shape := ⟨2, ![800000, 32]⟩
abbrev S800000x224 : Shape := ⟨2, ![800000, 224]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S800000x64, .f32⟩
  | 3 => ⟨S32, .f32⟩
  | 4 => ⟨S50000, .i32⟩
  | 5 => ⟨S224x128, .f32⟩
  | 6 => ⟨S128, .f32⟩
  | 7 => ⟨S128, .f32⟩
  | 8 => ⟨S128, .f32⟩
  | 9 => ⟨S128x128, .f32⟩
  | 10 => ⟨S128, .f32⟩
  | 11 => ⟨S256x128, .f32⟩
  | 12 => ⟨S128, .f32⟩
  | 13 => ⟨S128, .f32⟩
  | 14 => ⟨S128, .f32⟩
  | 15 => ⟨S128x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S1x32, .f32⟩
  | 31 => ⟨S800000x32, .f32⟩
  | 32 => ⟨S800000x224, .f32⟩
  | 33 => ⟨S800000x128, .f32⟩
  | 34 => ⟨S1x128, .f32⟩
  | 35 => ⟨S800000x128, .f32⟩
  | 36 => ⟨S800000x128, .f32⟩
  | 37 => ⟨S_, .f32⟩
  | 38 => ⟨S800000x128, .f32⟩
  | 39 => ⟨S800000x128, .i1⟩
  | 40 => ⟨S_, .f32⟩
  | 41 => ⟨S800000x128, .f32⟩
  | 42 => ⟨S800000x128, .f32⟩
  | 43 => ⟨S800000x128, .f32⟩
  | 44 => ⟨S_, .f32⟩
  | 45 => ⟨S800000, .f32⟩
  | 46 => ⟨S800000x1, .f32⟩
  | 47 => ⟨S_, .f32⟩
  | 48 => ⟨S800000x1, .f32⟩
  | 49 => ⟨S800000x1, .f32⟩
  | 50 => ⟨S800000x128, .f32⟩
  | 51 => ⟨S800000x128, .f32⟩
  | 52 => ⟨S800000x128, .f32⟩
  | 53 => ⟨S_, .f32⟩
  | 54 => ⟨S800000, .f32⟩
  | 55 => ⟨S800000x1, .f32⟩
  | 56 => ⟨S_, .f32⟩
  | 57 => ⟨S800000x1, .f32⟩
  | 58 => ⟨S800000x1, .f32⟩
  | 59 => ⟨S800000x128, .f32⟩
  | 60 => ⟨S800000x128, .f32⟩
  | 61 => ⟨S_, .f32⟩
  | 62 => ⟨S800000x1, .f32⟩
  | 63 => ⟨S800000x1, .f32⟩
  | 64 => ⟨S800000x1, .f32⟩
  | 65 => ⟨S800000x128, .f32⟩
  | 66 => ⟨S800000x128, .f32⟩
  | 67 => ⟨S1x128, .f32⟩
  | 68 => ⟨S800000x128, .f32⟩
  | 69 => ⟨S800000x128, .f32⟩
  | 70 => ⟨S1x128, .f32⟩
  | 71 => ⟨S800000x128, .f32⟩
  | 72 => ⟨S800000x128, .f32⟩
  | 73 => ⟨S800000x128, .f32⟩
  | 74 => ⟨S1x128, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .f32⟩
  | 82 => ⟨S800000, .f32⟩
  | 83 => ⟨S_, .f32⟩
  | 84 => ⟨S50000, .f32⟩
  | 85 => ⟨S800000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S50000x256, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .i1⟩
  | 101 => ⟨S_, .f32⟩
  | 102 => ⟨S50000x128, .f32⟩
  | 103 => ⟨S50000x128, .f32⟩
  | 104 => ⟨S50000x128, .f32⟩
  | 105 => ⟨S_, .f32⟩
  | 106 => ⟨S50000, .f32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S50000x128, .f32⟩
  | 114 => ⟨S_, .f32⟩
  | 115 => ⟨S50000, .f32⟩
  | 116 => ⟨S50000x1, .f32⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S50000x1, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  concatenates_S800000x128_S800000x64_S800000x32_S800000x224_d1 : Shape.Concatenates [S800000x128, S800000x64, S800000x32] S800000x224 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  dot_S800000x224_S224x128_S800000x128_1_0_0_1_n_n_wf : DotDims.WF S800000x224 S224x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x224_S224x128_S800000x128_1_0_0_1_n_n : DotDims S800000x224 S224x128 S800000x128 where
  lhsContracting := [1]
  rhsContracting := [0]
  lhsNonContracting := [0]
  rhsNonContracting := [1]
  lhsBatch := []
  rhsBatch := []
  wf := dot_S800000x224_S224x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.MlpSpec.lean ====
/-
  The mathematics of the two multilayer perceptrons, one row at a time, over the extended reals.

  A row of pre-activations h (128 numbers) goes through LeakyReLU, is normalised over its 128 entries (mean, then the
  variance about that mean, both as sums divided by 128, an epsilon under the reciprocal square root), scaled and
  shifted by the affine parameters, multiplied into a 128 × 128 matrix and a bias added. Every float literal is kept as
  the f32 word both programs print.
-/
import Idealize.ShloMosaic.PureOps.Ideal
import Idealize.ShloMosaic.Lib.ValueIdx

noncomputable section

namespace Cert.Gnn

open Idealize.ShloMosaic Idealize.ShloMosaic.ValueIdx

/-- LeakyReLU of one pre-activation: h where h ≥ 0, else slope · h, the zero and the slope the printed f32 words. -/
def leaky (h : EReal) : EReal :=
  Scalar.select (FloatOps.cmpf (F := Ideal) (φ := .f32) .oge h (Ideal.ofBits .f32 0x00000000#32)) h
    (Ideal.ofBits .f32 0x3C23D70A#32 * h)

/-- The mean of a row of 128 entries: their sum divided by the f32 word of 128. -/
def rowMean (a : Fin 128 → EReal) : EReal := Ideal.div (∑ j, a j) (Ideal.ofBits .f32 0x43000000#32)

/-- The reciprocal standard deviation of a row: rsqrt of (the mean of the squared deviations plus epsilon). -/
def rowRstd (a : Fin 128 → EReal) : EReal :=
  Ideal.rsqrt (Ideal.div (∑ j, (a j - rowMean a) * (a j - rowMean a)) (Ideal.ofBits .f32 0x43000000#32)
    + Ideal.ofBits .f32 0x3727C5AC#32)

/-- Entry k of the normalised, scaled and shifted row. -/
def normRow (a g be : Fin 128 → EReal) (k : Fin 128) : EReal :=
  (a k - rowMean a) * rowRstd a * g k + be k

/-- Entry q of the row after the second linear layer. -/
def mlpTail (a g be : Fin 128 → EReal) (W : Fin 128 → Fin 128 → EReal) (b : Fin 128 → EReal) (q : Fin 128) : EReal :=
  (∑ k, normRow a g be k * W k q) + b q

/-- The whole array of R rows: row r's pre-activations `pre r` through LeakyReLU, the normalisation and the second layer. -/
def mlpRows {R : Nat} (pre : Fin R → Fin 128 → EReal) (g be : Fin 128 → EReal) (W : Fin 128 → Fin 128 → EReal)
    (b : Fin 128 → EReal) : (⟨2, ![R, 128]⟩ : Shape).Idx → EReal :=
  fun i => mlpTail (fun j => leaky (pre (i 0) j)) g be W b (i 1)

theorem mlpRows_apply {R : Nat} (pre : Fin R → Fin 128 → EReal) (g be : Fin 128 → EReal) (W : Fin 128 → Fin 128 → EReal)
    (b : Fin 128 → EReal) (r : Fin R) (q : Fin 128) :
    mlpRows pre g be W b (ix2 r q) = mlpTail (fun j => leaky (pre r j)) g be W b q := rfl

/-- The pre-activations of a first layer fed two inputs with their own weight matrices and one bias row. -/
def pre2 {R n1 n2 : Nat} (A : (⟨2, ![R, n1]⟩ : Shape).Idx → EReal) (B : (⟨2, ![R, n2]⟩ : Shape).Idx → EReal)
    (WA : (⟨2, ![n1, 128]⟩ : Shape).Idx → EReal) (WB : (⟨2, ![n2, 128]⟩ : Shape).Idx → EReal)
    (bias : (⟨2, ![1, 128]⟩ : Shape).Idx → EReal) (r : Fin R) (j : Fin 128) : EReal :=
  (∑ k : Fin n1, A (ix2 r k) * WA (ix2 k j) + ∑ k : Fin n2, B (ix2 r k) * WB (ix2 k j)) + bias (ix2 (0 : Fin 1) j)

/-- Row 0 of a one-row matrix, as a function of the column. -/
def row0 (v : (⟨2, ![1, 128]⟩ : Shape).Idx → EReal) (k : Fin 128) : EReal := v (ix2 (0 : Fin 1) k)

/-- A matrix as a function of its two coordinates. -/
def mat {a b : Nat} (M : (⟨2, ![a, b]⟩ : Shape).Idx → EReal) (i : Fin a) (j : Fin b) : EReal := M (ix2 i j)

/-- The result of an MLP kernel over R rows as one function of its nine operand arrays. -/
def mlp2 {R n1 n2 : Nat} (A : (⟨2, ![R, n1]⟩ : Shape).Idx → EReal) (B : (⟨2, ![R, n2]⟩ : Shape).Idx → EReal)
    (WA : (⟨2, ![n1, 128]⟩ : Shape).Idx → EReal) (WB : (⟨2, ![n2, 128]⟩ : Shape).Idx → EReal)
    (bias g be : (⟨2, ![1, 128]⟩ : Shape).Idx → EReal) (W : (⟨2, ![128, 128]⟩ : Shape).Idx → EReal)
    (b : (⟨2, ![1, 128]⟩ : Shape).Idx → EReal) : (⟨2, ![R, 128]⟩ : Shape).Idx → EReal :=
  mlpRows (pre2 A B WA WB bias) (row0 g) (row0 be) (mat W) (row0 b)

end Cert.Gnn

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.EdgeBlock.lean ====
/-
  One block of the edge kernel: what the body stores, read entry by entry, is the row MLP of the loaded blocks.

  Each value the body computes is read at an index: the two products into zero accumulators are sums over the
  contraction index, the bias and the affine rows are broadcast down the rows, the lane sums are sums over a row, the
  column of means and of squared deviations is broadcast along each row, and the casts to half precision are the
  identity over the extended reals. Entry (p, q) of the stored block is then the second layer applied to the
  normalised LeakyReLU of row p's pre-activations.
-/
import proofs.«113419_j65292092833799_1_alg».proof.Proof.Gen.KernelIdeal.Frame
import proofs.«113419_j65292092833799_1_alg».proof.Proof.MlpSpec
import proofs.«113419_j65292092833799_1_alg».proof.Proof.LibMatmul
import Idealize.ShloMosaic.PureOps.Ideal.Laws
import Idealize.ShloMosaic.Lib.ValueLayout
import Idealize.ShloMosaic.Lib.Pipeline.Value

set_option maxRecDepth 16384

noncomputable section

namespace Cert.KernelIdeal.EdgeBlock

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## Layout operations of the block read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis inserts into row `p` at `k` is `(p, k)`. -/
theorem lift_row {a b : ℕ} (h : Shape.Reduces ⟨2, ![a, b]⟩ [1] ⟨1, ![a]⟩) (p : Fin a) (k : Fin b) :
    h.lift (ix1 p) k = ix2 p k := by
  funext ax
  refine Fin.ext ?_
  match ax with
  | ⟨0, _⟩ => rfl
  | ⟨1, _⟩ => rfl

/-- A sum over the second axis of an `[a, b]` array read at row `p`: the sum of that row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  rw [Ideal.multiReduction_add_single]
  exact Finset.sum_congr rfl fun k _ => congrArg src (lift_row h p k)

/-! ## The payloads read at an index -/

/-- The 128-wide product's dimension numbers are the plain ones: contract the left operand's columns with the right operand's rows. -/
theorem dotA_eq : dot_S5000x128_S128x128_S5000x128_1_0_0_1_n_n = DotDims.plain 5000 128 128 := rfl
/-- The 64-wide product's dimension numbers likewise. -/
theorem dotB_eq : dot_S5000x64_S64x128_S5000x128_1_0_0_1_n_n = DotDims.plain 5000 64 128 := rfl

/-- The first layer before its activation, read at `(p, j)`: the two products summed and the bias row added. -/
theorem pre_apply (x0 : Vec Ideal S5000x128 .f32) (x1 : Vec Ideal S5000x64 .f32) (x2 : Vec Ideal S128x128 .f32)
    (x3 : Vec Ideal S64x128 .f32) (x4 : Vec Ideal S1x128 .f32) (p : Fin 5000) (j : Fin 128) :
    addf (addf
        (matmul dot_S5000x128_S128x128_S5000x128_1_0_0_1_n_n none (truncf .bf16 x0 bitsLt_bf16_f32)
          (truncf .bf16 x2 bitsLt_bf16_f32) (constant (F := Ideal) S5000x128 .f32 0x00000000#32))
        (matmul dot_S5000x64_S64x128_S5000x128_1_0_0_1_n_n none (truncf .bf16 x1 bitsLt_bf16_f32)
          (truncf .bf16 x3 bitsLt_bf16_f32) (constant (F := Ideal) S5000x128 .f32 0x00000000#32)))
      (broadcastTo S5000x128 x4 broadcasts_S1x128_S5000x128) (ix2 p j)
      = Cert.Gnn.pre2 x0 x1 x2 x3 x4 p j := by
  show (FloatOps.matmul dot_S5000x128_S128x128_S5000x128_1_0_0_1_n_n none (truncf .bf16 x0 bitsLt_bf16_f32)
          (truncf .bf16 x2 bitsLt_bf16_f32) (constant (F := Ideal) S5000x128 .f32 0x00000000#32) (ix2 p j)
        + FloatOps.matmul dot_S5000x64_S64x128_S5000x128_1_0_0_1_n_n none (truncf .bf16 x1 bitsLt_bf16_f32)
          (truncf .bf16 x3 bitsLt_bf16_f32) (constant (F := Ideal) S5000x128 .f32 0x00000000#32) (ix2 p j))
      + broadcastTo S5000x128 x4 broadcasts_S1x128_S5000x128 (ix2 p j) = _
  rw [dotA_eq, dotB_eq, Cert.Matmul.matmul_plain_apply, Cert.Matmul.matmul_plain_apply, broadcastTo_1b_ab_apply]
  rfl

/-- The first layer with its LeakyReLU, read at `(p, j)`. -/
theorem pay2_apply (x0 : Vec Ideal S5000x128 .f32) (x1 : Vec Ideal S5000x64 .f32) (x2 : Vec Ideal S128x128 .f32)
    (x3 : Vec Ideal S64x128 .f32) (x4 : Vec Ideal S1x128 .f32) (p : Fin 5000) (j : Fin 128) :
    k0_pay2 (F := Ideal) x0 x1 x2 x3 x4 (ix2 p j) = Cert.Gnn.leaky (Cert.Gnn.pre2 x0 x1 x2 x3 x4 p j) := by
  rw [← pre_apply]
  unfold k0_pay2
  simp only [shapeCast_self]
  rfl

/-- The row means, read at row `p`: the row's sum divided by the word of 128. -/
theorem mean_apply (a : FVec Ideal S5000x128 .f32) (p : Fin 5000) :
    divf (shapeCast S5000x1
          (multiReduction (F := Ideal) .add [1] S5000 a 0x00000000#32 reduces_S5000x128_S5000 (.inl rfl) rfl)
          shapeCasts_S5000_S5000x1)
        (broadcast S5000x1 (Scalar.ofBits (F := Ideal) .f32 0x43000000#32)) (ix2 p (0 : Fin 1))
      = Cert.Gnn.rowMean (fun j => a (ix2 p j)) := by
  show Ideal.div (shapeCast S5000x1
          (multiReduction (F := Ideal) .add [1] S5000 a 0x00000000#32 reduces_S5000x128_S5000 (.inl rfl) rfl)
          shapeCasts_S5000_S5000x1 (ix2 p (0 : Fin 1))) (Ideal.ofBits .f32 0x43000000#32) = _
  rw [shapeCast_a_a1_apply]
  exact congrArg (fun s => Ideal.div s (Ideal.ofBits .f32 0x43000000#32)) (rowSum_apply a _ _ _ p)

/-- The kernel's column of row means, read at row `p`: the mean of that row of activations. -/
theorem pay5_apply (x0 : Vec Ideal S5000x128 .f32) (x1 : Vec Ideal S5000x64 .f32) (x2 : Vec Ideal S128x128 .f32)
    (x3 : Vec Ideal S64x128 .f32) (x4 : Vec Ideal S1x128 .f32) (p : Fin 5000) :
    k0_pay5 (F := Ideal) x0 x1 x2 x3 x4 (ix2 p (0 : Fin 1))
      = Cert.Gnn.rowMean (fun j => k0_pay2 (F := Ideal) x0 x1 x2 x3 x4 (ix2 p j)) := by
  unfold k0_pay5
  exact mean_apply _ p

/-- The row sums of squared deviations about a column `m` of means, read at row `p`. -/
theorem sqdev_apply (a : FVec Ideal S5000x128 .f32) (m : FVec Ideal S5000x1 .f32) (p : Fin 5000) :
    shapeCast S5000x1
        (multiReduction (F := Ideal) .add [1] S5000
          (mulf (subf a (broadcastTo S5000x128 m broadcasts_S5000x1_S5000x128))
            (subf a (broadcastTo S5000x128 m broadcasts_S5000x1_S5000x128)))
          0x00000000#32 reduces_S5000x128_S5000 (.inl rfl) rfl)
        shapeCasts_S5000_S5000x1 (ix2 p (0 : Fin 1))
      = ∑ k : Fin 128, (a (ix2 p k) - m (ix2 p (0 : Fin 1))) * (a (ix2 p k) - m (ix2 p (0 : Fin 1))) := by
  rw [shapeCast_a_a1_apply]
  refine (rowSum_apply _ _ _ _ p).trans (Finset.sum_congr rfl fun k _ => ?_)
  show (a (ix2 p k) - broadcastTo S5000x128 m broadcasts_S5000x1_S5000x128 (ix2 p k))
      * (a (ix2 p k) - broadcastTo S5000x128 m broadcasts_S5000x1_S5000x128 (ix2 p k)) = _
  rw [broadcastTo_a1_ab_apply]

/-- The kernel's column of squared deviations, read at row `p`: the sum over the row of the squared distance to the row's mean. -/
theorem pay6_apply (x0 : Vec Ideal S5000x128 .f32) (x1 : Vec Ideal S5000x64 .f32) (x2 : Vec Ideal S128x128 .f32)
    (x3 : Vec Ideal S64x128 .f32) (x4 : Vec Ideal S1x128 .f32) (p : Fin 5000) :
    k0_pay6 (F := Ideal) x0 x1 x2 x3 x4 (ix2 p (0 : Fin 1))
      = ∑ k : Fin 128,
          (k0_pay2 (F := Ideal) x0 x1 x2 x3 x4 (ix2 p k)
              - Cert.Gnn.rowMean (fun j => k0_pay2 (F := Ideal) x0 x1 x2 x3 x4 (ix2 p j)))
            * (k0_pay2 (F := Ideal) x0 x1 x2 x3 x4 (ix2 p k)
              - Cert.Gnn.rowMean (fun j => k0_pay2 (F := Ideal) x0 x1 x2 x3 x4 (ix2 p j))) := by
  unfold k0_pay6
  refine (sqdev_apply _ _ p).trans ?_
  rw [pay5_apply]

/-- The normalisation, the second layer and its bias, read at `(p, q)` over arbitrary operands. -/
theorem pay1_apply (v22 : FVec Ideal S5000x128 .f32) (v24 v26 : FVec Ideal S1x128 .f32)
    (v30 v35 v36 : FVec Ideal S5000x1 .f32) (v50 : Vec Ideal S128x128 .f32) (v53 : Vec Ideal S1x128 .f32)
    (p : Fin 5000) (q : Fin 128) :
    k0_pay1 (F := Ideal) v22 v24 v26 v30 v35 v36 v50 v53 (ix2 p q)
      = (∑ k : Fin 128,
            ((v22 (ix2 p k) - v30 (ix2 p (0 : Fin 1)))
                * Ideal.rsqrt (Ideal.div (v35 (ix2 p (0 : Fin 1))) (v36 (ix2 p (0 : Fin 1)))
                    + Ideal.ofBits .f32 0x3727C5AC#32)
                * v24 (ix2 (0 : Fin 1) k) + v26 (ix2 (0 : Fin 1) k)) * v50 (ix2 k q))
          + v53 (ix2 (0 : Fin 1) q) := by
  unfold k0_pay1
  simp only [shapeCast_self]
  show FloatOps.matmul dot_S5000x128_S128x128_S5000x128_1_0_0_1_n_n none _ _
        (constant (F := Ideal) S5000x128 .f32 0x00000000#32) (ix2 p q)
      + broadcastTo S5000x128 v53 broadcasts_S1x128_S5000x128 (ix2 p q) = _
  rw [dotA_eq, Cert.Matmul.matmul_plain_apply, broadcastTo_1b_ab_apply]
  refine congrArg (fun s => s + v53 (ix2 (0 : Fin 1) q)) (Finset.sum_congr rfl fun k _ => ?_)
  show ((v22 (ix2 p k) - broadcastTo S5000x128 v30 broadcasts_S5000x1_S5000x128 (ix2 p k))
          * broadcastTo S5000x128
              (rsqrt (addf (divf v35 v36) (broadcast S5000x1 (Scalar.ofBits (F := Ideal) .f32 0x3727C5AC#32))))
              broadcasts_S5000x1_S5000x128 (ix2 p k)
          * broadcastTo S5000x128 v24 broadcasts_S1x128_S5000x128 (ix2 p k)
        + broadcastTo S5000x128 v26 broadcasts_S1x128_S5000x128 (ix2 p k)) * v50 (ix2 k q) = _
  rw [broadcastTo_a1_ab_apply, broadcastTo_a1_ab_apply, broadcastTo_1b_ab_apply, broadcastTo_1b_ab_apply]
  rfl

/-! ## The block -/

/-- The edge kernel's stored block is the MLP of its nine loaded blocks, row by row. -/
theorem out0_9_eq (x0 : Vec Ideal S5000x128 .f32) (x1 : Vec Ideal S5000x64 .f32) (x2 : Vec Ideal S128x128 .f32)
    (x3 : Vec Ideal S64x128 .f32) (x4 x5 x6 : Vec Ideal S1x128 .f32) (x7 : Vec Ideal S128x128 .f32) (x8 : Vec Ideal S1x128 .f32) :
    out0_9 (F := Ideal) x0 x1 x2 x3 x4 x5 x6 x7 x8 = Cert.Gnn.mlp2 x0 x1 x2 x3 x4 x5 x6 x7 x8 := by
  have hz : (![0, 0] : Fin 2 → Nat) = fun _ => 0 := funext fun a => by
    match a with
    | ⟨0, _⟩ => rfl
    | ⟨1, _⟩ => rfl
  unfold out0_9
  rw [View.canon_unit_zero hz]
  simp only [View.ld_unit_zero (S := S5000x128) hz, View.ld_unit_zero (S := S5000x64) hz,
    View.ld_unit_zero (S := S128x128) hz, View.ld_unit_zero (S := S64x128) hz, View.ld_unit_zero (S := S1x128) hz]
  funext i
  obtain ⟨p, q, rfl⟩ : ∃ (p : Fin 5000) (q : Fin 128), i = ix2 p q := ⟨i 0, i 1, eq_ix2 i⟩
  rw [pay1_apply, pay6_apply, pay5_apply]
  simp only [pay2_apply]
  unfold k0_pay3 k0_pay4 k0_pay7
  simp only [shapeCast_self]
  rfl

end Cert.KernelIdeal.EdgeBlock

end
-- ==== Proof.EdgeArray.lean ====
/-
  The edge region's result array: every block the pipeline writes back is the matching block of the row MLP of the
  region's operand arrays, and the blocks cover the array.
-/
import proofs.«113419_j65292092833799_1_alg».proof.Proof.EdgeBlock

set_option maxRecDepth 16384

noncomputable section

namespace Cert.KernelIdeal.EdgeArray

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block index maps, decided over the grid: the two row-blocked operands move with the result's block on the row
    axis and stay at column block 0, the result's row block stays in range, and every other operand stays at block (0, 0). -/
theorem idx_facts : ∀ t : Fin cfg0.N,
    win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_9.index t (1 : Fin 2) = 0
    ∧ win0_9.index t (0 : Fin 2) ≤ 159
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every row block of the result is some point's. -/
theorem idx_onto : ∀ (q0 : Fin 160), ∃ t : Fin cfg0.N, win0_9.index t = ![q0.val, 0] :=
  (by decide +kernel : ∀ (q0 : Fin 160), ∃ t : Fin grid0.N, win0_9.index t = ![q0.val, 0])

/-- A row of a point's block is a row of the array. -/
theorem row_lt (t : Fin cfg0.N) (p : Fin 5000) : win0_9.index t (0 : Fin 2) * 5000 + p.val < 800000 := by
  obtain ⟨_, _, _, _, _, h, _⟩ := idx_facts t
  have := p.isLt
  omega

/-- Row p of window 0's block at point t is row (block index · 5000 + p) of its array. -/
theorem blk0 (c : Dev nD) (t : Fin cfg0.N) (p : Fin 5000) (k : Fin 128) :
    iblk0 V c 0 t (ix2 p k) = V c main_v10 (ix2 ⟨win0_9.index t (0 : Fin 2) * 5000 + p.val, row_lt t p⟩ k) := by
  obtain ⟨e0, e1, _⟩ := idx_facts t
  show V c main_v10 (((cfg0.win 0).blk t).view.emb (ix2 p k)) = _
  congr 1
  funext a; apply Fin.ext
  match a with
  | ⟨0, _⟩ => show win0_0.index t (0 : Fin 2) * 5000 + 1 * p.val = win0_9.index t (0 : Fin 2) * 5000 + p.val; omega
  | ⟨1, _⟩ => show win0_0.index t (1 : Fin 2) * 128 + 1 * k.val = k.val; omega

/-- Row p of window 1's block at point t is row (block index · 5000 + p) of its array. -/
theorem blk1 (c : Dev nD) (t : Fin cfg0.N) (p : Fin 5000) (k : Fin 64) :
    iblk0 V c 1 t (ix2 p k) = V c main_arg2 (ix2 ⟨win0_9.index t (0 : Fin 2) * 5000 + p.val, row_lt t p⟩ k) := by
  obtain ⟨_, _, e0, e1, _⟩ := idx_facts t
  show V c main_arg2 (((cfg0.win 1).blk t).view.emb (ix2 p k)) = _
  congr 1
  funext a; apply Fin.ext
  match a with
  | ⟨0, _⟩ => show win0_1.index t (0 : Fin 2) * 5000 + 1 * p.val = win0_9.index t (0 : Fin 2) * 5000 + p.val; omega
  | ⟨1, _⟩ => show win0_1.index t (1 : Fin 2) * 64 + 1 * k.val = k.val; omega

/-- Window 2 stays at block (0, 0), and that block is the whole array. -/
theorem blk2 (c : Dev nD) (t : Fin cfg0.N) : iblk0 V c 2 t = V c main_v11 := by
  obtain ⟨_, _, _, _, _, _, e0, e1, _⟩ := idx_facts t
  funext j
  show V c main_v11 (((cfg0.win 2).blk t).view.emb j) = V c main_v11 j
  congr 1
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- Window 3 stays at block (0, 0), and that block is the whole array. -/
theorem blk3 (c : Dev nD) (t : Fin cfg0.N) : iblk0 V c 3 t = V c main_v12 := by
  obtain ⟨_, _, _, _, _, _, _, _, e0, e1, _⟩ := idx_facts t
  funext j
  show V c main_v12 (((cfg0.win 3).blk t).view.emb j) = V c main_v12 j
  congr 1
  funext a; apply Fin.ext
  match a with
  | ⟨0, _⟩ => show win0_3.index t (0 : Fin 2) * 64 + 1 * (j 0).val = (j 0).val; omega
  | ⟨1, _⟩ => show win0_3.index t (1 : Fin 2) * 128 + 1 * (j 1).val = (j 1).val; omega

/-- Window 4 stays at block (0, 0), and that block is the whole array. -/
theorem blk4 (c : Dev nD) (t : Fin cfg0.N) : iblk0 V c 4 t = V c main_v17 := by
  obtain ⟨_, _, _, _, _, _, _, _, _, _, e0, e1, _⟩ := idx_facts t
  funext j
  show V c main_v17 (((cfg0.win 4).blk t).view.emb j) = V c main_v17 j
  congr 1
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Window 5 stays at block (0, 0), and that block is the whole array. -/
theorem blk5 (c : Dev nD) (t : Fin cfg0.N) : iblk0 V c 5 t = V c main_v18 := by
  obtain ⟨_, _, _, _, _, _, _, _, _, _, _, _, e0, e1, _⟩ := idx_facts t
  funext j
  show V c main_v18 (((cfg0.win 5).blk t).view.emb j) = V c main_v18 j
  congr 1
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- Window 6 stays at block (0, 0), and that block is the whole array. -/
theorem blk6 (c : Dev nD) (t : Fin cfg0.N) : iblk0 V c 6 t = V c main_v19 := by
  obtain ⟨_, _, _, _, _, _, _, _, _, _, _, _, _, _, e0, e1, _⟩ := idx_facts t
  funext j
  show V c main_v19 (((cfg0.win 6).blk t).view.emb j) = V c main_v19 j
  congr 1
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Window 7 stays at block (0, 0), and that block is the whole array. -/
theorem blk7 (c : Dev nD) (t : Fin cfg0.N) : iblk0 V c 7 t = V c main_arg9 := by
  obtain ⟨_, _, _, _, _, _, _, _, _, _, _, _, _, _, _, _, e0, e1, _⟩ := idx_facts t
  funext j
  show V c main_arg9 (((cfg0.win 7).blk t).view.emb j) = V c main_arg9 j
  congr 1
  funext a; apply Fin.ext
  match a with
  | ⟨0, _⟩ => show win0_7.index t (0 : Fin 2) * 128 + 1 * (j 0).val = (j 0).val; omega
  | ⟨1, _⟩ => show win0_7.index t (1 : Fin 2) * 128 + 1 * (j 1).val = (j 1).val; omega

/-- Window 8 stays at block (0, 0), and that block is the whole array. -/
theorem blk8 (c : Dev nD) (t : Fin cfg0.N) : iblk0 V c 8 t = V c main_v20 := by
  obtain ⟨_, _, _, _, _, _, _, _, _, _, _, _, _, _, _, _, _, _, e0, e1⟩ := idx_facts t
  funext j
  show V c main_v20 (((cfg0.win 8).blk t).view.emb j) = V c main_v20 j
  congr 1
  funext a; apply Fin.ext
  match a with
  | ⟨0, _⟩ => show win0_8.index t (0 : Fin 2) * 1 + 1 * (j 0).val = (j 0).val; omega
  | ⟨1, _⟩ => show win0_8.index t (1 : Fin 2) * 128 + 1 * (j 1).val = (j 1).val; omega

/-- Entry (p, q) of the result's block at point t sits at row (block index · 5000 + p), column q of the array. -/
theorem emb9 (t : Fin cfg0.N) (p : Fin 5000) (q : Fin 128) :
    ((cfg0.win 9).blk t).view.emb (ix2 p q) = ix2 ⟨win0_9.index t (0 : Fin 2) * 5000 + p.val, row_lt t p⟩ q := by
  obtain ⟨_, _, _, _, e1, _⟩ := idx_facts t
  funext a; apply Fin.ext
  match a with
  | ⟨0, _⟩ => show win0_9.index t (0 : Fin 2) * 5000 + 1 * p.val = win0_9.index t (0 : Fin 2) * 5000 + p.val; omega
  | ⟨1, _⟩ => show win0_9.index t (1 : Fin 2) * 128 + 1 * q.val = q.val; omega

/-- The MLP reads its two row-blocked operands one row at a time: if row r of the first pair is row r' of the second
    pair, the results agree on those rows. -/
theorem mlp2_row_congr {R R' n1 n2 : Nat}
    (A : (⟨2, ![R, n1]⟩ : Shape).Idx → EReal) (B : (⟨2, ![R, n2]⟩ : Shape).Idx → EReal)
    (A' : (⟨2, ![R', n1]⟩ : Shape).Idx → EReal) (B' : (⟨2, ![R', n2]⟩ : Shape).Idx → EReal)
    (WA : (⟨2, ![n1, 128]⟩ : Shape).Idx → EReal) (WB : (⟨2, ![n2, 128]⟩ : Shape).Idx → EReal)
    (bias g be : (⟨2, ![1, 128]⟩ : Shape).Idx → EReal) (W : (⟨2, ![128, 128]⟩ : Shape).Idx → EReal)
    (b : (⟨2, ![1, 128]⟩ : Shape).Idx → EReal) (r : Fin R) (r' : Fin R') (q : Fin 128)
    (hA : ∀ k, A (ix2 r k) = A' (ix2 r' k)) (hB : ∀ k, B (ix2 r k) = B' (ix2 r' k)) :
    Cert.Gnn.mlp2 A B WA WB bias g be W b (ix2 r q) = Cert.Gnn.mlp2 A' B' WA WB bias g be W b (ix2 r' q) := by
  unfold Cert.Gnn.mlp2
  rw [Cert.Gnn.mlpRows_apply, Cert.Gnn.mlpRows_apply]
  have hpre : (fun j => Cert.Gnn.leaky (Cert.Gnn.pre2 A B WA WB bias r j))
      = (fun j => Cert.Gnn.leaky (Cert.Gnn.pre2 A' B' WA WB bias r' j)) := by
    funext j
    unfold Cert.Gnn.pre2
    simp only [hA, hB]
  rw [hpre]

/-- What point t writes back is block t of the MLP of the operand arrays as the region finds them. -/
theorem flushed_eq (c : Dev nD) (t : Fin cfg0.N) :
    (dat0 (F := Ideal) V c).flushed 9 t = ((cfg0.win 9).blk t).view.read (Elt Ideal)
      (Cert.Gnn.mlp2 (V c main_v10) (V c main_arg2) (V c main_v11) (V c main_v12) (V c main_v17) (V c main_v18) (V c main_v19)
          (V c main_arg9) (V c main_v20)) := by
  show (cfg0.win 9).cut (grid0.coords t) ((dat0 (F := Ideal) V c).after 9 t) = _
  rw [after0_9, Cert.KernelIdeal.EdgeBlock.out0_9_eq, blk2, blk3, blk4, blk5, blk6, blk7, blk8]
  funext y
  obtain ⟨p, q, rfl⟩ : ∃ (p : Fin 5000) (q : Fin 128), y = ix2 p q := ⟨y 0, y 1, eq_ix2 y⟩
  show Cert.Gnn.mlp2 (iblk0 V c 0 t) (iblk0 V c 1 t) (V c main_v11) (V c main_v12) (V c main_v17) (V c main_v18) (V c main_v19)
          (V c main_arg9) (V c main_v20) (ix2 p q)
      = Cert.Gnn.mlp2 (V c main_v10) (V c main_arg2) (V c main_v11) (V c main_v12) (V c main_v17) (V c main_v18) (V c main_v19)
          (V c main_arg9) (V c main_v20) (((cfg0.win 9).blk t).view.emb (ix2 p q))
  rw [emb9]
  exact mlp2_row_congr _ _ _ _ _ _ _ _ _ _ _ p _ q (fun k => blk0 V c t p k) (fun k => blk1 V c t p k)

/-- An index of the array is in point t's block iff each coordinate is in the block's range on its axis. -/
theorem mem_blk (t : Fin cfg0.N) (i : S800000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v21).slice (win0_9.rect t)).set ↔ _
  rw [View.set_slice_whole, Rect.mem_set_unit]
  exact Iff.rfl

/-- Every index of the array is in some point's block: row r is in the block of the point whose row block is r / 5000. -/
theorem cover (i : S800000x128.Idx) :
    ∃ t : Fin cfg0.N, (cfg0.win 9).flush t = true ∧ i ∈ ((cfg0.win 9).blk t).view.set := by
  have hi0 : (i 0).val < 800000 := (i 0).isLt
  have hi1 : (i 1).val < 128 := (i 1).isLt
  obtain ⟨t, ht⟩ := idx_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The edge region's result array after the region, as the MLP of the operand arrays the region found. -/
theorem arrAt0 (c : Dev nD) :
    (dat0 (F := Ideal) V c).arrAt 9 cfg0.N
      = Cert.Gnn.mlp2 (V c main_v10) (V c main_arg2) (V c main_v11) (V c main_v12) (V c main_v17) (V c main_v18) (V c main_v19)
          (V c main_arg9) (V c main_v20) :=
  (dat0 (F := Ideal) V c).arrAt_eq_of_cover 9 _ (fun t _ => flushed_eq V c t) cover

end Cert.KernelIdeal.EdgeArray

end
-- ==== Proof.NodeBlock.lean ====
/-
  One block of the node kernel: what the body stores, read entry by entry, is the row MLP of the loaded blocks.
-/
import proofs.«113419_j65292092833799_1_alg».proof.Proof.Gen.KernelIdeal.Frame
import proofs.«113419_j65292092833799_1_alg».proof.Proof.MlpSpec
import proofs.«113419_j65292092833799_1_alg».proof.Proof.LibMatmul
import Idealize.ShloMosaic.PureOps.Ideal.Laws
import Idealize.ShloMosaic.Lib.ValueLayout
import Idealize.ShloMosaic.Lib.Pipeline.Value

set_option maxRecDepth 16384

noncomputable section

namespace Cert.KernelIdeal.NodeBlock

open Cert.KernelIdeal Cert.KernelIdeal.Gen Idealize.ShloMosaic Idealize.ShloMosaic.TcCoe Idealize.ShloMosaic.ValueIdx Idealize.SL.Sem
open Idealize.ShloMosaic.Pipeline (Dat Cfg Window)

variable {α : Type}

/-- A length-a array cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over many: an [a, 1] array broadcast to [a, b] reads, at (p, c), the operand at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row reduction's inserted index at row p and lane k is (p, k). -/
theorem lift_row (p : Fin 5000) (k : Fin 128) :
    reduces_S5000x128_S5000.lift (ix1 p) k = ix2 p k := by
  funext a
  match a with
  | ⟨0, _⟩ => rfl
  | ⟨1, _⟩ => rfl

/-- The lane sum of a [5000, 128] array at row p. -/
theorem rowSum_apply (v : FVec Ideal S5000x128 .f32) (p : Fin 5000) :
    multiReduction (F := Ideal) .add [1] S5000 v 0x00000000#32 reduces_S5000x128_S5000 (.inl rfl) rfl (ix1 p)
      = ∑ k : Fin 128, v (ix2 p k) := by
  refine (Ideal.multiReduction_add_single v _ reduces_S5000x128_S5000 (.inl rfl) rfl (ix1 p)).trans ?_
  exact Finset.sum_congr rfl fun k _ => congrArg v (lift_row p k)

/-- The kernel's product into the zero constant at (p, q). -/
theorem mm_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.Matmul.matmul_plain_apply none l r p q

/-- The lane sum cast to a column, at (p, u). -/
theorem rowSumCol_apply (v : FVec Ideal S5000x128 .f32) (p : Fin 5000) (u : Fin 1) :
    shapeCast S5000x1 (multiReduction (F := Ideal) .add [1] S5000 v 0x00000000#32 reduces_S5000x128_S5000 (.inl rfl) rfl)
        shapeCasts_S5000_S5000x1 (ix2 p u) = ∑ k : Fin 128, v (ix2 p k) := by
  rw [shapeCast_a_a1_apply, rowSum_apply]

/-- LeakyReLU of the two products plus the bias row, at (p, j). -/
theorem pay2_apply (x0 x1 : Vec Ideal S5000x128 .f32) (x2 x3 : Vec Ideal S128x128 .f32) (x4 : Vec Ideal S1x128 .f32)
    (p : Fin 5000) (j : Fin 128) :
    k1_pay2 (F := Ideal) x0 x1 x2 x3 x4 (ix2 p j) = Cert.Gnn.leaky (Cert.Gnn.pre2 x0 x1 x2 x3 x4 p j) := by
  unfold k1_pay2
  simp only [shapeCast_self]
  rw [select_apply, cmpf_apply, mulf_apply, broadcast_apply, broadcast_apply, addf_apply, addf_apply, mm_apply, mm_apply,
    broadcastTo_1b_ab_apply]
  rfl

/-- The row mean, at (p, u). -/
theorem pay5_apply (x0 x1 : Vec Ideal S5000x128 .f32) (x2 x3 : Vec Ideal S128x128 .f32) (x4 : Vec Ideal S1x128 .f32)
    (p : Fin 5000) (u : Fin 1) :
    k1_pay5 (F := Ideal) x0 x1 x2 x3 x4 (ix2 p u)
      = Cert.Gnn.rowMean (fun j => k1_pay2 (F := Ideal) x0 x1 x2 x3 x4 (ix2 p j)) := by
  unfold k1_pay5
  simp only []
  rw [divf_apply, rowSumCol_apply]
  rfl

/-- The row's sum of squared deviations from its mean, at (p, u). -/
theorem pay6_apply (x0 x1 : Vec Ideal S5000x128 .f32) (x2 x3 : Vec Ideal S128x128 .f32) (x4 : Vec Ideal S1x128 .f32)
    (p : Fin 5000) (u : Fin 1) :
    k1_pay6 (F := Ideal) x0 x1 x2 x3 x4 (ix2 p u)
      = ∑ k : Fin 128, (k1_pay2 (F := Ideal) x0 x1 x2 x3 x4 (ix2 p k) - k1_pay5 (F := Ideal) x0 x1 x2 x3 x4 (ix2 p (0 : Fin 1)))
          * (k1_pay2 (F := Ideal) x0 x1 x2 x3 x4 (ix2 p k) - k1_pay5 (F := Ideal) x0 x1 x2 x3 x4 (ix2 p (0 : Fin 1))) := by
  unfold k1_pay6
  simp only []
  rw [rowSumCol_apply]
  refine Finset.sum_congr rfl fun k _ => ?_
  rw [mulf_apply, subf_apply, broadcastTo_a1_ab_apply]

/-- The normalised row through the second layer, at (p, q), over arbitrary operands. -/
theorem pay1_apply (v22 : FVec Ideal S5000x128 .f32) (v24 v26 : FVec Ideal S1x128 .f32) (v30 v35 v36 : FVec Ideal S5000x1 .f32)
    (v50 : Vec Ideal S128x128 .f32) (v53 : Vec Ideal S1x128 .f32) (p : Fin 5000) (q : Fin 128) :
    k1_pay1 (F := Ideal) v22 v24 v26 v30 v35 v36 v50 v53 (ix2 p q)
      = (∑ k : Fin 128, ((v22 (ix2 p k) - v30 (ix2 p (0 : Fin 1)))
            * Ideal.rsqrt (Ideal.div (v35 (ix2 p (0 : Fin 1))) (v36 (ix2 p (0 : Fin 1))) + Ideal.ofBits .f32 0x3727C5AC#32)
            * v24 (ix2 (0 : Fin 1) k) + v26 (ix2 (0 : Fin 1) k)) * v50 (ix2 k q))
        + v53 (ix2 (0 : Fin 1) q) := by
  unfold k1_pay1
  simp only [shapeCast_self]
  rw [addf_apply, mm_apply, broadcastTo_1b_ab_apply]
  refine congrArg (· + v53 (ix2 (0 : Fin 1) q)) ?_
  refine Finset.sum_congr rfl fun k _ => ?_
  rw [truncf_apply, truncf_apply, addf_apply, mulf_apply, mulf_apply, subf_apply, broadcastTo_a1_ab_apply,
    broadcastTo_a1_ab_apply, broadcastTo_1b_ab_apply, broadcastTo_1b_ab_apply]
  rfl

/-- The node kernel's stored block is the MLP of its nine loaded blocks, row by row. -/
theorem out1_9_eq (x0 x1 : Vec Ideal S5000x128 .f32) (x2 x3 : Vec Ideal S128x128 .f32)
    (x4 x5 x6 : Vec Ideal S1x128 .f32) (x7 : Vec Ideal S128x128 .f32) (x8 : Vec Ideal S1x128 .f32) :
    out1_9 (F := Ideal) x0 x1 x2 x3 x4 x5 x6 x7 x8 = Cert.Gnn.mlp2 x0 x1 x2 x3 x4 x5 x6 x7 x8 := by
  have hz : (![0, 0] : Fin 2 → Nat) = fun _ => 0 := funext fun a => by fin_cases a <;> rfl
  unfold out1_9
  rw [View.canon_unit_zero hz]
  simp only [View.ld_unit_zero (S := S5000x128) hz, View.ld_unit_zero (S := S128x128) hz,
    View.ld_unit_zero (S := S1x128) hz]
  funext i
  obtain ⟨p, q, rfl⟩ : ∃ (p : Fin 5000) (q : Fin 128), i = ix2 p q := ⟨i 0, i 1, eq_ix2 i⟩
  rw [pay1_apply, pay5_apply, pay6_apply, pay5_apply]
  simp only [pay2_apply]
  unfold k1_pay3 k1_pay4 k1_pay7
  simp only [shapeCast_self]
  rfl

end Cert.KernelIdeal.NodeBlock

end
-- ==== Proof.NodeArray.lean ====
/-
  The node region's result array: every block the pipeline writes back is the matching block of the row MLP of the
  region's operand arrays, and the blocks cover the array.
-/
import proofs.«113419_j65292092833799_1_alg».proof.Proof.NodeBlock

set_option maxRecDepth 16384

noncomputable section

namespace Cert.KernelIdeal.NodeArray

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block index maps, decided over the grid: the two row-blocked operands move with the result's block on the row
    axis and stay at column block 0, the result's row block stays in range, and every other operand stays at block (0, 0). -/
theorem idx_facts : ∀ t : Fin cfg1.N,
    win1_0.index t (0 : Fin 2) = win1_9.index t (0 : Fin 2)
    ∧ win1_0.index t (1 : Fin 2) = 0
    ∧ win1_1.index t (0 : Fin 2) = win1_9.index t (0 : Fin 2)
    ∧ win1_1.index t (1 : Fin 2) = 0
    ∧ win1_9.index t (1 : Fin 2) = 0
    ∧ win1_9.index t (0 : Fin 2) ≤ 9
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Every row block of the result is some point's. -/
theorem idx_onto : ∀ (q0 : Fin 10), ∃ t : Fin cfg1.N, win1_9.index t = ![q0.val, 0] :=
  (by decide +kernel : ∀ (q0 : Fin 10), ∃ t : Fin grid1.N, win1_9.index t = ![q0.val, 0])

/-- A row of a point's block is a row of the array. -/
theorem row_lt (t : Fin cfg1.N) (p : Fin 5000) : win1_9.index t (0 : Fin 2) * 5000 + p.val < 50000 := by
  obtain ⟨_, _, _, _, _, h, _⟩ := idx_facts t
  have := p.isLt
  omega

/-- Row p of window 0's block at point t is row (block index · 5000 + p) of its array. -/
theorem blk0 (c : Dev nD) (t : Fin cfg1.N) (p : Fin 5000) (k : Fin 128) :
    iblk1 V c 0 t (ix2 p k) = V c main_arg0 (ix2 ⟨win1_9.index t (0 : Fin 2) * 5000 + p.val, row_lt t p⟩ k) := by
  obtain ⟨e0, e1, _⟩ := idx_facts t
  show V c main_arg0 (((cfg1.win 0).blk t).view.emb (ix2 p k)) = _
  congr 1
  funext a; apply Fin.ext
  match a with
  | ⟨0, _⟩ => show win1_0.index t (0 : Fin 2) * 5000 + 1 * p.val = win1_9.index t (0 : Fin 2) * 5000 + p.val; omega
  | ⟨1, _⟩ => show win1_0.index t (1 : Fin 2) * 128 + 1 * k.val = k.val; omega

/-- Row p of window 1's block at point t is row (block index · 5000 + p) of its array. -/
theorem blk1 (c : Dev nD) (t : Fin cfg1.N) (p : Fin 5000) (k : Fin 128) :
    iblk1 V c 1 t (ix2 p k) = V c main_v33 (ix2 ⟨win1_9.index t (0 : Fin 2) * 5000 + p.val, row_lt t p⟩ k) := by
  obtain ⟨_, _, e0, e1, _⟩ := idx_facts t
  show V c main_v33 (((cfg1.win 1).blk t).view.emb (ix2 p k)) = _
  congr 1
  funext a; apply Fin.ext
  match a with
  | ⟨0, _⟩ => show win1_1.index t (0 : Fin 2) * 5000 + 1 * p.val = win1_9.index t (0 : Fin 2) * 5000 + p.val; omega
  | ⟨1, _⟩ => show win1_1.index t (1 : Fin 2) * 128 + 1 * k.val = k.val; omega

/-- Window 2 stays at block (0, 0), and that block is the whole array. -/
theorem blk2 (c : Dev nD) (t : Fin cfg1.N) : iblk1 V c 2 t = V c main_v34 := by
  obtain ⟨_, _, _, _, _, _, e0, e1, _⟩ := idx_facts t
  funext j
  show V c main_v34 (((cfg1.win 2).blk t).view.emb j) = V c main_v34 j
  congr 1
  funext a; apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- Window 3 stays at block (0, 0), and that block is the whole array. -/
theorem blk3 (c : Dev nD) (t : Fin cfg1.N) : iblk1 V c 3 t = V c main_v35 := by
  obtain ⟨_, _, _, _, _, _, _, _, e0, e1, _⟩ := idx_facts t
  funext j
  show V c main_v35 (((cfg1.win 3).blk t).view.emb j) = V c main_v35 j
  congr 1
  funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- Window 4 stays at block (0, 0), and that block is the whole array. -/
theorem blk4 (c : Dev nD) (t : Fin cfg1.N) : iblk1 V c 4 t = V c main_v36 := by
  obtain ⟨_, _, _, _, _, _, _, _, _, _, e0, e1, _⟩ := idx_facts t
  funext j
  show V c main_v36 (((cfg1.win 4).blk t).view.emb j) = V c main_v36 j
  congr 1
  funext a; apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- Window 5 stays at block (0, 0), and that block is the whole array. -/
theorem blk5 (c : Dev nD) (t : Fin cfg1.N) : iblk1 V c 5 t = V c main_v37 := by
  obtain ⟨_, _, _, _, _, _, _, _, _, _, _, _, e0, e1, _⟩ := idx_facts t
  funext j
  show V c main_v37 (((cfg1.win 5).blk t).view.emb j) = V c main_v37 j
  congr 1
  funext a; apply Fin.ext
  match a with
  | ⟨0, _⟩ => show win1_5.index t (0 : Fin 2) * 1 + 1 * (j 0).val = (j 0).val; omega
  | ⟨1, _⟩ => show win1_5.index t (1 : Fin 2) * 128 + 1 * (j 1).val = (j 1).val; omega

/-- Window 6 stays at block (0, 0), and that block is the whole array. -/
theorem blk6 (c : Dev nD) (t : Fin cfg1.N) : iblk1 V c 6 t = V c main_v38 := by
  obtain ⟨_, _, _, _, _, _, _, _, _, _, _, _, _, _, e0, e1, _⟩ := idx_facts t
  funext j
  show V c main_v38 (((cfg1.win 6).blk t).view.emb j) = V c main_v38 j
  congr 1
  funext a; apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Window 7 stays at block (0, 0), and that block is the whole array. -/
theorem blk7 (c : Dev nD) (t : Fin cfg1.N) : iblk1 V c 7 t = V c main_arg15 := by
  obtain ⟨_, _, _, _, _, _, _, _, _, _, _, _, _, _, _, _, e0, e1, _⟩ := idx_facts t
  funext j
  show V c main_arg15 (((cfg1.win 7).blk t).view.emb j) = V c main_arg15 j
  congr 1
  funext a; apply Fin.ext
  match a with
  | ⟨0, _⟩ => show win1_7.index t (0 : Fin 2) * 128 + 1 * (j 0).val = (j 0).val; omega
  | ⟨1, _⟩ => show win1_7.index t (1 : Fin 2) * 128 + 1 * (j 1).val = (j 1).val; omega

/-- Window 8 stays at block (0, 0), and that block is the whole array. -/
theorem blk8 (c : Dev nD) (t : Fin cfg1.N) : iblk1 V c 8 t = V c main_v39 := by
  obtain ⟨_, _, _, _, _, _, _, _, _, _, _, _, _, _, _, _, _, _, e0, e1⟩ := idx_facts t
  funext j
  show V c main_v39 (((cfg1.win 8).blk t).view.emb j) = V c main_v39 j
  congr 1
  funext a; apply Fin.ext
  match a with
  | ⟨0, _⟩ => show win1_8.index t (0 : Fin 2) * 1 + 1 * (j 0).val = (j 0).val; omega
  | ⟨1, _⟩ => show win1_8.index t (1 : Fin 2) * 128 + 1 * (j 1).val = (j 1).val; omega

/-- Entry (p, q) of the result's block at point t sits at row (block index · 5000 + p), column q of the array. -/
theorem emb9 (t : Fin cfg1.N) (p : Fin 5000) (q : Fin 128) :
    ((cfg1.win 9).blk t).view.emb (ix2 p q) = ix2 ⟨win1_9.index t (0 : Fin 2) * 5000 + p.val, row_lt t p⟩ q := by
  obtain ⟨_, _, _, _, e1, _⟩ := idx_facts t
  funext a; apply Fin.ext
  match a with
  | ⟨0, _⟩ => show win1_9.index t (0 : Fin 2) * 5000 + 1 * p.val = win1_9.index t (0 : Fin 2) * 5000 + p.val; omega
  | ⟨1, _⟩ => show win1_9.index t (1 : Fin 2) * 128 + 1 * q.val = q.val; omega

/-- The MLP reads its two row-blocked operands one row at a time: if row r of the first pair is row r' of the second
    pair, the results agree on those rows. -/
theorem mlp2_row_congr {R R' n1 n2 : Nat}
    (A : (⟨2, ![R, n1]⟩ : Shape).Idx → EReal) (B : (⟨2, ![R, n2]⟩ : Shape).Idx → EReal)
    (A' : (⟨2, ![R', n1]⟩ : Shape).Idx → EReal) (B' : (⟨2, ![R', n2]⟩ : Shape).Idx → EReal)
    (WA : (⟨2, ![n1, 128]⟩ : Shape).Idx → EReal) (WB : (⟨2, ![n2, 128]⟩ : Shape).Idx → EReal)
    (bias g be : (⟨2, ![1, 128]⟩ : Shape).Idx → EReal) (W : (⟨2, ![128, 128]⟩ : Shape).Idx → EReal)
    (b : (⟨2, ![1, 128]⟩ : Shape).Idx → EReal) (r : Fin R) (r' : Fin R') (q : Fin 128)
    (hA : ∀ k, A (ix2 r k) = A' (ix2 r' k)) (hB : ∀ k, B (ix2 r k) = B' (ix2 r' k)) :
    Cert.Gnn.mlp2 A B WA WB bias g be W b (ix2 r q) = Cert.Gnn.mlp2 A' B' WA WB bias g be W b (ix2 r' q) := by
  unfold Cert.Gnn.mlp2
  rw [Cert.Gnn.mlpRows_apply, Cert.Gnn.mlpRows_apply]
  have hpre : (fun j => Cert.Gnn.leaky (Cert.Gnn.pre2 A B WA WB bias r j))
      = (fun j => Cert.Gnn.leaky (Cert.Gnn.pre2 A' B' WA WB bias r' j)) := by
    funext j
    unfold Cert.Gnn.pre2
    simp only [hA, hB]
  rw [hpre]

/-- What point t writes back is block t of the MLP of the operand arrays as the region finds them. -/
theorem flushed_eq (c : Dev nD) (t : Fin cfg1.N) :
    (dat1 (F := Ideal) V c).flushed 9 t = ((cfg1.win 9).blk t).view.read (Elt Ideal)
      (Cert.Gnn.mlp2 (V c main_arg0) (V c main_v33) (V c main_v34) (V c main_v35) (V c main_v36) (V c main_v37) (V c main_v38)
          (V c main_arg15) (V c main_v39)) := by
  show (cfg1.win 9).cut (grid1.coords t) ((dat1 (F := Ideal) V c).after 9 t) = _
  rw [after1_9, Cert.KernelIdeal.NodeBlock.out1_9_eq, blk2, blk3, blk4, blk5, blk6, blk7, blk8]
  funext y
  obtain ⟨p, q, rfl⟩ : ∃ (p : Fin 5000) (q : Fin 128), y = ix2 p q := ⟨y 0, y 1, eq_ix2 y⟩
  show Cert.Gnn.mlp2 (iblk1 V c 0 t) (iblk1 V c 1 t) (V c main_v34) (V c main_v35) (V c main_v36) (V c main_v37) (V c main_v38)
          (V c main_arg15) (V c main_v39) (ix2 p q)
      = Cert.Gnn.mlp2 (V c main_arg0) (V c main_v33) (V c main_v34) (V c main_v35) (V c main_v36) (V c main_v37) (V c main_v38)
          (V c main_arg15) (V c main_v39) (((cfg1.win 9).blk t).view.emb (ix2 p q))
  rw [emb9]
  exact mlp2_row_congr _ _ _ _ _ _ _ _ _ _ _ p _ q (fun k => blk0 V c t p k) (fun k => blk1 V c t p k)

/-- An index of the array is in point t's block iff each coordinate is in the block's range on its axis. -/
theorem mem_blk (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v40).slice (win1_9.rect t)).set ↔ _
  rw [View.set_slice_whole, Rect.mem_set_unit]
  exact Iff.rfl

/-- Every index of the array is in some point's block: row r is in the block of the point whose row block is r / 5000. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The node region's result array after the region, as the MLP of the operand arrays the region found. -/
theorem arrAt1 (c : Dev nD) :
    (dat1 (F := Ideal) V c).arrAt 9 cfg1.N
      = Cert.Gnn.mlp2 (V c main_arg0) (V c main_v33) (V c main_v34) (V c main_v35) (V c main_v36) (V c main_v37) (V c main_v38)
          (V c main_arg15) (V c main_v39) :=
  (dat1 (F := Ideal) V c).arrAt_eq_of_cover 9 _ (fun t _ => flushed_eq V c t) cover

end Cert.KernelIdeal.NodeArray

end
-- ==== Proof.KernelHost.lean ====
/-
  What the kernel program's host operations hand to its two regions, and what it returns, as functions of the arguments.

  The edge region's operands: the source rows gathered from x by the first row of the edge index (a negative index wrapped
  by the row count first), the edge attributes, the three row ranges of the first layer's weight matrix (rows 0–127 for
  the gathered node features, 128–191 for the edge attributes, 192–223 for the global features), the global features'
  contribution u · W[192:224] + b as one row, the affine parameters and the second layer's bias as rows. Between the
  regions the edge results are summed into their destination nodes and divided by the clamped counts. The node region's
  operands: x, that mean, the two row ranges of its first layer's weights, its biases and affine parameters as rows.
-/
import proofs.«113419_j65292092833799_1_alg».proof.Proof.Gen.KernelIdeal.Frame
import proofs.«113419_j65292092833799_1_alg».proof.Proof.MlpSpec
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

/-- Row r of the edge index as a vector of 800000 words. -/
def srcIdx (a1 : IVec S2x800000 32) : IVec S800000 32 :=
  shapeCast _ (extractStridedSlice S1x800000 ![0, 0] a1 slices_S2x800000_S1x800000_0_0) shapeCasts_S1x800000_S800000
def dstIdx (a1 : IVec S2x800000 32) : IVec S800000 32 :=
  shapeCast _ (extractStridedSlice S1x800000 ![1, 0] a1 slices_S2x800000_S1x800000_1_0) shapeCasts_S1x800000_S800000

/-- The gathered source rows x[src]: a negative index has the row count added before the gather. -/
def xsrc (a0 : FVec Ideal S50000x128 .f32) (a1 : IVec S2x800000 32) : FVec Ideal S800000x128 .f32 :=
  Host.gather gather_S50000x128_S800000x1_S800000x128_1_0_n_n_0_1_1128 a0
    (broadcastInDim S800000x1 ![0] bcast_S800000_S800000x1_0
      (select (cmpi .slt (srcIdx a1) (broadcastInDim S800000 ![] bcast_S_S800000 (constantI S_ 32 0#32)))
        (addi (srcIdx a1) (broadcastInDim S800000 ![] bcast_S_S800000 (constantI S_ 32 50000#32))) (srcIdx a1)))

/-- Rows 0–127, 128–191 and 192–223 of the first edge layer's weights. -/
def w1x (a5 : FVec Ideal S224x128 .f32) : FVec Ideal S128x128 .f32 := extractStridedSlice S128x128 ![0, 0] a5 slices_S224x128_S128x128_0_0
def w1e (a5 : FVec Ideal S224x128 .f32) : FVec Ideal S64x128 .f32 := extractStridedSlice S64x128 ![128, 0] a5 slices_S224x128_S64x128_128_0
def w1u (a5 : FVec Ideal S224x128 .f32) : FVec Ideal S32x128 .f32 := extractStridedSlice S32x128 ![192, 0] a5 slices_S224x128_S32x128_192_0

/-- A vector of 128 entries as a one-row matrix. -/
def asRow (v : FVec Ideal S128 .f32) : FVec Ideal S1x128 .f32 := broadcastInDim S1x128 ![1] bcast_S128_S1x128_1 v

/-- The global features' contribution to the first edge layer with its bias: u · W[192:224] + b, one row. -/
def uContrib (a3 : FVec Ideal S32 .f32) (a5 : FVec Ideal S224x128 .f32) (a6 : FVec Ideal S128 .f32) : FVec Ideal S1x128 .f32 :=
  addf (Host.dotGeneral dot_S1x32_S32x128_S1x128_1_0_0_1_n_n none (broadcastInDim S1x32 ![1] bcast_S32_S1x32_1 a3) (w1u a5)) (asRow a6)

/-- The scatter-mean of the edge results by destination node: the sums divided by the counts clamped below by one. -/
def aggOf (h : FVec Ideal S800000x128 .f32) (a1 : IVec S2x800000 32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (dstIdx a1)) h)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 (dstIdx a1))
            (broadcastInDim S800000 ![] bcast_S_S800000 (constant S_ .f32 0x3F800000#32)))
          (broadcastInDim S50000 ![] bcast_S_S50000 (constant S_ .f32 0x3F800000#32)))))

/-- Rows 0–127 and 128–255 of the first node layer's weights. -/
def w2x (a11 : FVec Ideal S256x128 .f32) : FVec Ideal S128x128 .f32 := extractStridedSlice S128x128 ![0, 0] a11 slices_S256x128_S128x128_0_0
def w2a (a11 : FVec Ideal S256x128 .f32) : FVec Ideal S128x128 .f32 := extractStridedSlice S128x128 ![128, 0] a11 slices_S256x128_S128x128_128_0

/-- The edge region's result as a function of the arguments. -/
def edgeOut (a0 : FVec Ideal S50000x128 .f32) (a1 : IVec S2x800000 32) (a2 : FVec Ideal S800000x64 .f32) (a3 : FVec Ideal S32 .f32)
    (a5 : FVec Ideal S224x128 .f32) (a6 a7 a8 : FVec Ideal S128 .f32) (a9 : FVec Ideal S128x128 .f32) (a10 : FVec Ideal S128 .f32) :
    FVec Ideal S800000x128 .f32 :=
  Cert.Gnn.mlp2 (xsrc a0 a1) a2 (w1x a5) (w1e a5) (uContrib a3 a5 a6) (asRow a7) (asRow a8) a9 (asRow a10)

/-- The program's result as a function of the arguments. -/
def kernelOut (a0 : FVec Ideal S50000x128 .f32) (a1 : IVec S2x800000 32) (a2 : FVec Ideal S800000x64 .f32) (a3 : FVec Ideal S32 .f32)
    (a5 : FVec Ideal S224x128 .f32) (a6 a7 a8 : FVec Ideal S128 .f32) (a9 : FVec Ideal S128x128 .f32) (a10 : FVec Ideal S128 .f32)
    (a11 : FVec Ideal S256x128 .f32) (a12 a13 a14 : FVec Ideal S128 .f32) (a15 : FVec Ideal S128x128 .f32) (a16 : FVec Ideal S128 .f32) :
    FVec Ideal S50000x128 .f32 :=
  Cert.Gnn.mlp2 a0 (aggOf (edgeOut a0 a1 a2 a3 a5 a6 a7 a8 a9 a10) a1) (w2x a11) (w2a a11) (asRow a12) (asRow a13) (asRow a14) a15 (asRow a16)

end Cert.KernelIdeal.HostVal

end
-- ==== Proof.KernelValue.lean ====
/-
  The kernel program's result buffer after the run, as one function of the arguments: the node MLP of x and the
  scatter-mean of the edge MLP's result, each region's operands read back through the host operations before it.
-/
import proofs.«113419_j65292092833799_1_alg».proof.Proof.EdgeArray
import proofs.«113419_j65292092833799_1_alg».proof.Proof.NodeArray
import proofs.«113419_j65292092833799_1_alg».proof.Proof.KernelHost
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.StableHlo Cert.KernelIdeal.HostVal

variable (m : (ℓ : Loc nD τ sig) → Buf (Elt Ideal) ℓ) (ρ : Dev nD → PrngReg)

/-- The contents after a host stretch at a literal buffer: each operation's result read at its own buffer, every other
    operation passed by. -/
local macro "host0" : tactic => `(tactic| (dsimp only [hostOps0]; after_results_simp))
local macro "host1" : tactic => `(tactic| (dsimp only [hostOps1]; after_results_simp))

/-! ## The first host stretch: the edge region's operands, and what the second stretch reads, from the arguments -/

theorem V1_v10 (c : Dev nD) : V1 (F := Ideal) m ρ c main_v10 = xsrc (m ((c.tc : Thread nD τ).loc main_arg0)) (m ((c.tc : Thread nD τ).loc main_arg1)) := by
  show StableHlo.after hostOps0 (W0 m ρ c) (Proc.devRef .tc main_v10) = _
  host0; rfl
theorem V1_v11 (c : Dev nD) : V1 (F := Ideal) m ρ c main_v11 = w1x (m ((c.tc : Thread nD τ).loc main_arg5)) := by
  show StableHlo.after hostOps0 (W0 m ρ c) (Proc.devRef .tc main_v11) = _
  host0; rfl
theorem V1_v12 (c : Dev nD) : V1 (F := Ideal) m ρ c main_v12 = w1e (m ((c.tc : Thread nD τ).loc main_arg5)) := by
  show StableHlo.after hostOps0 (W0 m ρ c) (Proc.devRef .tc main_v12) = _
  host0; rfl
theorem V1_v17 (c : Dev nD) : V1 (F := Ideal) m ρ c main_v17 = uContrib (m ((c.tc : Thread nD τ).loc main_arg3)) (m ((c.tc : Thread nD τ).loc main_arg5)) (m ((c.tc : Thread nD τ).loc main_arg6)) := by
  show StableHlo.after hostOps0 (W0 m ρ c) (Proc.devRef .tc main_v17) = _
  host0; rfl
theorem V1_v18 (c : Dev nD) : V1 (F := Ideal) m ρ c main_v18 = asRow (m ((c.tc : Thread nD τ).loc main_arg7)) := by
  show StableHlo.after hostOps0 (W0 m ρ c) (Proc.devRef .tc main_v18) = _
  host0; rfl
theorem V1_v19 (c : Dev nD) : V1 (F := Ideal) m ρ c main_v19 = asRow (m ((c.tc : Thread nD τ).loc main_arg8)) := by
  show StableHlo.after hostOps0 (W0 m ρ c) (Proc.devRef .tc main_v19) = _
  host0; rfl
theorem V1_v20 (c : Dev nD) : V1 (F := Ideal) m ρ c main_v20 = asRow (m ((c.tc : Thread nD τ).loc main_arg10)) := by
  show StableHlo.after hostOps0 (W0 m ρ c) (Proc.devRef .tc main_v20) = _
  host0; rfl
theorem V1_arg2 (c : Dev nD) : V1 (F := Ideal) m ρ c main_arg2 = (m ((c.tc : Thread nD τ).loc main_arg2)) := by
  show StableHlo.after hostOps0 (W0 m ρ c) (Proc.devRef .tc main_arg2) = _
  host0
theorem V1_arg9 (c : Dev nD) : V1 (F := Ideal) m ρ c main_arg9 = (m ((c.tc : Thread nD τ).loc main_arg9)) := by
  show StableHlo.after hostOps0 (W0 m ρ c) (Proc.devRef .tc main_arg9) = _
  host0
theorem W1_v3 (c : Dev nD) : W1 (F := Ideal) m ρ c (Proc.devRef .tc main_v3) = dstIdx (m ((c.tc : Thread nD τ).loc main_arg1)) := by
  show StableHlo.after hostOps0 (W0 m ρ c) (Proc.devRef .tc main_v3) = _
  host0; rfl
theorem W1_arg0 (c : Dev nD) : W1 (F := Ideal) m ρ c (Proc.devRef .tc main_arg0) = (m ((c.tc : Thread nD τ).loc main_arg0)) := by
  show StableHlo.after hostOps0 (W0 m ρ c) (Proc.devRef .tc main_arg0) = _
  host0
theorem W1_arg11 (c : Dev nD) : W1 (F := Ideal) m ρ c (Proc.devRef .tc main_arg11) = (m ((c.tc : Thread nD τ).loc main_arg11)) := by
  show StableHlo.after hostOps0 (W0 m ρ c) (Proc.devRef .tc main_arg11) = _
  host0
theorem W1_arg12 (c : Dev nD) : W1 (F := Ideal) m ρ c (Proc.devRef .tc main_arg12) = (m ((c.tc : Thread nD τ).loc main_arg12)) := by
  show StableHlo.after hostOps0 (W0 m ρ c) (Proc.devRef .tc main_arg12) = _
  host0
theorem W1_arg13 (c : Dev nD) : W1 (F := Ideal) m ρ c (Proc.devRef .tc main_arg13) = (m ((c.tc : Thread nD τ).loc main_arg13)) := by
  show StableHlo.after hostOps0 (W0 m ρ c) (Proc.devRef .tc main_arg13) = _
  host0
theorem W1_arg14 (c : Dev nD) : W1 (F := Ideal) m ρ c (Proc.devRef .tc main_arg14) = (m ((c.tc : Thread nD τ).loc main_arg14)) := by
  show StableHlo.after hostOps0 (W0 m ρ c) (Proc.devRef .tc main_arg14) = _
  host0
theorem W1_arg15 (c : Dev nD) : W1 (F := Ideal) m ρ c (Proc.devRef .tc main_arg15) = (m ((c.tc : Thread nD τ).loc main_arg15)) := by
  show StableHlo.after hostOps0 (W0 m ρ c) (Proc.devRef .tc main_arg15) = _
  host0
theorem W1_arg16 (c : Dev nD) : W1 (F := Ideal) m ρ c (Proc.devRef .tc main_arg16) = (m ((c.tc : Thread nD τ).loc main_arg16)) := by
  show StableHlo.after hostOps0 (W0 m ρ c) (Proc.devRef .tc main_arg16) = _
  host0

/-! ## The edge region: its result is the edge MLP of the gathered rows; the buffers it does not own are as entered -/

theorem W2_v21 (c : Dev nD) : W2 (F := Ideal) m ρ c (Proc.devRef .tc main_v21) = edgeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W2_arr m ρ c 9).trans ?_
  rw [Cert.KernelIdeal.EdgeArray.arrAt0 (V1 m ρ) c, V1_v10, V1_arg2, V1_v11, V1_v12, V1_v17, V1_v18, V1_v19, V1_arg9, V1_v20]
  rfl
theorem W2_v3 (c : Dev nD) : W2 (F := Ideal) m ρ c (Proc.devRef .tc main_v3) = dstIdx (m ((c.tc : Thread nD τ).loc main_arg1)) :=
  (W2_of_ne m ρ c main_v3 (by decide)).trans (W1_v3 m ρ c)
theorem W2_arg0 (c : Dev nD) : W2 (F := Ideal) m ρ c (Proc.devRef .tc main_arg0) = (m ((c.tc : Thread nD τ).loc main_arg0)) :=
  (W2_of_ne m ρ c main_arg0 (by decide)).trans (W1_arg0 m ρ c)
theorem W2_arg11 (c : Dev nD) : W2 (F := Ideal) m ρ c (Proc.devRef .tc main_arg11) = (m ((c.tc : Thread nD τ).loc main_arg11)) :=
  (W2_of_ne m ρ c main_arg11 (by decide)).trans (W1_arg11 m ρ c)
theorem W2_arg12 (c : Dev nD) : W2 (F := Ideal) m ρ c (Proc.devRef .tc main_arg12) = (m ((c.tc : Thread nD τ).loc main_arg12)) :=
  (W2_of_ne m ρ c main_arg12 (by decide)).trans (W1_arg12 m ρ c)
theorem W2_arg13 (c : Dev nD) : W2 (F := Ideal) m ρ c (Proc.devRef .tc main_arg13) = (m ((c.tc : Thread nD τ).loc main_arg13)) :=
  (W2_of_ne m ρ c main_arg13 (by decide)).trans (W1_arg13 m ρ c)
theorem W2_arg14 (c : Dev nD) : W2 (F := Ideal) m ρ c (Proc.devRef .tc main_arg14) = (m ((c.tc : Thread nD τ).loc main_arg14)) :=
  (W2_of_ne m ρ c main_arg14 (by decide)).trans (W1_arg14 m ρ c)
theorem W2_arg15 (c : Dev nD) : W2 (F := Ideal) m ρ c (Proc.devRef .tc main_arg15) = (m ((c.tc : Thread nD τ).loc main_arg15)) :=
  (W2_of_ne m ρ c main_arg15 (by decide)).trans (W1_arg15 m ρ c)
theorem W2_arg16 (c : Dev nD) : W2 (F := Ideal) m ρ c (Proc.devRef .tc main_arg16) = (m ((c.tc : Thread nD τ).loc main_arg16)) :=
  (W2_of_ne m ρ c main_arg16 (by decide)).trans (W1_arg16 m ρ c)

/-! ## The second host stretch: the node region's operands -/

theorem V3_arg0 (c : Dev nD) : V3 (F := Ideal) m ρ c main_arg0 = (m ((c.tc : Thread nD τ).loc main_arg0)) := by
  show StableHlo.after hostOps1 (W2 m ρ c) (Proc.devRef .tc main_arg0) = _
  host1; exact W2_arg0 m ρ c
theorem V3_v33 (c : Dev nD) : V3 (F := Ideal) m ρ c main_v33 = aggOf (edgeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) := by
  show StableHlo.after hostOps1 (W2 m ρ c) (Proc.devRef .tc main_v33) = _
  host1; rw [W2_v21, W2_v3]; rfl
theorem V3_v34 (c : Dev nD) : V3 (F := Ideal) m ρ c main_v34 = w2x (m ((c.tc : Thread nD τ).loc main_arg11)) := by
  show StableHlo.after hostOps1 (W2 m ρ c) (Proc.devRef .tc main_v34) = _
  host1; rw [W2_arg11]; rfl
theorem V3_v35 (c : Dev nD) : V3 (F := Ideal) m ρ c main_v35 = w2a (m ((c.tc : Thread nD τ).loc main_arg11)) := by
  show StableHlo.after hostOps1 (W2 m ρ c) (Proc.devRef .tc main_v35) = _
  host1; rw [W2_arg11]; rfl
theorem V3_v36 (c : Dev nD) : V3 (F := Ideal) m ρ c main_v36 = asRow (m ((c.tc : Thread nD τ).loc main_arg12)) := by
  show StableHlo.after hostOps1 (W2 m ρ c) (Proc.devRef .tc main_v36) = _
  host1; rw [W2_arg12]; rfl
theorem V3_v37 (c : Dev nD) : V3 (F := Ideal) m ρ c main_v37 = asRow (m ((c.tc : Thread nD τ).loc main_arg13)) := by
  show StableHlo.after hostOps1 (W2 m ρ c) (Proc.devRef .tc main_v37) = _
  host1; rw [W2_arg13]; rfl
theorem V3_v38 (c : Dev nD) : V3 (F := Ideal) m ρ c main_v38 = asRow (m ((c.tc : Thread nD τ).loc main_arg14)) := by
  show StableHlo.after hostOps1 (W2 m ρ c) (Proc.devRef .tc main_v38) = _
  host1; rw [W2_arg14]; rfl
theorem V3_arg15 (c : Dev nD) : V3 (F := Ideal) m ρ c main_arg15 = (m ((c.tc : Thread nD τ).loc main_arg15)) := by
  show StableHlo.after hostOps1 (W2 m ρ c) (Proc.devRef .tc main_arg15) = _
  host1; exact W2_arg15 m ρ c
theorem V3_v39 (c : Dev nD) : V3 (F := Ideal) m ρ c main_v39 = asRow (m ((c.tc : Thread nD τ).loc main_arg16)) := by
  show StableHlo.after hostOps1 (W2 m ρ c) (Proc.devRef .tc main_v39) = _
  host1; rw [W2_arg16]; rfl

/-- The last boundary's contents at the result buffer: the program's result as a function of the arguments. -/
theorem W4_v40 (c : Dev nD) :
    W4 (F := Ideal) m ρ c (Proc.devRef .tc main_v40)
      = kernelOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15))
          (m ((c.tc : Thread nD τ).loc main_arg16)) := by
  refine (W4_arr m ρ c 9).trans ?_
  rw [Cert.KernelIdeal.NodeArray.arrAt1 (V3 m ρ) c, V3_arg0, V3_v33, V3_v34, V3_v35, V3_v36, V3_v37, V3_v38, V3_arg15, V3_v39]
  rfl

end Cert.KernelIdeal.Value

end
-- ==== Proof.RefRun.lean ====
/-
  The reference program's run, read back in stretches: its @main is one straight line of 121 host operations, cut here
  into 15 consecutive stretches. For each stretch, from what the buffers it reads hold when it starts (each
  earlier result at its stage function of the arguments, each argument as launched), every buffer a later stretch still
  reads holds its stage function of the arguments when the stretch ends. Chained from the launch memory, the result
  buffer ends at the last stage function of the arguments, and no operation writes an argument.
-/
import proofs.«113419_j65292092833799_1_alg».proof.Proof.RefRunOps
import proofs.«113419_j65292092833799_1_alg».proof.Proof.RefRead
import Idealize.ShloMosaic.Lib.Pipeline.Frame

set_option maxRecDepth 8192

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A three-operand operation over a literal family of references leaves, at its result, its function of the three
    operands' contents, each at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- One stretch's fold read at one buffer: each operation's result at its own buffer is its function of its operands'
    contents, and at any other buffer what was there. -/
macro "stretch_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## Stretch 0: operations 0 to 7 -/

abbrev s0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32) ]

theorem s0_main_c_0 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_arg1 : W (Proc.devRef .tc main_arg1) = x1)
    (h_main_arg0 : W (Proc.devRef .tc main_arg0) = x0)
    (h_main_arg3 : W (Proc.devRef .tc main_arg3) = x3)
    (h_main_arg2 : W (Proc.devRef .tc main_arg2) = x2)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s0 (F := F)) W (Proc.devRef .tc main_c_0) = (val_main_c_0 (F := F)) := by
  stretch_results
  repeat (first | rw [h_main_arg1] | rw [h_main_arg0] | rw [h_main_arg3] | rw [h_main_arg2] | rw [h_main_arg5] | rw [h_main_arg6] | rw [h_main_arg7] | rw [h_main_arg8] | rw [h_main_arg9] | rw [h_main_arg10] | rw [h_main_arg11] | rw [h_main_arg12] | rw [h_main_arg13] | rw [h_main_arg14] | rw [h_main_arg15] | rw [h_main_arg16])
  all_goals rfl

theorem s0_main_v1 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_arg1 : W (Proc.devRef .tc main_arg1) = x1)
    (h_main_arg0 : W (Proc.devRef .tc main_arg0) = x0)
    (h_main_arg3 : W (Proc.devRef .tc main_arg3) = x3)
    (h_main_arg2 : W (Proc.devRef .tc main_arg2) = x2)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s0 (F := F)) W (Proc.devRef .tc main_v1) = (val_main_v1 (F := F) x1) := by
  stretch_results
  repeat (first | rw [h_main_arg1] | rw [h_main_arg0] | rw [h_main_arg3] | rw [h_main_arg2] | rw [h_main_arg5] | rw [h_main_arg6] | rw [h_main_arg7] | rw [h_main_arg8] | rw [h_main_arg9] | rw [h_main_arg10] | rw [h_main_arg11] | rw [h_main_arg12] | rw [h_main_arg13] | rw [h_main_arg14] | rw [h_main_arg15] | rw [h_main_arg16])
  all_goals rfl

theorem s0_main_v5 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_arg1 : W (Proc.devRef .tc main_arg1) = x1)
    (h_main_arg0 : W (Proc.devRef .tc main_arg0) = x0)
    (h_main_arg3 : W (Proc.devRef .tc main_arg3) = x3)
    (h_main_arg2 : W (Proc.devRef .tc main_arg2) = x2)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s0 (F := F)) W (Proc.devRef .tc main_v5) = (val_main_v5 (F := F) x1) := by
  stretch_results
  repeat (first | rw [h_main_arg1] | rw [h_main_arg0] | rw [h_main_arg3] | rw [h_main_arg2] | rw [h_main_arg5] | rw [h_main_arg6] | rw [h_main_arg7] | rw [h_main_arg8] | rw [h_main_arg9] | rw [h_main_arg10] | rw [h_main_arg11] | rw [h_main_arg12] | rw [h_main_arg13] | rw [h_main_arg14] | rw [h_main_arg15] | rw [h_main_arg16])
  all_goals rfl

theorem s0_main_arg0 (x0 : (⟨S50000x128, .f32⟩ : BufTy).Contents (Elt F)) (W : Valuation τ sig (Elt F))
    (h_main_arg0 : W (Proc.devRef .tc main_arg0) = x0) :
    after (s0 (F := F)) W (Proc.devRef .tc main_arg0) = x0 := by
  stretch_results
  exact h_main_arg0

theorem s0_main_arg3 (x3 : (⟨S32, .f32⟩ : BufTy).Contents (Elt F)) (W : Valuation τ sig (Elt F))
    (h_main_arg3 : W (Proc.devRef .tc main_arg3) = x3) :
    after (s0 (F := F)) W (Proc.devRef .tc main_arg3) = x3 := by
  stretch_results
  exact h_main_arg3

theorem s0_main_arg2 (x2 : (⟨S800000x64, .f32⟩ : BufTy).Contents (Elt F)) (W : Valuation τ sig (Elt F))
    (h_main_arg2 : W (Proc.devRef .tc main_arg2) = x2) :
    after (s0 (F := F)) W (Proc.devRef .tc main_arg2) = x2 := by
  stretch_results
  exact h_main_arg2

theorem s0_main_arg5 (x5 : (⟨S224x128, .f32⟩ : BufTy).Contents (Elt F)) (W : Valuation τ sig (Elt F))
    (h_main_arg5 : W (Proc.devRef .tc main_arg5) = x5) :
    after (s0 (F := F)) W (Proc.devRef .tc main_arg5) = x5 := by
  stretch_results
  exact h_main_arg5

theorem s0_main_arg6 (x6 : (⟨S128, .f32⟩ : BufTy).Contents (Elt F)) (W : Valuation τ sig (Elt F))
    (h_main_arg6 : W (Proc.devRef .tc main_arg6) = x6) :
    after (s0 (F := F)) W (Proc.devRef .tc main_arg6) = x6 := by
  stretch_results
  exact h_main_arg6

theorem s0_main_arg7 (x7 : (⟨S128, .f32⟩ : BufTy).Contents (Elt F)) (W : Valuation τ sig (Elt F))
    (h_main_arg7 : W (Proc.devRef .tc main_arg7) = x7) :
    after (s0 (F := F)) W (Proc.devRef .tc main_arg7) = x7 := by
  stretch_results
  exact h_main_arg7

theorem s0_main_arg8 (x8 : (⟨S128, .f32⟩ : BufTy).Contents (Elt F)) (W : Valuation τ sig (Elt F))
    (h_main_arg8 : W (Proc.devRef .tc main_arg8) = x8) :
    after (s0 (F := F)) W (Proc.devRef .tc main_arg8) = x8 := by
  stretch_results
  exact h_main_arg8

theorem s0_main_arg9 (x9 : (⟨S128x128, .f32⟩ : BufTy).Contents (Elt F)) (W : Valuation τ sig (Elt F))
    (h_main_arg9 : W (Proc.devRef .tc main_arg9) = x9) :
    after (s0 (F := F)) W (Proc.devRef .tc main_arg9) = x9 := by
  stretch_results
  exact h_main_arg9

theorem s0_main_arg10 (x10 : (⟨S128, .f32⟩ : BufTy).Contents (Elt F)) (W : Valuation τ sig (Elt F))
    (h_main_arg10 : W (Proc.devRef .tc main_arg10) = x10) :
    after (s0 (F := F)) W (Proc.devRef .tc main_arg10) = x10 := by
  stretch_results
  exact h_main_arg10

theorem s0_main_v3 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_arg1 : W (Proc.devRef .tc main_arg1) = x1)
    (h_main_arg0 : W (Proc.devRef .tc main_arg0) = x0)
    (h_main_arg3 : W (Proc.devRef .tc main_arg3) = x3)
    (h_main_arg2 : W (Proc.devRef .tc main_arg2) = x2)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s0 (F := F)) W (Proc.devRef .tc main_v3) = (val_main_v3 (F := F) x1) := by
  stretch_results
  repeat (first | rw [h_main_arg1] | rw [h_main_arg0] | rw [h_main_arg3] | rw [h_main_arg2] | rw [h_main_arg5] | rw [h_main_arg6] | rw [h_main_arg7] | rw [h_main_arg8] | rw [h_main_arg9] | rw [h_main_arg10] | rw [h_main_arg11] | rw [h_main_arg12] | rw [h_main_arg13] | rw [h_main_arg14] | rw [h_main_arg15] | rw [h_main_arg16])
  all_goals rfl

theorem s0_main_arg11 (x11 : (⟨S256x128, .f32⟩ : BufTy).Contents (Elt F)) (W : Valuation τ sig (Elt F))
    (h_main_arg11 : W (Proc.devRef .tc main_arg11) = x11) :
    after (s0 (F := F)) W (Proc.devRef .tc main_arg11) = x11 := by
  stretch_results
  exact h_main_arg11

theorem s0_main_arg12 (x12 : (⟨S128, .f32⟩ : BufTy).Contents (Elt F)) (W : Valuation τ sig (Elt F))
    (h_main_arg12 : W (Proc.devRef .tc main_arg12) = x12) :
    after (s0 (F := F)) W (Proc.devRef .tc main_arg12) = x12 := by
  stretch_results
  exact h_main_arg12

theorem s0_main_arg13 (x13 : (⟨S128, .f32⟩ : BufTy).Contents (Elt F)) (W : Valuation τ sig (Elt F))
    (h_main_arg13 : W (Proc.devRef .tc main_arg13) = x13) :
    after (s0 (F := F)) W (Proc.devRef .tc main_arg13) = x13 := by
  stretch_results
  exact h_main_arg13

theorem s0_main_arg14 (x14 : (⟨S128, .f32⟩ : BufTy).Contents (Elt F)) (W : Valuation τ sig (Elt F))
    (h_main_arg14 : W (Proc.devRef .tc main_arg14) = x14) :
    after (s0 (F := F)) W (Proc.devRef .tc main_arg14) = x14 := by
  stretch_results
  exact h_main_arg14

theorem s0_main_arg15 (x15 : (⟨S128x128, .f32⟩ : BufTy).Contents (Elt F)) (W : Valuation τ sig (Elt F))
    (h_main_arg15 : W (Proc.devRef .tc main_arg15) = x15) :
    after (s0 (F := F)) W (Proc.devRef .tc main_arg15) = x15 := by
  stretch_results
  exact h_main_arg15

theorem s0_main_arg16 (x16 : (⟨S128, .f32⟩ : BufTy).Contents (Elt F)) (W : Valuation τ sig (Elt F))
    (h_main_arg16 : W (Proc.devRef .tc main_arg16) = x16) :
    after (s0 (F := F)) W (Proc.devRef .tc main_arg16) = x16 := by
  stretch_results
  exact h_main_arg16

/-! ## Stretch 1: operations 8 to 14 -/

abbrev s1 : List (HloOp τ sig (Elt F)) :=
  [ unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg3 main_v11 (broadcastInDim S1x32 ![1] bcast_S32_S1x32_1 : (⟨S32, .f32⟩ : BufTy).Contents (Elt F) → (⟨S1x32, .f32⟩ : BufTy).Contents (Elt F)),
    unary main_v11 main_v12 (broadcastInDim S800000x32 ![0, 1] bcast_S1x32_S800000x32_0_1 : (⟨S1x32, .f32⟩ : BufTy).Contents (Elt F) → (⟨S800000x32, .f32⟩ : BufTy).Contents (Elt F)) ]

theorem s1_main_v10 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_c_0 : W (Proc.devRef .tc main_c_0) = (val_main_c_0 (F := F)))
    (h_main_v1 : W (Proc.devRef .tc main_v1) = (val_main_v1 (F := F) x1))
    (h_main_v5 : W (Proc.devRef .tc main_v5) = (val_main_v5 (F := F) x1))
    (h_main_arg0 : W (Proc.devRef .tc main_arg0) = x0)
    (h_main_arg3 : W (Proc.devRef .tc main_arg3) = x3)
    (h_main_arg2 : W (Proc.devRef .tc main_arg2) = x2)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s1 (F := F)) W (Proc.devRef .tc main_v10) = (val_main_v10 (F := F) x0 x1) := by
  stretch_results
  repeat (first | rw [h_main_c_0] | rw [h_main_v1] | rw [h_main_v5] | rw [h_main_arg0] | rw [h_main_arg3] | rw [h_main_arg2] | rw [h_main_arg5] | rw [h_main_arg6] | rw [h_main_arg7] | rw [h_main_arg8] | rw [h_main_arg9] | rw [h_main_arg10] | rw [h_main_v3] | rw [h_main_arg11] | rw [h_main_arg12] | rw [h_main_arg13] | rw [h_main_arg14] | rw [h_main_arg15] | rw [h_main_arg16])
  all_goals rfl

theorem s1_main_arg2 (x2 : (⟨S800000x64, .f32⟩ : BufTy).Contents (Elt F)) (W : Valuation τ sig (Elt F))
    (h_main_arg2 : W (Proc.devRef .tc main_arg2) = x2) :
    after (s1 (F := F)) W (Proc.devRef .tc main_arg2) = x2 := by
  stretch_results
  exact h_main_arg2

theorem s1_main_v12 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_c_0 : W (Proc.devRef .tc main_c_0) = (val_main_c_0 (F := F)))
    (h_main_v1 : W (Proc.devRef .tc main_v1) = (val_main_v1 (F := F) x1))
    (h_main_v5 : W (Proc.devRef .tc main_v5) = (val_main_v5 (F := F) x1))
    (h_main_arg0 : W (Proc.devRef .tc main_arg0) = x0)
    (h_main_arg3 : W (Proc.devRef .tc main_arg3) = x3)
    (h_main_arg2 : W (Proc.devRef .tc main_arg2) = x2)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s1 (F := F)) W (Proc.devRef .tc main_v12) = (val_main_v12 (F := F) x3) := by
  stretch_results
  repeat (first | rw [h_main_c_0] | rw [h_main_v1] | rw [h_main_v5] | rw [h_main_arg0] | rw [h_main_arg3] | rw [h_main_arg2] | rw [h_main_arg5] | rw [h_main_arg6] | rw [h_main_arg7] | rw [h_main_arg8] | rw [h_main_arg9] | rw [h_main_arg10] | rw [h_main_v3] | rw [h_main_arg11] | rw [h_main_arg12] | rw [h_main_arg13] | rw [h_main_arg14] | rw [h_main_arg15] | rw [h_main_arg16])
  all_goals rfl

theorem s1_main_arg5 (x5 : (⟨S224x128, .f32⟩ : BufTy).Contents (Elt F)) (W : Valuation τ sig (Elt F))
    (h_main_arg5 : W (Proc.devRef .tc main_arg5) = x5) :
    after (s1 (F := F)) W (Proc.devRef .tc main_arg5) = x5 := by
  stretch_results
  exact h_main_arg5

theorem s1_main_arg6 (x6 : (⟨S128, .f32⟩ : BufTy).Contents (Elt F)) (W : Valuation τ sig (Elt F))
    (h_main_arg6 : W (Proc.devRef .tc main_arg6) = x6) :
    after (s1 (F := F)) W (Proc.devRef .tc main_arg6) = x6 := by
  stretch_results
  exact h_main_arg6

theorem s1_main_arg7 (x7 : (⟨S128, .f32⟩ : BufTy).Contents (Elt F)) (W : Valuation τ sig (Elt F))
    (h_main_arg7 : W (Proc.devRef .tc main_arg7) = x7) :
    after (s1 (F := F)) W (Proc.devRef .tc main_arg7) = x7 := by
  stretch_results
  exact h_main_arg7

theorem s1_main_arg8 (x8 : (⟨S128, .f32⟩ : BufTy).Contents (Elt F)) (W : Valuation τ sig (Elt F))
    (h_main_arg8 : W (Proc.devRef .tc main_arg8) = x8) :
    after (s1 (F := F)) W (Proc.devRef .tc main_arg8) = x8 := by
  stretch_results
  exact h_main_arg8

theorem s1_main_arg9 (x9 : (⟨S128x128, .f32⟩ : BufTy).Contents (Elt F)) (W : Valuation τ sig (Elt F))
    (h_main_arg9 : W (Proc.devRef .tc main_arg9) = x9) :
    after (s1 (F := F)) W (Proc.devRef .tc main_arg9) = x9 := by
  stretch_results
  exact h_main_arg9

theorem s1_main_arg10 (x10 : (⟨S128, .f32⟩ : BufTy).Contents (Elt F)) (W : Valuation τ sig (Elt F))
    (h_main_arg10 : W (Proc.devRef .tc main_arg10) = x10) :
    after (s1 (F := F)) W (Proc.devRef .tc main_arg10) = x10 := by
  stretch_results
  exact h_main_arg10

theorem s1_main_v3 (x1 : (⟨S2x800000, .i32⟩ : BufTy).Contents (Elt F)) (W : Valuation τ sig (Elt F))
    (h_main_v3 : W (Proc.devRef .tc main_v3) = (val_main_v3 (F := F) x1)) :
    after (s1 (F := F)) W (Proc.devRef .tc main_v3) = (val_main_v3 (F := F) x1) := by
  stretch_results
  exact h_main_v3

theorem s1_main_arg0 (x0 : (⟨S50000x128, .f32⟩ : BufTy).Contents (Elt F)) (W : Valuation τ sig (Elt F))
    (h_main_arg0 : W (Proc.devRef .tc main_arg0) = x0) :
    after (s1 (F := F)) W (Proc.devRef .tc main_arg0) = x0 := by
  stretch_results
  exact h_main_arg0

theorem s1_main_arg11 (x11 : (⟨S256x128, .f32⟩ : BufTy).Contents (Elt F)) (W : Valuation τ sig (Elt F))
    (h_main_arg11 : W (Proc.devRef .tc main_arg11) = x11) :
    after (s1 (F := F)) W (Proc.devRef .tc main_arg11) = x11 := by
  stretch_results
  exact h_main_arg11

theorem s1_main_arg12 (x12 : (⟨S128, .f32⟩ : BufTy).Contents (Elt F)) (W : Valuation τ sig (Elt F))
    (h_main_arg12 : W (Proc.devRef .tc main_arg12) = x12) :
    after (s1 (F := F)) W (Proc.devRef .tc main_arg12) = x12 := by
  stretch_results
  exact h_main_arg12

theorem s1_main_arg13 (x13 : (⟨S128, .f32⟩ : BufTy).Contents (Elt F)) (W : Valuation τ sig (Elt F))
    (h_main_arg13 : W (Proc.devRef .tc main_arg13) = x13) :
    after (s1 (F := F)) W (Proc.devRef .tc main_arg13) = x13 := by
  stretch_results
  exact h_main_arg13

theorem s1_main_arg14 (x14 : (⟨S128, .f32⟩ : BufTy).Contents (Elt F)) (W : Valuation τ sig (Elt F))
    (h_main_arg14 : W (Proc.devRef .tc main_arg14) = x14) :
    after (s1 (F := F)) W (Proc.devRef .tc main_arg14) = x14 := by
  stretch_results
  exact h_main_arg14

theorem s1_main_arg15 (x15 : (⟨S128x128, .f32⟩ : BufTy).Contents (Elt F)) (W : Valuation τ sig (Elt F))
    (h_main_arg15 : W (Proc.devRef .tc main_arg15) = x15) :
    after (s1 (F := F)) W (Proc.devRef .tc main_arg15) = x15 := by
  stretch_results
  exact h_main_arg15

theorem s1_main_arg16 (x16 : (⟨S128, .f32⟩ : BufTy).Contents (Elt F)) (W : Valuation τ sig (Elt F))
    (h_main_arg16 : W (Proc.devRef .tc main_arg16) = x16) :
    after (s1 (F := F)) W (Proc.devRef .tc main_arg16) = x16 := by
  stretch_results
  exact h_main_arg16

/-! ## Stretch 2: operations 15 to 23 -/

abbrev s2 : List (HloOp τ sig (Elt F)) :=
  [ nary ![main_v10, main_arg2, main_v12] main_v13 (fun u => concatenate S800000x224 1 [⟨S800000x128, u 0⟩, ⟨S800000x64, u 1⟩, ⟨S800000x32, u 2⟩] concatenates_S800000x128_S800000x64_S800000x32_S800000x224_d1),
    binary main_v13 main_arg5 main_v14 ((fun l r => Host.dotGeneral dot_S800000x224_S224x128_S800000x128_1_0_0_1_n_n none l r) : (⟨S800000x224, .f32⟩ : BufTy).Contents (Elt F) → (⟨S224x128, .f32⟩ : BufTy).Contents (Elt F) → (⟨S800000x128, .f32⟩ : BufTy).Contents (Elt F)),
    unary main_arg6 main_v15 (broadcastInDim S1x128 ![1] bcast_S128_S1x128_1 : (⟨S128, .f32⟩ : BufTy).Contents (Elt F) → (⟨S1x128, .f32⟩ : BufTy).Contents (Elt F)),
    unary main_v15 main_v16 (broadcastInDim S800000x128 ![0, 1] bcast_S1x128_S800000x128_0_1 : (⟨S1x128, .f32⟩ : BufTy).Contents (Elt F) → (⟨S800000x128, .f32⟩ : BufTy).Contents (Elt F)),
    binary main_v14 main_v16 main_v17 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v18 (broadcastInDim S800000x128 ![] bcast_S_S800000x128 : (⟨S_, .f32⟩ : BufTy).Contents (Elt F) → (⟨S800000x128, .f32⟩ : BufTy).Contents (Elt F)),
    binary main_v17 main_v18 main_v19 (cmpf .oge : (⟨S800000x128, .f32⟩ : BufTy).Contents (Elt F) → (⟨S800000x128, .f32⟩ : BufTy).Contents (Elt F) → (⟨S800000x128, .i1⟩ : BufTy).Contents (Elt F)),
    nullary main_cst_1 (constant S_ .f32 0x3C23D70A#32) ]

theorem s2_main_cst_1 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v10 : W (Proc.devRef .tc main_v10) = (val_main_v10 (F := F) x0 x1))
    (h_main_arg2 : W (Proc.devRef .tc main_arg2) = x2)
    (h_main_v12 : W (Proc.devRef .tc main_v12) = (val_main_v12 (F := F) x3))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s2 (F := F)) W (Proc.devRef .tc main_cst_1) = (val_main_cst_1 (F := F)) := by
  stretch_results
  repeat (first | rw [h_main_v10] | rw [h_main_arg2] | rw [h_main_v12] | rw [h_main_arg5] | rw [h_main_arg6] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s2_main_v17 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v10 : W (Proc.devRef .tc main_v10) = (val_main_v10 (F := F) x0 x1))
    (h_main_arg2 : W (Proc.devRef .tc main_arg2) = x2)
    (h_main_v12 : W (Proc.devRef .tc main_v12) = (val_main_v12 (F := F) x3))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s2 (F := F)) W (Proc.devRef .tc main_v17) = (val_main_v17 (F := F) x0 x1 x2 x3 x5 x6) := by
  stretch_results
  repeat (first | rw [h_main_v10] | rw [h_main_arg2] | rw [h_main_v12] | rw [h_main_arg5] | rw [h_main_arg6] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s2_main_v19 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v10 : W (Proc.devRef .tc main_v10) = (val_main_v10 (F := F) x0 x1))
    (h_main_arg2 : W (Proc.devRef .tc main_arg2) = x2)
    (h_main_v12 : W (Proc.devRef .tc main_v12) = (val_main_v12 (F := F) x3))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s2 (F := F)) W (Proc.devRef .tc main_v19) = (val_main_v19 (F := F) x0 x1 x2 x3 x5 x6) := by
  stretch_results
  repeat (first | rw [h_main_v10] | rw [h_main_arg2] | rw [h_main_v12] | rw [h_main_arg5] | rw [h_main_arg6] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s2_main_arg7 (x7 : (⟨S128, .f32⟩ : BufTy).Contents (Elt F)) (W : Valuation τ sig (Elt F))
    (h_main_arg7 : W (Proc.devRef .tc main_arg7) = x7) :
    after (s2 (F := F)) W (Proc.devRef .tc main_arg7) = x7 := by
  stretch_results
  exact h_main_arg7

theorem s2_main_arg8 (x8 : (⟨S128, .f32⟩ : BufTy).Contents (Elt F)) (W : Valuation τ sig (Elt F))
    (h_main_arg8 : W (Proc.devRef .tc main_arg8) = x8) :
    after (s2 (F := F)) W (Proc.devRef .tc main_arg8) = x8 := by
  stretch_results
  exact h_main_arg8

theorem s2_main_arg9 (x9 : (⟨S128x128, .f32⟩ : BufTy).Contents (Elt F)) (W : Valuation τ sig (Elt F))
    (h_main_arg9 : W (Proc.devRef .tc main_arg9) = x9) :
    after (s2 (F := F)) W (Proc.devRef .tc main_arg9) = x9 := by
  stretch_results
  exact h_main_arg9

theorem s2_main_arg10 (x10 : (⟨S128, .f32⟩ : BufTy).Contents (Elt F)) (W : Valuation τ sig (Elt F))
    (h_main_arg10 : W (Proc.devRef .tc main_arg10) = x10) :
    after (s2 (F := F)) W (Proc.devRef .tc main_arg10) = x10 := by
  stretch_results
  exact h_main_arg10

theorem s2_main_v3 (x1 : (⟨S2x800000, .i32⟩ : BufTy).Contents (Elt F)) (W : Valuation τ sig (Elt F))
    (h_main_v3 : W (Proc.devRef .tc main_v3) = (val_main_v3 (F := F) x1)) :
    after (s2 (F := F)) W (Proc.devRef .tc main_v3) = (val_main_v3 (F := F) x1) := by
  stretch_results
  exact h_main_v3

theorem s2_main_arg0 (x0 : (⟨S50000x128, .f32⟩ : BufTy).Contents (Elt F)) (W : Valuation τ sig (Elt F))
    (h_main_arg0 : W (Proc.devRef .tc main_arg0) = x0) :
    after (s2 (F := F)) W (Proc.devRef .tc main_arg0) = x0 := by
  stretch_results
  exact h_main_arg0

theorem s2_main_arg11 (x11 : (⟨S256x128, .f32⟩ : BufTy).Contents (Elt F)) (W : Valuation τ sig (Elt F))
    (h_main_arg11 : W (Proc.devRef .tc main_arg11) = x11) :
    after (s2 (F := F)) W (Proc.devRef .tc main_arg11) = x11 := by
  stretch_results
  exact h_main_arg11

theorem s2_main_arg12 (x12 : (⟨S128, .f32⟩ : BufTy).Contents (Elt F)) (W : Valuation τ sig (Elt F))
    (h_main_arg12 : W (Proc.devRef .tc main_arg12) = x12) :
    after (s2 (F := F)) W (Proc.devRef .tc main_arg12) = x12 := by
  stretch_results
  exact h_main_arg12

theorem s2_main_arg13 (x13 : (⟨S128, .f32⟩ : BufTy).Contents (Elt F)) (W : Valuation τ sig (Elt F))
    (h_main_arg13 : W (Proc.devRef .tc main_arg13) = x13) :
    after (s2 (F := F)) W (Proc.devRef .tc main_arg13) = x13 := by
  stretch_results
  exact h_main_arg13

theorem s2_main_arg14 (x14 : (⟨S128, .f32⟩ : BufTy).Contents (Elt F)) (W : Valuation τ sig (Elt F))
    (h_main_arg14 : W (Proc.devRef .tc main_arg14) = x14) :
    after (s2 (F := F)) W (Proc.devRef .tc main_arg14) = x14 := by
  stretch_results
  exact h_main_arg14

theorem s2_main_arg15 (x15 : (⟨S128x128, .f32⟩ : BufTy).Contents (Elt F)) (W : Valuation τ sig (Elt F))
    (h_main_arg15 : W (Proc.devRef .tc main_arg15) = x15) :
    after (s2 (F := F)) W (Proc.devRef .tc main_arg15) = x15 := by
  stretch_results
  exact h_main_arg15

theorem s2_main_arg16 (x16 : (⟨S128, .f32⟩ : BufTy).Contents (Elt F)) (W : Valuation τ sig (Elt F))
    (h_main_arg16 : W (Proc.devRef .tc main_arg16) = x16) :
    after (s2 (F := F)) W (Proc.devRef .tc main_arg16) = x16 := by
  stretch_results
  exact h_main_arg16

/-! ## Stretch 3: operations 24 to 31 -/

abbrev s3 : List (HloOp τ sig (Elt F)) :=
  [ unary main_cst_1 main_v20 (broadcastInDim S800000x128 ![] bcast_S_S800000x128 : (⟨S_, .f32⟩ : BufTy).Contents (Elt F) → (⟨S800000x128, .f32⟩ : BufTy).Contents (Elt F)),
    binary main_v20 main_v17 main_v21 (mulf : (⟨S800000x128, .f32⟩ : BufTy).Contents (Elt F) → (⟨S800000x128, .f32⟩ : BufTy).Contents (Elt F) → (⟨S800000x128, .f32⟩ : BufTy).Contents (Elt F)),
    TRef.ternary (TRef.of (T := ⟨S800000x128, .i1⟩) main_v19) (TRef.of (T := ⟨S800000x128, .f32⟩) main_v17) (TRef.of (T := ⟨S800000x128, .f32⟩) main_v21) (TRef.of (T := ⟨S800000x128, .f32⟩) main_v22) select,
    nullary main_cst_2 (constant S_ .f32 0x00000000#32),
    binary main_v22 main_cst_2 main_v23 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    unary main_v23 main_v24 (broadcastInDim S800000x1 ![0] bcast_S800000_S800000x1_0 : (⟨S800000, .f32⟩ : BufTy).Contents (Elt F) → (⟨S800000x1, .f32⟩ : BufTy).Contents (Elt F)),
    nullary main_cst_3 (constant S_ .f32 0x43000000#32),
    unary main_cst_3 main_v25 (broadcastInDim S800000x1 ![] bcast_S_S800000x1 : (⟨S_, .f32⟩ : BufTy).Contents (Elt F) → (⟨S800000x1, .f32⟩ : BufTy).Contents (Elt F)) ]

theorem s3_main_v24 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_cst_1 : W (Proc.devRef .tc main_cst_1) = (val_main_cst_1 (F := F)))
    (h_main_v17 : W (Proc.devRef .tc main_v17) = (val_main_v17 (F := F) x0 x1 x2 x3 x5 x6))
    (h_main_v19 : W (Proc.devRef .tc main_v19) = (val_main_v19 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s3 (F := F)) W (Proc.devRef .tc main_v24) = (val_main_v24 (F := F) x0 x1 x2 x3 x5 x6) := by
  stretch_results
  repeat (first | rw [h_main_cst_1] | rw [h_main_v17] | rw [h_main_v19] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s3_main_v25 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_cst_1 : W (Proc.devRef .tc main_cst_1) = (val_main_cst_1 (F := F)))
    (h_main_v17 : W (Proc.devRef .tc main_v17) = (val_main_v17 (F := F) x0 x1 x2 x3 x5 x6))
    (h_main_v19 : W (Proc.devRef .tc main_v19) = (val_main_v19 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s3 (F := F)) W (Proc.devRef .tc main_v25) = (val_main_v25 (F := F)) := by
  stretch_results
  repeat (first | rw [h_main_cst_1] | rw [h_main_v17] | rw [h_main_v19] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s3_main_v22 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_cst_1 : W (Proc.devRef .tc main_cst_1) = (val_main_cst_1 (F := F)))
    (h_main_v17 : W (Proc.devRef .tc main_v17) = (val_main_v17 (F := F) x0 x1 x2 x3 x5 x6))
    (h_main_v19 : W (Proc.devRef .tc main_v19) = (val_main_v19 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s3 (F := F)) W (Proc.devRef .tc main_v22) = (val_main_v22 (F := F) x0 x1 x2 x3 x5 x6) := by
  stretch_results
  repeat (first | rw [h_main_cst_1] | rw [h_main_v17] | rw [h_main_v19] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s3_main_arg7 (x7 : (⟨S128, .f32⟩ : BufTy).Contents (Elt F)) (W : Valuation τ sig (Elt F))
    (h_main_arg7 : W (Proc.devRef .tc main_arg7) = x7) :
    after (s3 (F := F)) W (Proc.devRef .tc main_arg7) = x7 := by
  stretch_results
  exact h_main_arg7

theorem s3_main_arg8 (x8 : (⟨S128, .f32⟩ : BufTy).Contents (Elt F)) (W : Valuation τ sig (Elt F))
    (h_main_arg8 : W (Proc.devRef .tc main_arg8) = x8) :
    after (s3 (F := F)) W (Proc.devRef .tc main_arg8) = x8 := by
  stretch_results
  exact h_main_arg8

theorem s3_main_arg9 (x9 : (⟨S128x128, .f32⟩ : BufTy).Contents (Elt F)) (W : Valuation τ sig (Elt F))
    (h_main_arg9 : W (Proc.devRef .tc main_arg9) = x9) :
    after (s3 (F := F)) W (Proc.devRef .tc main_arg9) = x9 := by
  stretch_results
  exact h_main_arg9

theorem s3_main_arg10 (x10 : (⟨S128, .f32⟩ : BufTy).Contents (Elt F)) (W : Valuation τ sig (Elt F))
    (h_main_arg10 : W (Proc.devRef .tc main_arg10) = x10) :
    after (s3 (F := F)) W (Proc.devRef .tc main_arg10) = x10 := by
  stretch_results
  exact h_main_arg10

theorem s3_main_v3 (x1 : (⟨S2x800000, .i32⟩ : BufTy).Contents (Elt F)) (W : Valuation τ sig (Elt F))
    (h_main_v3 : W (Proc.devRef .tc main_v3) = (val_main_v3 (F := F) x1)) :
    after (s3 (F := F)) W (Proc.devRef .tc main_v3) = (val_main_v3 (F := F) x1) := by
  stretch_results
  exact h_main_v3

theorem s3_main_arg0 (x0 : (⟨S50000x128, .f32⟩ : BufTy).Contents (Elt F)) (W : Valuation τ sig (Elt F))
    (h_main_arg0 : W (Proc.devRef .tc main_arg0) = x0) :
    after (s3 (F := F)) W (Proc.devRef .tc main_arg0) = x0 := by
  stretch_results
  exact h_main_arg0

theorem s3_main_arg11 (x11 : (⟨S256x128, .f32⟩ : BufTy).Contents (Elt F)) (W : Valuation τ sig (Elt F))
    (h_main_arg11 : W (Proc.devRef .tc main_arg11) = x11) :
    after (s3 (F := F)) W (Proc.devRef .tc main_arg11) = x11 := by
  stretch_results
  exact h_main_arg11

theorem s3_main_arg12 (x12 : (⟨S128, .f32⟩ : BufTy).Contents (Elt F)) (W : Valuation τ sig (Elt F))
    (h_main_arg12 : W (Proc.devRef .tc main_arg12) = x12) :
    after (s3 (F := F)) W (Proc.devRef .tc main_arg12) = x12 := by
  stretch_results
  exact h_main_arg12

theorem s3_main_arg13 (x13 : (⟨S128, .f32⟩ : BufTy).Contents (Elt F)) (W : Valuation τ sig (Elt F))
    (h_main_arg13 : W (Proc.devRef .tc main_arg13) = x13) :
    after (s3 (F := F)) W (Proc.devRef .tc main_arg13) = x13 := by
  stretch_results
  exact h_main_arg13

theorem s3_main_arg14 (x14 : (⟨S128, .f32⟩ : BufTy).Contents (Elt F)) (W : Valuation τ sig (Elt F))
    (h_main_arg14 : W (Proc.devRef .tc main_arg14) = x14) :
    after (s3 (F := F)) W (Proc.devRef .tc main_arg14) = x14 := by
  stretch_results
  exact h_main_arg14

theorem s3_main_arg15 (x15 : (⟨S128x128, .f32⟩ : BufTy).Contents (Elt F)) (W : Valuation τ sig (Elt F))
    (h_main_arg15 : W (Proc.devRef .tc main_arg15) = x15) :
    after (s3 (F := F)) W (Proc.devRef .tc main_arg15) = x15 := by
  stretch_results
  exact h_main_arg15

theorem s3_main_arg16 (x16 : (⟨S128, .f32⟩ : BufTy).Contents (Elt F)) (W : Valuation τ sig (Elt F))
    (h_main_arg16 : W (Proc.devRef .tc main_arg16) = x16) :
    after (s3 (F := F)) W (Proc.devRef .tc main_arg16) = x16 := by
  stretch_results
  exact h_main_arg16

/-! ## Stretch 4: operations 32 to 39 -/

abbrev s4 : List (HloOp τ sig (Elt F)) :=
  [ binary main_v24 main_v25 main_v26 (Host.divf : (⟨S800000x1, .f32⟩ : BufTy).Contents (Elt F) → (⟨S800000x1, .f32⟩ : BufTy).Contents (Elt F) → (⟨S800000x1, .f32⟩ : BufTy).Contents (Elt F)),
    unary main_v26 main_v27 (broadcastInDim S800000x128 ![0, 1] bcast_S800000x1_S800000x128_0_1 : (⟨S800000x1, .f32⟩ : BufTy).Contents (Elt F) → (⟨S800000x128, .f32⟩ : BufTy).Contents (Elt F)),
    binary main_v22 main_v27 main_v28 (subf : (⟨S800000x128, .f32⟩ : BufTy).Contents (Elt F) → (⟨S800000x128, .f32⟩ : BufTy).Contents (Elt F) → (⟨S800000x128, .f32⟩ : BufTy).Contents (Elt F)),
    binary main_v28 main_v28 main_v29 (mulf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    binary main_v29 main_cst_4 main_v30 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    unary main_v30 main_v31 (broadcastInDim S800000x1 ![0] bcast_S800000_S800000x1_0 : (⟨S800000, .f32⟩ : BufTy).Contents (Elt F) → (⟨S800000x1, .f32⟩ : BufTy).Contents (Elt F)),
    nullary main_cst_5 (constant S_ .f32 0x43000000#32) ]

theorem s4_main_cst_5 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v24 : W (Proc.devRef .tc main_v24) = (val_main_v24 (F := F) x0 x1 x2 x3 x5 x6))
    (h_main_v25 : W (Proc.devRef .tc main_v25) = (val_main_v25 (F := F)))
    (h_main_v22 : W (Proc.devRef .tc main_v22) = (val_main_v22 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s4 (F := F)) W (Proc.devRef .tc main_cst_5) = (val_main_cst_5 (F := F)) := by
  stretch_results
  repeat (first | rw [h_main_v24] | rw [h_main_v25] | rw [h_main_v22] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s4_main_v31 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v24 : W (Proc.devRef .tc main_v24) = (val_main_v24 (F := F) x0 x1 x2 x3 x5 x6))
    (h_main_v25 : W (Proc.devRef .tc main_v25) = (val_main_v25 (F := F)))
    (h_main_v22 : W (Proc.devRef .tc main_v22) = (val_main_v22 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s4 (F := F)) W (Proc.devRef .tc main_v31) = (val_main_v31 (F := F) x0 x1 x2 x3 x5 x6) := by
  stretch_results
  repeat (first | rw [h_main_v24] | rw [h_main_v25] | rw [h_main_v22] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s4_main_v26 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v24 : W (Proc.devRef .tc main_v24) = (val_main_v24 (F := F) x0 x1 x2 x3 x5 x6))
    (h_main_v25 : W (Proc.devRef .tc main_v25) = (val_main_v25 (F := F)))
    (h_main_v22 : W (Proc.devRef .tc main_v22) = (val_main_v22 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s4 (F := F)) W (Proc.devRef .tc main_v26) = (val_main_v26 (F := F) x0 x1 x2 x3 x5 x6) := by
  stretch_results
  repeat (first | rw [h_main_v24] | rw [h_main_v25] | rw [h_main_v22] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s4_main_v22 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (W : Valuation τ sig (Elt F))
    (h_main_v22 : W (Proc.devRef .tc main_v22) = (val_main_v22 (F := F) x0 x1 x2 x3 x5 x6)) :
    after (s4 (F := F)) W (Proc.devRef .tc main_v22) = (val_main_v22 (F := F) x0 x1 x2 x3 x5 x6) := by
  stretch_results
  exact h_main_v22

theorem s4_main_arg7 (x7 : (⟨S128, .f32⟩ : BufTy).Contents (Elt F)) (W : Valuation τ sig (Elt F))
    (h_main_arg7 : W (Proc.devRef .tc main_arg7) = x7) :
    after (s4 (F := F)) W (Proc.devRef .tc main_arg7) = x7 := by
  stretch_results
  exact h_main_arg7

theorem s4_main_arg8 (x8 : (⟨S128, .f32⟩ : BufTy).Contents (Elt F)) (W : Valuation τ sig (Elt F))
    (h_main_arg8 : W (Proc.devRef .tc main_arg8) = x8) :
    after (s4 (F := F)) W (Proc.devRef .tc main_arg8) = x8 := by
  stretch_results
  exact h_main_arg8

theorem s4_main_arg9 (x9 : (⟨S128x128, .f32⟩ : BufTy).Contents (Elt F)) (W : Valuation τ sig (Elt F))
    (h_main_arg9 : W (Proc.devRef .tc main_arg9) = x9) :
    after (s4 (F := F)) W (Proc.devRef .tc main_arg9) = x9 := by
  stretch_results
  exact h_main_arg9

theorem s4_main_arg10 (x10 : (⟨S128, .f32⟩ : BufTy).Contents (Elt F)) (W : Valuation τ sig (Elt F))
    (h_main_arg10 : W (Proc.devRef .tc main_arg10) = x10) :
    after (s4 (F := F)) W (Proc.devRef .tc main_arg10) = x10 := by
  stretch_results
  exact h_main_arg10

theorem s4_main_v3 (x1 : (⟨S2x800000, .i32⟩ : BufTy).Contents (Elt F)) (W : Valuation τ sig (Elt F))
    (h_main_v3 : W (Proc.devRef .tc main_v3) = (val_main_v3 (F := F) x1)) :
    after (s4 (F := F)) W (Proc.devRef .tc main_v3) = (val_main_v3 (F := F) x1) := by
  stretch_results
  exact h_main_v3

theorem s4_main_arg0 (x0 : (⟨S50000x128, .f32⟩ : BufTy).Contents (Elt F)) (W : Valuation τ sig (Elt F))
    (h_main_arg0 : W (Proc.devRef .tc main_arg0) = x0) :
    after (s4 (F := F)) W (Proc.devRef .tc main_arg0) = x0 := by
  stretch_results
  exact h_main_arg0

theorem s4_main_arg11 (x11 : (⟨S256x128, .f32⟩ : BufTy).Contents (Elt F)) (W : Valuation τ sig (Elt F))
    (h_main_arg11 : W (Proc.devRef .tc main_arg11) = x11) :
    after (s4 (F := F)) W (Proc.devRef .tc main_arg11) = x11 := by
  stretch_results
  exact h_main_arg11

theorem s4_main_arg12 (x12 : (⟨S128, .f32⟩ : BufTy).Contents (Elt F)) (W : Valuation τ sig (Elt F))
    (h_main_arg12 : W (Proc.devRef .tc main_arg12) = x12) :
    after (s4 (F := F)) W (Proc.devRef .tc main_arg12) = x12 := by
  stretch_results
  exact h_main_arg12

theorem s4_main_arg13 (x13 : (⟨S128, .f32⟩ : BufTy).Contents (Elt F)) (W : Valuation τ sig (Elt F))
    (h_main_arg13 : W (Proc.devRef .tc main_arg13) = x13) :
    after (s4 (F := F)) W (Proc.devRef .tc main_arg13) = x13 := by
  stretch_results
  exact h_main_arg13

theorem s4_main_arg14 (x14 : (⟨S128, .f32⟩ : BufTy).Contents (Elt F)) (W : Valuation τ sig (Elt F))
    (h_main_arg14 : W (Proc.devRef .tc main_arg14) = x14) :
    after (s4 (F := F)) W (Proc.devRef .tc main_arg14) = x14 := by
  stretch_results
  exact h_main_arg14

theorem s4_main_arg15 (x15 : (⟨S128x128, .f32⟩ : BufTy).Contents (Elt F)) (W : Valuation τ sig (Elt F))
    (h_main_arg15 : W (Proc.devRef .tc main_arg15) = x15) :
    after (s4 (F := F)) W (Proc.devRef .tc main_arg15) = x15 := by
  stretch_results
  exact h_main_arg15

theorem s4_main_arg16 (x16 : (⟨S128, .f32⟩ : BufTy).Contents (Elt F)) (W : Valuation τ sig (Elt F))
    (h_main_arg16 : W (Proc.devRef .tc main_arg16) = x16) :
    after (s4 (F := F)) W (Proc.devRef .tc main_arg16) = x16 := by
  stretch_results
  exact h_main_arg16

/-! ## Stretch 5: operations 40 to 47 -/

abbrev s5 : List (HloOp τ sig (Elt F)) :=
  [ unary main_cst_5 main_v32 (broadcastInDim S800000x1 ![] bcast_S_S800000x1 : (⟨S_, .f32⟩ : BufTy).Contents (Elt F) → (⟨S800000x1, .f32⟩ : BufTy).Contents (Elt F)),
    binary main_v31 main_v32 main_v33 (Host.divf : (⟨S800000x1, .f32⟩ : BufTy).Contents (Elt F) → (⟨S800000x1, .f32⟩ : BufTy).Contents (Elt F) → (⟨S800000x1, .f32⟩ : BufTy).Contents (Elt F)),
    unary main_v26 main_v34 (broadcastInDim S800000x128 ![0, 1] bcast_S800000x1_S800000x128_0_1 : (⟨S800000x1, .f32⟩ : BufTy).Contents (Elt F) → (⟨S800000x128, .f32⟩ : BufTy).Contents (Elt F)),
    binary main_v22 main_v34 main_v35 (subf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x3727C5AC#32),
    unary main_cst_6 main_v36 (broadcastInDim S800000x1 ![] bcast_S_S800000x1 : (⟨S_, .f32⟩ : BufTy).Contents (Elt F) → (⟨S800000x1, .f32⟩ : BufTy).Contents (Elt F)),
    binary main_v33 main_v36 main_v37 (addf : (⟨S800000x1, .f32⟩ : BufTy).Contents (Elt F) → (⟨S800000x1, .f32⟩ : BufTy).Contents (Elt F) → (⟨S800000x1, .f32⟩ : BufTy).Contents (Elt F)),
    unary main_v37 main_v38 (Host.rsqrt : (⟨S800000x1, .f32⟩ : BufTy).Contents (Elt F) → (⟨S800000x1, .f32⟩ : BufTy).Contents (Elt F)) ]

theorem s5_main_v38 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_cst_5 : W (Proc.devRef .tc main_cst_5) = (val_main_cst_5 (F := F)))
    (h_main_v31 : W (Proc.devRef .tc main_v31) = (val_main_v31 (F := F) x0 x1 x2 x3 x5 x6))
    (h_main_v26 : W (Proc.devRef .tc main_v26) = (val_main_v26 (F := F) x0 x1 x2 x3 x5 x6))
    (h_main_v22 : W (Proc.devRef .tc main_v22) = (val_main_v22 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s5 (F := F)) W (Proc.devRef .tc main_v38) = (val_main_v38 (F := F) x0 x1 x2 x3 x5 x6) := by
  stretch_results
  repeat (first | rw [h_main_cst_5] | rw [h_main_v31] | rw [h_main_v26] | rw [h_main_v22] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s5_main_v35 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_cst_5 : W (Proc.devRef .tc main_cst_5) = (val_main_cst_5 (F := F)))
    (h_main_v31 : W (Proc.devRef .tc main_v31) = (val_main_v31 (F := F) x0 x1 x2 x3 x5 x6))
    (h_main_v26 : W (Proc.devRef .tc main_v26) = (val_main_v26 (F := F) x0 x1 x2 x3 x5 x6))
    (h_main_v22 : W (Proc.devRef .tc main_v22) = (val_main_v22 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s5 (F := F)) W (Proc.devRef .tc main_v35) = (val_main_v35 (F := F) x0 x1 x2 x3 x5 x6) := by
  stretch_results
  repeat (first | rw [h_main_cst_5] | rw [h_main_v31] | rw [h_main_v26] | rw [h_main_v22] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s5_main_arg7 (x7 : (⟨S128, .f32⟩ : BufTy).Contents (Elt F)) (W : Valuation τ sig (Elt F))
    (h_main_arg7 : W (Proc.devRef .tc main_arg7) = x7) :
    after (s5 (F := F)) W (Proc.devRef .tc main_arg7) = x7 := by
  stretch_results
  exact h_main_arg7

theorem s5_main_arg8 (x8 : (⟨S128, .f32⟩ : BufTy).Contents (Elt F)) (W : Valuation τ sig (Elt F))
    (h_main_arg8 : W (Proc.devRef .tc main_arg8) = x8) :
    after (s5 (F := F)) W (Proc.devRef .tc main_arg8) = x8 := by
  stretch_results
  exact h_main_arg8

theorem s5_main_arg9 (x9 : (⟨S128x128, .f32⟩ : BufTy).Contents (Elt F)) (W : Valuation τ sig (Elt F))
    (h_main_arg9 : W (Proc.devRef .tc main_arg9) = x9) :
    after (s5 (F := F)) W (Proc.devRef .tc main_arg9) = x9 := by
  stretch_results
  exact h_main_arg9

theorem s5_main_arg10 (x10 : (⟨S128, .f32⟩ : BufTy).Contents (Elt F)) (W : Valuation τ sig (Elt F))
    (h_main_arg10 : W (Proc.devRef .tc main_arg10) = x10) :
    after (s5 (F := F)) W (Proc.devRef .tc main_arg10) = x10 := by
  stretch_results
  exact h_main_arg10

theorem s5_main_v3 (x1 : (⟨S2x800000, .i32⟩ : BufTy).Contents (Elt F)) (W : Valuation τ sig (Elt F))
    (h_main_v3 : W (Proc.devRef .tc main_v3) = (val_main_v3 (F := F) x1)) :
    after (s5 (F := F)) W (Proc.devRef .tc main_v3) = (val_main_v3 (F := F) x1) := by
  stretch_results
  exact h_main_v3

theorem s5_main_arg0 (x0 : (⟨S50000x128, .f32⟩ : BufTy).Contents (Elt F)) (W : Valuation τ sig (Elt F))
    (h_main_arg0 : W (Proc.devRef .tc main_arg0) = x0) :
    after (s5 (F := F)) W (Proc.devRef .tc main_arg0) = x0 := by
  stretch_results
  exact h_main_arg0

theorem s5_main_arg11 (x11 : (⟨S256x128, .f32⟩ : BufTy).Contents (Elt F)) (W : Valuation τ sig (Elt F))
    (h_main_arg11 : W (Proc.devRef .tc main_arg11) = x11) :
    after (s5 (F := F)) W (Proc.devRef .tc main_arg11) = x11 := by
  stretch_results
  exact h_main_arg11

theorem s5_main_arg12 (x12 : (⟨S128, .f32⟩ : BufTy).Contents (Elt F)) (W : Valuation τ sig (Elt F))
    (h_main_arg12 : W (Proc.devRef .tc main_arg12) = x12) :
    after (s5 (F := F)) W (Proc.devRef .tc main_arg12) = x12 := by
  stretch_results
  exact h_main_arg12

theorem s5_main_arg13 (x13 : (⟨S128, .f32⟩ : BufTy).Contents (Elt F)) (W : Valuation τ sig (Elt F))
    (h_main_arg13 : W (Proc.devRef .tc main_arg13) = x13) :
    after (s5 (F := F)) W (Proc.devRef .tc main_arg13) = x13 := by
  stretch_results
  exact h_main_arg13

theorem s5_main_arg14 (x14 : (⟨S128, .f32⟩ : BufTy).Contents (Elt F)) (W : Valuation τ sig (Elt F))
    (h_main_arg14 : W (Proc.devRef .tc main_arg14) = x14) :
    after (s5 (F := F)) W (Proc.devRef .tc main_arg14) = x14 := by
  stretch_results
  exact h_main_arg14

theorem s5_main_arg15 (x15 : (⟨S128x128, .f32⟩ : BufTy).Contents (Elt F)) (W : Valuation τ sig (Elt F))
    (h_main_arg15 : W (Proc.devRef .tc main_arg15) = x15) :
    after (s5 (F := F)) W (Proc.devRef .tc main_arg15) = x15 := by
  stretch_results
  exact h_main_arg15

theorem s5_main_arg16 (x16 : (⟨S128, .f32⟩ : BufTy).Contents (Elt F)) (W : Valuation τ sig (Elt F))
    (h_main_arg16 : W (Proc.devRef .tc main_arg16) = x16) :
    after (s5 (F := F)) W (Proc.devRef .tc main_arg16) = x16 := by
  stretch_results
  exact h_main_arg16

/-! ## Stretch 6: operations 48 to 55 -/

abbrev s6 : List (HloOp τ sig (Elt F)) :=
  [ unary main_v38 main_v39 (broadcastInDim S800000x128 ![0, 1] bcast_S800000x1_S800000x128_0_1 : (⟨S800000x1, .f32⟩ : BufTy).Contents (Elt F) → (⟨S800000x128, .f32⟩ : BufTy).Contents (Elt F)),
    binary main_v35 main_v39 main_v40 (mulf : (⟨S800000x128, .f32⟩ : BufTy).Contents (Elt F) → (⟨S800000x128, .f32⟩ : BufTy).Contents (Elt F) → (⟨S800000x128, .f32⟩ : BufTy).Contents (Elt F)),
    unary main_arg7 main_v41 (broadcastInDim S1x128 ![1] bcast_S128_S1x128_1 : (⟨S128, .f32⟩ : BufTy).Contents (Elt F) → (⟨S1x128, .f32⟩ : BufTy).Contents (Elt F)),
    unary main_v41 main_v42 (broadcastInDim S800000x128 ![0, 1] bcast_S1x128_S800000x128_0_1 : (⟨S1x128, .f32⟩ : BufTy).Contents (Elt F) → (⟨S800000x128, .f32⟩ : BufTy).Contents (Elt F)),
    binary main_v40 main_v42 main_v43 (mulf : (⟨S800000x128, .f32⟩ : BufTy).Contents (Elt F) → (⟨S800000x128, .f32⟩ : BufTy).Contents (Elt F) → (⟨S800000x128, .f32⟩ : BufTy).Contents (Elt F)),
    unary main_arg8 main_v44 (broadcastInDim S1x128 ![1] bcast_S128_S1x128_1 : (⟨S128, .f32⟩ : BufTy).Contents (Elt F) → (⟨S1x128, .f32⟩ : BufTy).Contents (Elt F)),
    unary main_v44 main_v45 (broadcastInDim S800000x128 ![0, 1] bcast_S1x128_S800000x128_0_1 : (⟨S1x128, .f32⟩ : BufTy).Contents (Elt F) → (⟨S800000x128, .f32⟩ : BufTy).Contents (Elt F)),
    binary main_v43 main_v45 main_v46 (addf : (⟨S800000x128, .f32⟩ : BufTy).Contents (Elt F) → (⟨S800000x128, .f32⟩ : BufTy).Contents (Elt F) → (⟨S800000x128, .f32⟩ : BufTy).Contents (Elt F)) ]

theorem s6_main_v46 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v38 : W (Proc.devRef .tc main_v38) = (val_main_v38 (F := F) x0 x1 x2 x3 x5 x6))
    (h_main_v35 : W (Proc.devRef .tc main_v35) = (val_main_v35 (F := F) x0 x1 x2 x3 x5 x6))
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s6 (F := F)) W (Proc.devRef .tc main_v46) = (val_main_v46 (F := F) x0 x1 x2 x3 x5 x6 x7 x8) := by
  stretch_results
  repeat (first | rw [h_main_v38] | rw [h_main_v35] | rw [h_main_arg7] | rw [h_main_arg8] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s6_main_arg9 (x9 : (⟨S128x128, .f32⟩ : BufTy).Contents (Elt F)) (W : Valuation τ sig (Elt F))
    (h_main_arg9 : W (Proc.devRef .tc main_arg9) = x9) :
    after (s6 (F := F)) W (Proc.devRef .tc main_arg9) = x9 := by
  stretch_results
  exact h_main_arg9

theorem s6_main_arg10 (x10 : (⟨S128, .f32⟩ : BufTy).Contents (Elt F)) (W : Valuation τ sig (Elt F))
    (h_main_arg10 : W (Proc.devRef .tc main_arg10) = x10) :
    after (s6 (F := F)) W (Proc.devRef .tc main_arg10) = x10 := by
  stretch_results
  exact h_main_arg10

theorem s6_main_v3 (x1 : (⟨S2x800000, .i32⟩ : BufTy).Contents (Elt F)) (W : Valuation τ sig (Elt F))
    (h_main_v3 : W (Proc.devRef .tc main_v3) = (val_main_v3 (F := F) x1)) :
    after (s6 (F := F)) W (Proc.devRef .tc main_v3) = (val_main_v3 (F := F) x1) := by
  stretch_results
  exact h_main_v3

theorem s6_main_arg0 (x0 : (⟨S50000x128, .f32⟩ : BufTy).Contents (Elt F)) (W : Valuation τ sig (Elt F))
    (h_main_arg0 : W (Proc.devRef .tc main_arg0) = x0) :
    after (s6 (F := F)) W (Proc.devRef .tc main_arg0) = x0 := by
  stretch_results
  exact h_main_arg0

theorem s6_main_arg11 (x11 : (⟨S256x128, .f32⟩ : BufTy).Contents (Elt F)) (W : Valuation τ sig (Elt F))
    (h_main_arg11 : W (Proc.devRef .tc main_arg11) = x11) :
    after (s6 (F := F)) W (Proc.devRef .tc main_arg11) = x11 := by
  stretch_results
  exact h_main_arg11

theorem s6_main_arg12 (x12 : (⟨S128, .f32⟩ : BufTy).Contents (Elt F)) (W : Valuation τ sig (Elt F))
    (h_main_arg12 : W (Proc.devRef .tc main_arg12) = x12) :
    after (s6 (F := F)) W (Proc.devRef .tc main_arg12) = x12 := by
  stretch_results
  exact h_main_arg12

theorem s6_main_arg13 (x13 : (⟨S128, .f32⟩ : BufTy).Contents (Elt F)) (W : Valuation τ sig (Elt F))
    (h_main_arg13 : W (Proc.devRef .tc main_arg13) = x13) :
    after (s6 (F := F)) W (Proc.devRef .tc main_arg13) = x13 := by
  stretch_results
  exact h_main_arg13

theorem s6_main_arg14 (x14 : (⟨S128, .f32⟩ : BufTy).Contents (Elt F)) (W : Valuation τ sig (Elt F))
    (h_main_arg14 : W (Proc.devRef .tc main_arg14) = x14) :
    after (s6 (F := F)) W (Proc.devRef .tc main_arg14) = x14 := by
  stretch_results
  exact h_main_arg14

theorem s6_main_arg15 (x15 : (⟨S128x128, .f32⟩ : BufTy).Contents (Elt F)) (W : Valuation τ sig (Elt F))
    (h_main_arg15 : W (Proc.devRef .tc main_arg15) = x15) :
    after (s6 (F := F)) W (Proc.devRef .tc main_arg15) = x15 := by
  stretch_results
  exact h_main_arg15

theorem s6_main_arg16 (x16 : (⟨S128, .f32⟩ : BufTy).Contents (Elt F)) (W : Valuation τ sig (Elt F))
    (h_main_arg16 : W (Proc.devRef .tc main_arg16) = x16) :
    after (s6 (F := F)) W (Proc.devRef .tc main_arg16) = x16 := by
  stretch_results
  exact h_main_arg16

/-! ## Stretch 7: operations 56 to 63 -/

abbrev s7 : List (HloOp τ sig (Elt F)) :=
  [ binary main_v46 main_arg9 main_v47 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg10 main_v48 (broadcastInDim S1x128 ![1] bcast_S128_S1x128_1 : (⟨S128, .f32⟩ : BufTy).Contents (Elt F) → (⟨S1x128, .f32⟩ : BufTy).Contents (Elt F)),
    unary main_v48 main_v49 (broadcastInDim S800000x128 ![0, 1] bcast_S1x128_S800000x128_0_1 : (⟨S1x128, .f32⟩ : BufTy).Contents (Elt F) → (⟨S800000x128, .f32⟩ : BufTy).Contents (Elt F)),
    binary main_v47 main_v49 main_v50 (addf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v51 (broadcastInDim S50000x128 ![] bcast_S_S50000x128 : (⟨S_, .f32⟩ : BufTy).Contents (Elt F) → (⟨S50000x128, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem s7_main_v3 (x1 : (⟨S2x800000, .i32⟩ : BufTy).Contents (Elt F)) (W : Valuation τ sig (Elt F))
    (h_main_v3 : W (Proc.devRef .tc main_v3) = (val_main_v3 (F := F) x1)) :
    after (s7 (F := F)) W (Proc.devRef .tc main_v3) = (val_main_v3 (F := F) x1) := by
  stretch_results
  exact h_main_v3

theorem s7_main_v53 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v46 : W (Proc.devRef .tc main_v46) = (val_main_v46 (F := F) x0 x1 x2 x3 x5 x6 x7 x8))
    (h_main_arg9 : W (Proc.devRef .tc main_arg9) = x9)
    (h_main_arg10 : W (Proc.devRef .tc main_arg10) = x10)
    (h_main_v3 : W (Proc.devRef .tc main_v3) = (val_main_v3 (F := F) x1))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s7 (F := F)) W (Proc.devRef .tc main_v53) = (val_main_v53 (F := F) x0 x1 x2 x3 x5 x6 x7 x8 x9 x10) := by
  stretch_results
  repeat (first | rw [h_main_v46] | rw [h_main_arg9] | rw [h_main_arg10] | rw [h_main_v3] | rw [h_main_arg0] | rw [h_main_arg11] | rw [h_main_arg12] | rw [h_main_arg13] | rw [h_main_arg14] | rw [h_main_arg15] | rw [h_main_arg16])
  all_goals rfl

theorem s7_main_arg0 (x0 : (⟨S50000x128, .f32⟩ : BufTy).Contents (Elt F)) (W : Valuation τ sig (Elt F))
    (h_main_arg0 : W (Proc.devRef .tc main_arg0) = x0) :
    after (s7 (F := F)) W (Proc.devRef .tc main_arg0) = x0 := by
  stretch_results
  exact h_main_arg0

theorem s7_main_arg11 (x11 : (⟨S256x128, .f32⟩ : BufTy).Contents (Elt F)) (W : Valuation τ sig (Elt F))
    (h_main_arg11 : W (Proc.devRef .tc main_arg11) = x11) :
    after (s7 (F := F)) W (Proc.devRef .tc main_arg11) = x11 := by
  stretch_results
  exact h_main_arg11

theorem s7_main_arg12 (x12 : (⟨S128, .f32⟩ : BufTy).Contents (Elt F)) (W : Valuation τ sig (Elt F))
    (h_main_arg12 : W (Proc.devRef .tc main_arg12) = x12) :
    after (s7 (F := F)) W (Proc.devRef .tc main_arg12) = x12 := by
  stretch_results
  exact h_main_arg12

theorem s7_main_arg13 (x13 : (⟨S128, .f32⟩ : BufTy).Contents (Elt F)) (W : Valuation τ sig (Elt F))
    (h_main_arg13 : W (Proc.devRef .tc main_arg13) = x13) :
    after (s7 (F := F)) W (Proc.devRef .tc main_arg13) = x13 := by
  stretch_results
  exact h_main_arg13

theorem s7_main_arg14 (x14 : (⟨S128, .f32⟩ : BufTy).Contents (Elt F)) (W : Valuation τ sig (Elt F))
    (h_main_arg14 : W (Proc.devRef .tc main_arg14) = x14) :
    after (s7 (F := F)) W (Proc.devRef .tc main_arg14) = x14 := by
  stretch_results
  exact h_main_arg14

theorem s7_main_arg15 (x15 : (⟨S128x128, .f32⟩ : BufTy).Contents (Elt F)) (W : Valuation τ sig (Elt F))
    (h_main_arg15 : W (Proc.devRef .tc main_arg15) = x15) :
    after (s7 (F := F)) W (Proc.devRef .tc main_arg15) = x15 := by
  stretch_results
  exact h_main_arg15

theorem s7_main_arg16 (x16 : (⟨S128, .f32⟩ : BufTy).Contents (Elt F)) (W : Valuation τ sig (Elt F))
    (h_main_arg16 : W (Proc.devRef .tc main_arg16) = x16) :
    after (s7 (F := F)) W (Proc.devRef .tc main_arg16) = x16 := by
  stretch_results
  exact h_main_arg16

/-! ## Stretch 8: operations 64 to 71 -/

abbrev s8 : List (HloOp τ sig (Elt F)) :=
  [ nullary main_cst_8 (constant S_ .f32 0x3F800000#32),
    unary main_cst_8 main_v54 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v55 (broadcastInDim S50000 ![] bcast_S_S50000 : (⟨S_, .f32⟩ : BufTy).Contents (Elt F) → (⟨S50000, .f32⟩ : BufTy).Contents (Elt F)),
    unary main_v3 main_v56 (broadcastInDim S800000x1 ![0] bcast_S800000_S800000x1_0 : (⟨S800000, .i32⟩ : BufTy).Contents (Elt F) → (⟨S800000x1, .i32⟩ : BufTy).Contents (Elt F)),
    ternary main_v55 main_v56 main_v54 main_v57 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v58 (broadcastInDim S50000 ![] bcast_S_S50000 : (⟨S_, .f32⟩ : BufTy).Contents (Elt F) → (⟨S50000, .f32⟩ : BufTy).Contents (Elt F)) ]

theorem s8_main_v57 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v3 : W (Proc.devRef .tc main_v3) = (val_main_v3 (F := F) x1))
    (h_main_v53 : W (Proc.devRef .tc main_v53) = (val_main_v53 (F := F) x0 x1 x2 x3 x5 x6 x7 x8 x9 x10))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s8 (F := F)) W (Proc.devRef .tc main_v57) = (val_main_v57 (F := F) x1) := by
  stretch_results
  repeat (first | rw [h_main_v3] | rw [h_main_v53] | rw [h_main_arg0] | rw [h_main_arg11] | rw [h_main_arg12] | rw [h_main_arg13] | rw [h_main_arg14] | rw [h_main_arg15] | rw [h_main_arg16])
  all_goals rfl

theorem s8_main_v58 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v3 : W (Proc.devRef .tc main_v3) = (val_main_v3 (F := F) x1))
    (h_main_v53 : W (Proc.devRef .tc main_v53) = (val_main_v53 (F := F) x0 x1 x2 x3 x5 x6 x7 x8 x9 x10))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s8 (F := F)) W (Proc.devRef .tc main_v58) = (val_main_v58 (F := F)) := by
  stretch_results
  repeat (first | rw [h_main_v3] | rw [h_main_v53] | rw [h_main_arg0] | rw [h_main_arg11] | rw [h_main_arg12] | rw [h_main_arg13] | rw [h_main_arg14] | rw [h_main_arg15] | rw [h_main_arg16])
  all_goals rfl

theorem s8_main_v53 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (W : Valuation τ sig (Elt F))
    (h_main_v53 : W (Proc.devRef .tc main_v53) = (val_main_v53 (F := F) x0 x1 x2 x3 x5 x6 x7 x8 x9 x10)) :
    after (s8 (F := F)) W (Proc.devRef .tc main_v53) = (val_main_v53 (F := F) x0 x1 x2 x3 x5 x6 x7 x8 x9 x10) := by
  stretch_results
  exact h_main_v53

theorem s8_main_arg0 (x0 : (⟨S50000x128, .f32⟩ : BufTy).Contents (Elt F)) (W : Valuation τ sig (Elt F))
    (h_main_arg0 : W (Proc.devRef .tc main_arg0) = x0) :
    after (s8 (F := F)) W (Proc.devRef .tc main_arg0) = x0 := by
  stretch_results
  exact h_main_arg0

theorem s8_main_arg11 (x11 : (⟨S256x128, .f32⟩ : BufTy).Contents (Elt F)) (W : Valuation τ sig (Elt F))
    (h_main_arg11 : W (Proc.devRef .tc main_arg11) = x11) :
    after (s8 (F := F)) W (Proc.devRef .tc main_arg11) = x11 := by
  stretch_results
  exact h_main_arg11

theorem s8_main_arg12 (x12 : (⟨S128, .f32⟩ : BufTy).Contents (Elt F)) (W : Valuation τ sig (Elt F))
    (h_main_arg12 : W (Proc.devRef .tc main_arg12) = x12) :
    after (s8 (F := F)) W (Proc.devRef .tc main_arg12) = x12 := by
  stretch_results
  exact h_main_arg12

theorem s8_main_arg13 (x13 : (⟨S128, .f32⟩ : BufTy).Contents (Elt F)) (W : Valuation τ sig (Elt F))
    (h_main_arg13 : W (Proc.devRef .tc main_arg13) = x13) :
    after (s8 (F := F)) W (Proc.devRef .tc main_arg13) = x13 := by
  stretch_results
  exact h_main_arg13

theorem s8_main_arg14 (x14 : (⟨S128, .f32⟩ : BufTy).Contents (Elt F)) (W : Valuation τ sig (Elt F))
    (h_main_arg14 : W (Proc.devRef .tc main_arg14) = x14) :
    after (s8 (F := F)) W (Proc.devRef .tc main_arg14) = x14 := by
  stretch_results
  exact h_main_arg14

theorem s8_main_arg15 (x15 : (⟨S128x128, .f32⟩ : BufTy).Contents (Elt F)) (W : Valuation τ sig (Elt F))
    (h_main_arg15 : W (Proc.devRef .tc main_arg15) = x15) :
    after (s8 (F := F)) W (Proc.devRef .tc main_arg15) = x15 := by
  stretch_results
  exact h_main_arg15

theorem s8_main_arg16 (x16 : (⟨S128, .f32⟩ : BufTy).Contents (Elt F)) (W : Valuation τ sig (Elt F))
    (h_main_arg16 : W (Proc.devRef .tc main_arg16) = x16) :
    after (s8 (F := F)) W (Proc.devRef .tc main_arg16) = x16 := by
  stretch_results
  exact h_main_arg16

/-! ## Stretch 9: operations 72 to 79 -/

abbrev s9 : List (HloOp τ sig (Elt F)) :=
  [ binary main_v57 main_v58 main_v59 (maximumf : (⟨S50000, .f32⟩ : BufTy).Contents (Elt F) → (⟨S50000, .f32⟩ : BufTy).Contents (Elt F) → (⟨S50000, .f32⟩ : BufTy).Contents (Elt F)),
    unary main_v59 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x128 ![0, 1] bcast_S50000x1_S50000x128_0_1 : (⟨S50000x1, .f32⟩ : BufTy).Contents (Elt F) → (⟨S50000x128, .f32⟩ : BufTy).Contents (Elt F)),
    binary main_v53 main_v61 main_v62 (Host.divf : (⟨S50000x128, .f32⟩ : BufTy).Contents (Elt F) → (⟨S50000x128, .f32⟩ : BufTy).Contents (Elt F) → (⟨S50000x128, .f32⟩ : BufTy).Contents (Elt F)),
    binary main_arg0 main_v62 main_v63 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v63 main_arg11 main_v64 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)) ]

theorem s9_main_v64 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v57 : W (Proc.devRef .tc main_v57) = (val_main_v57 (F := F) x1))
    (h_main_v58 : W (Proc.devRef .tc main_v58) = (val_main_v58 (F := F)))
    (h_main_v53 : W (Proc.devRef .tc main_v53) = (val_main_v53 (F := F) x0 x1 x2 x3 x5 x6 x7 x8 x9 x10))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s9 (F := F)) W (Proc.devRef .tc main_v64) = (val_main_v64 (F := F) x0 x1 x2 x3 x5 x6 x7 x8 x9 x10 x11) := by
  stretch_results
  repeat (first | rw [h_main_v57] | rw [h_main_v58] | rw [h_main_v53] | rw [h_main_arg0] | rw [h_main_arg11] | rw [h_main_arg12] | rw [h_main_arg13] | rw [h_main_arg14] | rw [h_main_arg15] | rw [h_main_arg16])
  all_goals rfl

theorem s9_main_v66 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v57 : W (Proc.devRef .tc main_v57) = (val_main_v57 (F := F) x1))
    (h_main_v58 : W (Proc.devRef .tc main_v58) = (val_main_v58 (F := F)))
    (h_main_v53 : W (Proc.devRef .tc main_v53) = (val_main_v53 (F := F) x0 x1 x2 x3 x5 x6 x7 x8 x9 x10))
    (h_main_arg0 : W (Proc.devRef .tc main_arg0) = x0)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s9 (F := F)) W (Proc.devRef .tc main_v66) = (val_main_v66 (F := F) x12) := by
  stretch_results
  repeat (first | rw [h_main_v57] | rw [h_main_v58] | rw [h_main_v53] | rw [h_main_arg0] | rw [h_main_arg11] | rw [h_main_arg12] | rw [h_main_arg13] | rw [h_main_arg14] | rw [h_main_arg15] | rw [h_main_arg16])
  all_goals rfl

theorem s9_main_arg13 (x13 : (⟨S128, .f32⟩ : BufTy).Contents (Elt F)) (W : Valuation τ sig (Elt F))
    (h_main_arg13 : W (Proc.devRef .tc main_arg13) = x13) :
    after (s9 (F := F)) W (Proc.devRef .tc main_arg13) = x13 := by
  stretch_results
  exact h_main_arg13

theorem s9_main_arg14 (x14 : (⟨S128, .f32⟩ : BufTy).Contents (Elt F)) (W : Valuation τ sig (Elt F))
    (h_main_arg14 : W (Proc.devRef .tc main_arg14) = x14) :
    after (s9 (F := F)) W (Proc.devRef .tc main_arg14) = x14 := by
  stretch_results
  exact h_main_arg14

theorem s9_main_arg15 (x15 : (⟨S128x128, .f32⟩ : BufTy).Contents (Elt F)) (W : Valuation τ sig (Elt F))
    (h_main_arg15 : W (Proc.devRef .tc main_arg15) = x15) :
    after (s9 (F := F)) W (Proc.devRef .tc main_arg15) = x15 := by
  stretch_results
  exact h_main_arg15

theorem s9_main_arg16 (x16 : (⟨S128, .f32⟩ : BufTy).Contents (Elt F)) (W : Valuation τ sig (Elt F))
    (h_main_arg16 : W (Proc.devRef .tc main_arg16) = x16) :
    after (s9 (F := F)) W (Proc.devRef .tc main_arg16) = x16 := by
  stretch_results
  exact h_main_arg16

/-! ## Stretch 10: operations 80 to 87 -/

abbrev s10 : List (HloOp τ sig (Elt F)) :=
  [ binary main_v64 main_v66 main_v67 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    unary main_cst_11 main_v68 (broadcastInDim S50000x128 ![] bcast_S_S50000x128 : (⟨S_, .f32⟩ : BufTy).Contents (Elt F) → (⟨S50000x128, .f32⟩ : BufTy).Contents (Elt F)),
    binary main_v67 main_v68 main_v69 (cmpf .oge : (⟨S50000x128, .f32⟩ : BufTy).Contents (Elt F) → (⟨S50000x128, .f32⟩ : BufTy).Contents (Elt F) → (⟨S50000x128, .i1⟩ : BufTy).Contents (Elt F)),
    nullary main_cst_12 (constant S_ .f32 0x3C23D70A#32),
    unary main_cst_12 main_v70 (broadcastInDim S50000x128 ![] bcast_S_S50000x128 : (⟨S_, .f32⟩ : BufTy).Contents (Elt F) → (⟨S50000x128, .f32⟩ : BufTy).Contents (Elt F)),
    binary main_v70 main_v67 main_v71 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v69) (TRef.of (T := ⟨S50000x128, .f32⟩) main_v67) (TRef.of (T := ⟨S50000x128, .f32⟩) main_v71) (TRef.of (T := ⟨S50000x128, .f32⟩) main_v72) select ]

theorem s10_main_v72 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v64 : W (Proc.devRef .tc main_v64) = (val_main_v64 (F := F) x0 x1 x2 x3 x5 x6 x7 x8 x9 x10 x11))
    (h_main_v66 : W (Proc.devRef .tc main_v66) = (val_main_v66 (F := F) x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s10 (F := F)) W (Proc.devRef .tc main_v72) = (val_main_v72 (F := F) x0 x1 x2 x3 x5 x6 x7 x8 x9 x10 x11 x12) := by
  stretch_results
  repeat (first | rw [h_main_v64] | rw [h_main_v66] | rw [h_main_arg13] | rw [h_main_arg14] | rw [h_main_arg15] | rw [h_main_arg16])
  all_goals rfl

theorem s10_main_arg13 (x13 : (⟨S128, .f32⟩ : BufTy).Contents (Elt F)) (W : Valuation τ sig (Elt F))
    (h_main_arg13 : W (Proc.devRef .tc main_arg13) = x13) :
    after (s10 (F := F)) W (Proc.devRef .tc main_arg13) = x13 := by
  stretch_results
  exact h_main_arg13

theorem s10_main_arg14 (x14 : (⟨S128, .f32⟩ : BufTy).Contents (Elt F)) (W : Valuation τ sig (Elt F))
    (h_main_arg14 : W (Proc.devRef .tc main_arg14) = x14) :
    after (s10 (F := F)) W (Proc.devRef .tc main_arg14) = x14 := by
  stretch_results
  exact h_main_arg14

theorem s10_main_arg15 (x15 : (⟨S128x128, .f32⟩ : BufTy).Contents (Elt F)) (W : Valuation τ sig (Elt F))
    (h_main_arg15 : W (Proc.devRef .tc main_arg15) = x15) :
    after (s10 (F := F)) W (Proc.devRef .tc main_arg15) = x15 := by
  stretch_results
  exact h_main_arg15

theorem s10_main_arg16 (x16 : (⟨S128, .f32⟩ : BufTy).Contents (Elt F)) (W : Valuation τ sig (Elt F))
    (h_main_arg16 : W (Proc.devRef .tc main_arg16) = x16) :
    after (s10 (F := F)) W (Proc.devRef .tc main_arg16) = x16 := by
  stretch_results
  exact h_main_arg16

/-! ## Stretch 11: operations 88 to 95 -/

abbrev s11 : List (HloOp τ sig (Elt F)) :=
  [ nullary main_cst_13 (constant S_ .f32 0x00000000#32),
    binary main_v72 main_cst_13 main_v73 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v73 main_v74 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v75 (broadcastInDim S50000x1 ![] bcast_S_S50000x1 : (⟨S_, .f32⟩ : BufTy).Contents (Elt F) → (⟨S50000x1, .f32⟩ : BufTy).Contents (Elt F)),
    binary main_v74 main_v75 main_v76 (Host.divf : (⟨S50000x1, .f32⟩ : BufTy).Contents (Elt F) → (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v72 main_v77 main_v78 (subf : (⟨S50000x128, .f32⟩ : BufTy).Contents (Elt F) → (⟨S50000x128, .f32⟩ : BufTy).Contents (Elt F) → (⟨S50000x128, .f32⟩ : BufTy).Contents (Elt F)) ]

theorem s11_main_v78 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v72 : W (Proc.devRef .tc main_v72) = (val_main_v72 (F := F) x0 x1 x2 x3 x5 x6 x7 x8 x9 x10 x11 x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s11 (F := F)) W (Proc.devRef .tc main_v78) = (val_main_v78 (F := F) x0 x1 x2 x3 x5 x6 x7 x8 x9 x10 x11 x12) := by
  stretch_results
  repeat (first | rw [h_main_v72] | rw [h_main_arg13] | rw [h_main_arg14] | rw [h_main_arg15] | rw [h_main_arg16])
  all_goals rfl

theorem s11_main_v76 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v72 : W (Proc.devRef .tc main_v72) = (val_main_v72 (F := F) x0 x1 x2 x3 x5 x6 x7 x8 x9 x10 x11 x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s11 (F := F)) W (Proc.devRef .tc main_v76) = (val_main_v76 (F := F) x0 x1 x2 x3 x5 x6 x7 x8 x9 x10 x11 x12) := by
  stretch_results
  repeat (first | rw [h_main_v72] | rw [h_main_arg13] | rw [h_main_arg14] | rw [h_main_arg15] | rw [h_main_arg16])
  all_goals rfl

theorem s11_main_v72 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (W : Valuation τ sig (Elt F))
    (h_main_v72 : W (Proc.devRef .tc main_v72) = (val_main_v72 (F := F) x0 x1 x2 x3 x5 x6 x7 x8 x9 x10 x11 x12)) :
    after (s11 (F := F)) W (Proc.devRef .tc main_v72) = (val_main_v72 (F := F) x0 x1 x2 x3 x5 x6 x7 x8 x9 x10 x11 x12) := by
  stretch_results
  exact h_main_v72

theorem s11_main_arg13 (x13 : (⟨S128, .f32⟩ : BufTy).Contents (Elt F)) (W : Valuation τ sig (Elt F))
    (h_main_arg13 : W (Proc.devRef .tc main_arg13) = x13) :
    after (s11 (F := F)) W (Proc.devRef .tc main_arg13) = x13 := by
  stretch_results
  exact h_main_arg13

theorem s11_main_arg14 (x14 : (⟨S128, .f32⟩ : BufTy).Contents (Elt F)) (W : Valuation τ sig (Elt F))
    (h_main_arg14 : W (Proc.devRef .tc main_arg14) = x14) :
    after (s11 (F := F)) W (Proc.devRef .tc main_arg14) = x14 := by
  stretch_results
  exact h_main_arg14

theorem s11_main_arg15 (x15 : (⟨S128x128, .f32⟩ : BufTy).Contents (Elt F)) (W : Valuation τ sig (Elt F))
    (h_main_arg15 : W (Proc.devRef .tc main_arg15) = x15) :
    after (s11 (F := F)) W (Proc.devRef .tc main_arg15) = x15 := by
  stretch_results
  exact h_main_arg15

theorem s11_main_arg16 (x16 : (⟨S128, .f32⟩ : BufTy).Contents (Elt F)) (W : Valuation τ sig (Elt F))
    (h_main_arg16 : W (Proc.devRef .tc main_arg16) = x16) :
    after (s11 (F := F)) W (Proc.devRef .tc main_arg16) = x16 := by
  stretch_results
  exact h_main_arg16

/-! ## Stretch 12: operations 96 to 103 -/

abbrev s12 : List (HloOp τ sig (Elt F)) :=
  [ binary main_v78 main_v78 main_v79 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v79 main_cst_15 main_v80 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v80 main_v81 (broadcastInDim S50000x1 ![0] bcast_S50000_S50000x1_0 : (⟨S50000, .f32⟩ : BufTy).Contents (Elt F) → (⟨S50000x1, .f32⟩ : BufTy).Contents (Elt F)),
    nullary main_cst_16 (constant S_ .f32 0x43000000#32),
    unary main_cst_16 main_v82 (broadcastInDim S50000x1 ![] bcast_S_S50000x1 : (⟨S_, .f32⟩ : BufTy).Contents (Elt F) → (⟨S50000x1, .f32⟩ : BufTy).Contents (Elt F)),
    binary main_v81 main_v82 main_v83 (Host.divf : (⟨S50000x1, .f32⟩ : BufTy).Contents (Elt F) → (⟨S50000x1, .f32⟩ : BufTy).Contents (Elt F) → (⟨S50000x1, .f32⟩ : BufTy).Contents (Elt F)),
    unary main_v76 main_v84 (broadcastInDim S50000x128 ![0, 1] bcast_S50000x1_S50000x128_0_1 : (⟨S50000x1, .f32⟩ : BufTy).Contents (Elt F) → (⟨S50000x128, .f32⟩ : BufTy).Contents (Elt F)) ]

theorem s12_main_v72 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (W : Valuation τ sig (Elt F))
    (h_main_v72 : W (Proc.devRef .tc main_v72) = (val_main_v72 (F := F) x0 x1 x2 x3 x5 x6 x7 x8 x9 x10 x11 x12)) :
    after (s12 (F := F)) W (Proc.devRef .tc main_v72) = (val_main_v72 (F := F) x0 x1 x2 x3 x5 x6 x7 x8 x9 x10 x11 x12) := by
  stretch_results
  exact h_main_v72

theorem s12_main_v84 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v78 : W (Proc.devRef .tc main_v78) = (val_main_v78 (F := F) x0 x1 x2 x3 x5 x6 x7 x8 x9 x10 x11 x12))
    (h_main_v76 : W (Proc.devRef .tc main_v76) = (val_main_v76 (F := F) x0 x1 x2 x3 x5 x6 x7 x8 x9 x10 x11 x12))
    (h_main_v72 : W (Proc.devRef .tc main_v72) = (val_main_v72 (F := F) x0 x1 x2 x3 x5 x6 x7 x8 x9 x10 x11 x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s12 (F := F)) W (Proc.devRef .tc main_v84) = (val_main_v84 (F := F) x0 x1 x2 x3 x5 x6 x7 x8 x9 x10 x11 x12) := by
  stretch_results
  repeat (first | rw [h_main_v78] | rw [h_main_v76] | rw [h_main_v72] | rw [h_main_arg13] | rw [h_main_arg14] | rw [h_main_arg15] | rw [h_main_arg16])
  all_goals rfl

theorem s12_main_v83 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v78 : W (Proc.devRef .tc main_v78) = (val_main_v78 (F := F) x0 x1 x2 x3 x5 x6 x7 x8 x9 x10 x11 x12))
    (h_main_v76 : W (Proc.devRef .tc main_v76) = (val_main_v76 (F := F) x0 x1 x2 x3 x5 x6 x7 x8 x9 x10 x11 x12))
    (h_main_v72 : W (Proc.devRef .tc main_v72) = (val_main_v72 (F := F) x0 x1 x2 x3 x5 x6 x7 x8 x9 x10 x11 x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s12 (F := F)) W (Proc.devRef .tc main_v83) = (val_main_v83 (F := F) x0 x1 x2 x3 x5 x6 x7 x8 x9 x10 x11 x12) := by
  stretch_results
  repeat (first | rw [h_main_v78] | rw [h_main_v76] | rw [h_main_v72] | rw [h_main_arg13] | rw [h_main_arg14] | rw [h_main_arg15] | rw [h_main_arg16])
  all_goals rfl

theorem s12_main_arg13 (x13 : (⟨S128, .f32⟩ : BufTy).Contents (Elt F)) (W : Valuation τ sig (Elt F))
    (h_main_arg13 : W (Proc.devRef .tc main_arg13) = x13) :
    after (s12 (F := F)) W (Proc.devRef .tc main_arg13) = x13 := by
  stretch_results
  exact h_main_arg13

theorem s12_main_arg14 (x14 : (⟨S128, .f32⟩ : BufTy).Contents (Elt F)) (W : Valuation τ sig (Elt F))
    (h_main_arg14 : W (Proc.devRef .tc main_arg14) = x14) :
    after (s12 (F := F)) W (Proc.devRef .tc main_arg14) = x14 := by
  stretch_results
  exact h_main_arg14

theorem s12_main_arg15 (x15 : (⟨S128x128, .f32⟩ : BufTy).Contents (Elt F)) (W : Valuation τ sig (Elt F))
    (h_main_arg15 : W (Proc.devRef .tc main_arg15) = x15) :
    after (s12 (F := F)) W (Proc.devRef .tc main_arg15) = x15 := by
  stretch_results
  exact h_main_arg15

theorem s12_main_arg16 (x16 : (⟨S128, .f32⟩ : BufTy).Contents (Elt F)) (W : Valuation τ sig (Elt F))
    (h_main_arg16 : W (Proc.devRef .tc main_arg16) = x16) :
    after (s12 (F := F)) W (Proc.devRef .tc main_arg16) = x16 := by
  stretch_results
  exact h_main_arg16

/-! ## Stretch 13: operations 104 to 111 -/

abbrev s13 : List (HloOp τ sig (Elt F)) :=
  [ binary main_v72 main_v84 main_v85 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v86 (broadcastInDim S50000x1 ![] bcast_S_S50000x1 : (⟨S_, .f32⟩ : BufTy).Contents (Elt F) → (⟨S50000x1, .f32⟩ : BufTy).Contents (Elt F)),
    binary main_v83 main_v86 main_v87 (addf : (⟨S50000x1, .f32⟩ : BufTy).Contents (Elt F) → (⟨S50000x1, .f32⟩ : BufTy).Contents (Elt F) → (⟨S50000x1, .f32⟩ : BufTy).Contents (Elt F)),
    unary main_v87 main_v88 (Host.rsqrt : (⟨S50000x1, .f32⟩ : BufTy).Contents (Elt F) → (⟨S50000x1, .f32⟩ : BufTy).Contents (Elt F)),
    unary main_v88 main_v89 (broadcastInDim S50000x128 ![0, 1] bcast_S50000x1_S50000x128_0_1 : (⟨S50000x1, .f32⟩ : BufTy).Contents (Elt F) → (⟨S50000x128, .f32⟩ : BufTy).Contents (Elt F)),
    binary main_v85 main_v89 main_v90 (mulf : (⟨S50000x128, .f32⟩ : BufTy).Contents (Elt F) → (⟨S50000x128, .f32⟩ : BufTy).Contents (Elt F) → (⟨S50000x128, .f32⟩ : BufTy).Contents (Elt F)),
    unary main_arg13 main_v91 (broadcastInDim S1x128 ![1] bcast_S128_S1x128_1 : (⟨S128, .f32⟩ : BufTy).Contents (Elt F) → (⟨S1x128, .f32⟩ : BufTy).Contents (Elt F)) ]

theorem s13_main_v91 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v72 : W (Proc.devRef .tc main_v72) = (val_main_v72 (F := F) x0 x1 x2 x3 x5 x6 x7 x8 x9 x10 x11 x12))
    (h_main_v84 : W (Proc.devRef .tc main_v84) = (val_main_v84 (F := F) x0 x1 x2 x3 x5 x6 x7 x8 x9 x10 x11 x12))
    (h_main_v83 : W (Proc.devRef .tc main_v83) = (val_main_v83 (F := F) x0 x1 x2 x3 x5 x6 x7 x8 x9 x10 x11 x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s13 (F := F)) W (Proc.devRef .tc main_v91) = (val_main_v91 (F := F) x13) := by
  stretch_results
  repeat (first | rw [h_main_v72] | rw [h_main_v84] | rw [h_main_v83] | rw [h_main_arg13] | rw [h_main_arg14] | rw [h_main_arg15] | rw [h_main_arg16])
  all_goals rfl

theorem s13_main_v90 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v72 : W (Proc.devRef .tc main_v72) = (val_main_v72 (F := F) x0 x1 x2 x3 x5 x6 x7 x8 x9 x10 x11 x12))
    (h_main_v84 : W (Proc.devRef .tc main_v84) = (val_main_v84 (F := F) x0 x1 x2 x3 x5 x6 x7 x8 x9 x10 x11 x12))
    (h_main_v83 : W (Proc.devRef .tc main_v83) = (val_main_v83 (F := F) x0 x1 x2 x3 x5 x6 x7 x8 x9 x10 x11 x12))
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16) :
    after (s13 (F := F)) W (Proc.devRef .tc main_v90) = (val_main_v90 (F := F) x0 x1 x2 x3 x5 x6 x7 x8 x9 x10 x11 x12) := by
  stretch_results
  repeat (first | rw [h_main_v72] | rw [h_main_v84] | rw [h_main_v83] | rw [h_main_arg13] | rw [h_main_arg14] | rw [h_main_arg15] | rw [h_main_arg16])
  all_goals rfl

theorem s13_main_arg14 (x14 : (⟨S128, .f32⟩ : BufTy).Contents (Elt F)) (W : Valuation τ sig (Elt F))
    (h_main_arg14 : W (Proc.devRef .tc main_arg14) = x14) :
    after (s13 (F := F)) W (Proc.devRef .tc main_arg14) = x14 := by
  stretch_results
  exact h_main_arg14

theorem s13_main_arg15 (x15 : (⟨S128x128, .f32⟩ : BufTy).Contents (Elt F)) (W : Valuation τ sig (Elt F))
    (h_main_arg15 : W (Proc.devRef .tc main_arg15) = x15) :
    after (s13 (F := F)) W (Proc.devRef .tc main_arg15) = x15 := by
  stretch_results
  exact h_main_arg15

theorem s13_main_arg16 (x16 : (⟨S128, .f32⟩ : BufTy).Contents (Elt F)) (W : Valuation τ sig (Elt F))
    (h_main_arg16 : W (Proc.devRef .tc main_arg16) = x16) :
    after (s13 (F := F)) W (Proc.devRef .tc main_arg16) = x16 := by
  stretch_results
  exact h_main_arg16

/-! ## Stretch 14: operations 112 to 120 -/

abbrev s14 : List (HloOp τ sig (Elt F)) :=
  [ unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v90 main_v92 main_v93 (mulf : (⟨S50000x128, .f32⟩ : BufTy).Contents (Elt F) → (⟨S50000x128, .f32⟩ : BufTy).Contents (Elt F) → (⟨S50000x128, .f32⟩ : BufTy).Contents (Elt F)),
    unary main_arg14 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v93 main_v95 main_v96 (addf : (⟨S50000x128, .f32⟩ : BufTy).Contents (Elt F) → (⟨S50000x128, .f32⟩ : BufTy).Contents (Elt F) → (⟨S50000x128, .f32⟩ : BufTy).Contents (Elt F)),
    binary main_v96 main_arg15 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (addf : (⟨S50000x128, .f32⟩ : BufTy).Contents (Elt F) → (⟨S50000x128, .f32⟩ : BufTy).Contents (Elt F) → (⟨S50000x128, .f32⟩ : BufTy).Contents (Elt F)) ]

theorem s14_main_v100 (x0 : (⟨S50000x128, .f32⟩ : BufTy).Contents (Elt F)) (x1 : (⟨S2x800000, .i32⟩ : BufTy).Contents (Elt F)) (x2 : (⟨S800000x64, .f32⟩ : BufTy).Contents (Elt F)) (x3 : (⟨S32, .f32⟩ : BufTy).Contents (Elt F)) (x5 : (⟨S224x128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (W : Valuation τ sig (Elt F))
    (h_main_v91 : W (Proc.devRef .tc main_v91) = (val_main_v91 (F := F) x13))
    (h_main_v90 : W (Proc.devRef .tc main_v90) = (val_main_v90 (F := F) x0 x1 x2 x3 x5 x6 x7 x8 x9 x10 x11 x12))
    (h_main_arg14 : W (Proc.devRef .tc main_arg14) = x14)
    (h_main_arg15 : W (Proc.devRef .tc main_arg15) = x15)
    (h_main_arg16 : W (Proc.devRef .tc main_arg16) = x16) :
    after (s14 (F := F)) W (Proc.devRef .tc main_v100) = (val_main_v100 (F := F) x0 x1 x2 x3 x5 x6 x7 x8 x9 x10 x11 x12 x13 x14 x15 x16) := by
  stretch_results
  repeat (first | rw [h_main_v91] | rw [h_main_v90] | rw [h_main_arg14] | rw [h_main_arg15] | rw [h_main_arg16])
  all_goals rfl

/-! ## The stretches chained -/

theorem ops_eq : (ops : List (HloOp τ sig (Elt F))) = s0 ++ s1 ++ s2 ++ s3 ++ s4 ++ s5 ++ s6 ++ s7 ++ s8 ++ s9 ++ s10 ++ s11 ++ s12 ++ s13 ++ s14 := rfl

/-- From any contents V: after the whole line the result buffer holds the last stage function of V's argument buffers. -/
theorem after_ops_result (V : Valuation τ sig (Elt F)) :
    after (ops (F := F)) V (Proc.devRef .tc main_v100)
      = val_main_v100 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [ops_eq]
  simp only [StableHlo.after_append]
  have f0_main_c_0 := s0_main_c_0 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ rfl rfl rfl rfl rfl rfl rfl rfl rfl rfl rfl rfl rfl rfl rfl rfl
  have f0_main_v1 := s0_main_v1 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ rfl rfl rfl rfl rfl rfl rfl rfl rfl rfl rfl rfl rfl rfl rfl rfl
  have f0_main_v5 := s0_main_v5 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ rfl rfl rfl rfl rfl rfl rfl rfl rfl rfl rfl rfl rfl rfl rfl rfl
  have f0_main_arg0 := s0_main_arg0 (F := F) (V (Proc.devRef .tc main_arg0)) _ rfl
  have f0_main_arg3 := s0_main_arg3 (F := F) (V (Proc.devRef .tc main_arg3)) _ rfl
  have f0_main_arg2 := s0_main_arg2 (F := F) (V (Proc.devRef .tc main_arg2)) _ rfl
  have f0_main_arg5 := s0_main_arg5 (F := F) (V (Proc.devRef .tc main_arg5)) _ rfl
  have f0_main_arg6 := s0_main_arg6 (F := F) (V (Proc.devRef .tc main_arg6)) _ rfl
  have f0_main_arg7 := s0_main_arg7 (F := F) (V (Proc.devRef .tc main_arg7)) _ rfl
  have f0_main_arg8 := s0_main_arg8 (F := F) (V (Proc.devRef .tc main_arg8)) _ rfl
  have f0_main_arg9 := s0_main_arg9 (F := F) (V (Proc.devRef .tc main_arg9)) _ rfl
  have f0_main_arg10 := s0_main_arg10 (F := F) (V (Proc.devRef .tc main_arg10)) _ rfl
  have f0_main_v3 := s0_main_v3 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ rfl rfl rfl rfl rfl rfl rfl rfl rfl rfl rfl rfl rfl rfl rfl rfl
  have f0_main_arg11 := s0_main_arg11 (F := F) (V (Proc.devRef .tc main_arg11)) _ rfl
  have f0_main_arg12 := s0_main_arg12 (F := F) (V (Proc.devRef .tc main_arg12)) _ rfl
  have f0_main_arg13 := s0_main_arg13 (F := F) (V (Proc.devRef .tc main_arg13)) _ rfl
  have f0_main_arg14 := s0_main_arg14 (F := F) (V (Proc.devRef .tc main_arg14)) _ rfl
  have f0_main_arg15 := s0_main_arg15 (F := F) (V (Proc.devRef .tc main_arg15)) _ rfl
  have f0_main_arg16 := s0_main_arg16 (F := F) (V (Proc.devRef .tc main_arg16)) _ rfl
  have f1_main_v10 := s1_main_v10 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f0_main_c_0 f0_main_v1 f0_main_v5 f0_main_arg0 f0_main_arg3 f0_main_arg2 f0_main_arg5 f0_main_arg6 f0_main_arg7 f0_main_arg8 f0_main_arg9 f0_main_arg10 f0_main_v3 f0_main_arg11 f0_main_arg12 f0_main_arg13 f0_main_arg14 f0_main_arg15 f0_main_arg16
  have f1_main_arg2 := s1_main_arg2 (F := F) (V (Proc.devRef .tc main_arg2)) _ f0_main_arg2
  have f1_main_v12 := s1_main_v12 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f0_main_c_0 f0_main_v1 f0_main_v5 f0_main_arg0 f0_main_arg3 f0_main_arg2 f0_main_arg5 f0_main_arg6 f0_main_arg7 f0_main_arg8 f0_main_arg9 f0_main_arg10 f0_main_v3 f0_main_arg11 f0_main_arg12 f0_main_arg13 f0_main_arg14 f0_main_arg15 f0_main_arg16
  have f1_main_arg5 := s1_main_arg5 (F := F) (V (Proc.devRef .tc main_arg5)) _ f0_main_arg5
  have f1_main_arg6 := s1_main_arg6 (F := F) (V (Proc.devRef .tc main_arg6)) _ f0_main_arg6
  have f1_main_arg7 := s1_main_arg7 (F := F) (V (Proc.devRef .tc main_arg7)) _ f0_main_arg7
  have f1_main_arg8 := s1_main_arg8 (F := F) (V (Proc.devRef .tc main_arg8)) _ f0_main_arg8
  have f1_main_arg9 := s1_main_arg9 (F := F) (V (Proc.devRef .tc main_arg9)) _ f0_main_arg9
  have f1_main_arg10 := s1_main_arg10 (F := F) (V (Proc.devRef .tc main_arg10)) _ f0_main_arg10
  have f1_main_v3 := s1_main_v3 (F := F) (V (Proc.devRef .tc main_arg1)) _ f0_main_v3
  have f1_main_arg0 := s1_main_arg0 (F := F) (V (Proc.devRef .tc main_arg0)) _ f0_main_arg0
  have f1_main_arg11 := s1_main_arg11 (F := F) (V (Proc.devRef .tc main_arg11)) _ f0_main_arg11
  have f1_main_arg12 := s1_main_arg12 (F := F) (V (Proc.devRef .tc main_arg12)) _ f0_main_arg12
  have f1_main_arg13 := s1_main_arg13 (F := F) (V (Proc.devRef .tc main_arg13)) _ f0_main_arg13
  have f1_main_arg14 := s1_main_arg14 (F := F) (V (Proc.devRef .tc main_arg14)) _ f0_main_arg14
  have f1_main_arg15 := s1_main_arg15 (F := F) (V (Proc.devRef .tc main_arg15)) _ f0_main_arg15
  have f1_main_arg16 := s1_main_arg16 (F := F) (V (Proc.devRef .tc main_arg16)) _ f0_main_arg16
  have f2_main_cst_1 := s2_main_cst_1 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f1_main_v10 f1_main_arg2 f1_main_v12 f1_main_arg5 f1_main_arg6 f1_main_arg7 f1_main_arg8 f1_main_arg9 f1_main_arg10 f1_main_v3 f1_main_arg0 f1_main_arg11 f1_main_arg12 f1_main_arg13 f1_main_arg14 f1_main_arg15 f1_main_arg16
  have f2_main_v17 := s2_main_v17 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f1_main_v10 f1_main_arg2 f1_main_v12 f1_main_arg5 f1_main_arg6 f1_main_arg7 f1_main_arg8 f1_main_arg9 f1_main_arg10 f1_main_v3 f1_main_arg0 f1_main_arg11 f1_main_arg12 f1_main_arg13 f1_main_arg14 f1_main_arg15 f1_main_arg16
  have f2_main_v19 := s2_main_v19 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f1_main_v10 f1_main_arg2 f1_main_v12 f1_main_arg5 f1_main_arg6 f1_main_arg7 f1_main_arg8 f1_main_arg9 f1_main_arg10 f1_main_v3 f1_main_arg0 f1_main_arg11 f1_main_arg12 f1_main_arg13 f1_main_arg14 f1_main_arg15 f1_main_arg16
  have f2_main_arg7 := s2_main_arg7 (F := F) (V (Proc.devRef .tc main_arg7)) _ f1_main_arg7
  have f2_main_arg8 := s2_main_arg8 (F := F) (V (Proc.devRef .tc main_arg8)) _ f1_main_arg8
  have f2_main_arg9 := s2_main_arg9 (F := F) (V (Proc.devRef .tc main_arg9)) _ f1_main_arg9
  have f2_main_arg10 := s2_main_arg10 (F := F) (V (Proc.devRef .tc main_arg10)) _ f1_main_arg10
  have f2_main_v3 := s2_main_v3 (F := F) (V (Proc.devRef .tc main_arg1)) _ f1_main_v3
  have f2_main_arg0 := s2_main_arg0 (F := F) (V (Proc.devRef .tc main_arg0)) _ f1_main_arg0
  have f2_main_arg11 := s2_main_arg11 (F := F) (V (Proc.devRef .tc main_arg11)) _ f1_main_arg11
  have f2_main_arg12 := s2_main_arg12 (F := F) (V (Proc.devRef .tc main_arg12)) _ f1_main_arg12
  have f2_main_arg13 := s2_main_arg13 (F := F) (V (Proc.devRef .tc main_arg13)) _ f1_main_arg13
  have f2_main_arg14 := s2_main_arg14 (F := F) (V (Proc.devRef .tc main_arg14)) _ f1_main_arg14
  have f2_main_arg15 := s2_main_arg15 (F := F) (V (Proc.devRef .tc main_arg15)) _ f1_main_arg15
  have f2_main_arg16 := s2_main_arg16 (F := F) (V (Proc.devRef .tc main_arg16)) _ f1_main_arg16
  have f3_main_v24 := s3_main_v24 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f2_main_cst_1 f2_main_v17 f2_main_v19 f2_main_arg7 f2_main_arg8 f2_main_arg9 f2_main_arg10 f2_main_v3 f2_main_arg0 f2_main_arg11 f2_main_arg12 f2_main_arg13 f2_main_arg14 f2_main_arg15 f2_main_arg16
  have f3_main_v25 := s3_main_v25 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f2_main_cst_1 f2_main_v17 f2_main_v19 f2_main_arg7 f2_main_arg8 f2_main_arg9 f2_main_arg10 f2_main_v3 f2_main_arg0 f2_main_arg11 f2_main_arg12 f2_main_arg13 f2_main_arg14 f2_main_arg15 f2_main_arg16
  have f3_main_v22 := s3_main_v22 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f2_main_cst_1 f2_main_v17 f2_main_v19 f2_main_arg7 f2_main_arg8 f2_main_arg9 f2_main_arg10 f2_main_v3 f2_main_arg0 f2_main_arg11 f2_main_arg12 f2_main_arg13 f2_main_arg14 f2_main_arg15 f2_main_arg16
  have f3_main_arg7 := s3_main_arg7 (F := F) (V (Proc.devRef .tc main_arg7)) _ f2_main_arg7
  have f3_main_arg8 := s3_main_arg8 (F := F) (V (Proc.devRef .tc main_arg8)) _ f2_main_arg8
  have f3_main_arg9 := s3_main_arg9 (F := F) (V (Proc.devRef .tc main_arg9)) _ f2_main_arg9
  have f3_main_arg10 := s3_main_arg10 (F := F) (V (Proc.devRef .tc main_arg10)) _ f2_main_arg10
  have f3_main_v3 := s3_main_v3 (F := F) (V (Proc.devRef .tc main_arg1)) _ f2_main_v3
  have f3_main_arg0 := s3_main_arg0 (F := F) (V (Proc.devRef .tc main_arg0)) _ f2_main_arg0
  have f3_main_arg11 := s3_main_arg11 (F := F) (V (Proc.devRef .tc main_arg11)) _ f2_main_arg11
  have f3_main_arg12 := s3_main_arg12 (F := F) (V (Proc.devRef .tc main_arg12)) _ f2_main_arg12
  have f3_main_arg13 := s3_main_arg13 (F := F) (V (Proc.devRef .tc main_arg13)) _ f2_main_arg13
  have f3_main_arg14 := s3_main_arg14 (F := F) (V (Proc.devRef .tc main_arg14)) _ f2_main_arg14
  have f3_main_arg15 := s3_main_arg15 (F := F) (V (Proc.devRef .tc main_arg15)) _ f2_main_arg15
  have f3_main_arg16 := s3_main_arg16 (F := F) (V (Proc.devRef .tc main_arg16)) _ f2_main_arg16
  have f4_main_cst_5 := s4_main_cst_5 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f3_main_v24 f3_main_v25 f3_main_v22 f3_main_arg7 f3_main_arg8 f3_main_arg9 f3_main_arg10 f3_main_v3 f3_main_arg0 f3_main_arg11 f3_main_arg12 f3_main_arg13 f3_main_arg14 f3_main_arg15 f3_main_arg16
  have f4_main_v31 := s4_main_v31 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f3_main_v24 f3_main_v25 f3_main_v22 f3_main_arg7 f3_main_arg8 f3_main_arg9 f3_main_arg10 f3_main_v3 f3_main_arg0 f3_main_arg11 f3_main_arg12 f3_main_arg13 f3_main_arg14 f3_main_arg15 f3_main_arg16
  have f4_main_v26 := s4_main_v26 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f3_main_v24 f3_main_v25 f3_main_v22 f3_main_arg7 f3_main_arg8 f3_main_arg9 f3_main_arg10 f3_main_v3 f3_main_arg0 f3_main_arg11 f3_main_arg12 f3_main_arg13 f3_main_arg14 f3_main_arg15 f3_main_arg16
  have f4_main_v22 := s4_main_v22 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) _ f3_main_v22
  have f4_main_arg7 := s4_main_arg7 (F := F) (V (Proc.devRef .tc main_arg7)) _ f3_main_arg7
  have f4_main_arg8 := s4_main_arg8 (F := F) (V (Proc.devRef .tc main_arg8)) _ f3_main_arg8
  have f4_main_arg9 := s4_main_arg9 (F := F) (V (Proc.devRef .tc main_arg9)) _ f3_main_arg9
  have f4_main_arg10 := s4_main_arg10 (F := F) (V (Proc.devRef .tc main_arg10)) _ f3_main_arg10
  have f4_main_v3 := s4_main_v3 (F := F) (V (Proc.devRef .tc main_arg1)) _ f3_main_v3
  have f4_main_arg0 := s4_main_arg0 (F := F) (V (Proc.devRef .tc main_arg0)) _ f3_main_arg0
  have f4_main_arg11 := s4_main_arg11 (F := F) (V (Proc.devRef .tc main_arg11)) _ f3_main_arg11
  have f4_main_arg12 := s4_main_arg12 (F := F) (V (Proc.devRef .tc main_arg12)) _ f3_main_arg12
  have f4_main_arg13 := s4_main_arg13 (F := F) (V (Proc.devRef .tc main_arg13)) _ f3_main_arg13
  have f4_main_arg14 := s4_main_arg14 (F := F) (V (Proc.devRef .tc main_arg14)) _ f3_main_arg14
  have f4_main_arg15 := s4_main_arg15 (F := F) (V (Proc.devRef .tc main_arg15)) _ f3_main_arg15
  have f4_main_arg16 := s4_main_arg16 (F := F) (V (Proc.devRef .tc main_arg16)) _ f3_main_arg16
  have f5_main_v38 := s5_main_v38 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f4_main_cst_5 f4_main_v31 f4_main_v26 f4_main_v22 f4_main_arg7 f4_main_arg8 f4_main_arg9 f4_main_arg10 f4_main_v3 f4_main_arg0 f4_main_arg11 f4_main_arg12 f4_main_arg13 f4_main_arg14 f4_main_arg15 f4_main_arg16
  have f5_main_v35 := s5_main_v35 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f4_main_cst_5 f4_main_v31 f4_main_v26 f4_main_v22 f4_main_arg7 f4_main_arg8 f4_main_arg9 f4_main_arg10 f4_main_v3 f4_main_arg0 f4_main_arg11 f4_main_arg12 f4_main_arg13 f4_main_arg14 f4_main_arg15 f4_main_arg16
  have f5_main_arg7 := s5_main_arg7 (F := F) (V (Proc.devRef .tc main_arg7)) _ f4_main_arg7
  have f5_main_arg8 := s5_main_arg8 (F := F) (V (Proc.devRef .tc main_arg8)) _ f4_main_arg8
  have f5_main_arg9 := s5_main_arg9 (F := F) (V (Proc.devRef .tc main_arg9)) _ f4_main_arg9
  have f5_main_arg10 := s5_main_arg10 (F := F) (V (Proc.devRef .tc main_arg10)) _ f4_main_arg10
  have f5_main_v3 := s5_main_v3 (F := F) (V (Proc.devRef .tc main_arg1)) _ f4_main_v3
  have f5_main_arg0 := s5_main_arg0 (F := F) (V (Proc.devRef .tc main_arg0)) _ f4_main_arg0
  have f5_main_arg11 := s5_main_arg11 (F := F) (V (Proc.devRef .tc main_arg11)) _ f4_main_arg11
  have f5_main_arg12 := s5_main_arg12 (F := F) (V (Proc.devRef .tc main_arg12)) _ f4_main_arg12
  have f5_main_arg13 := s5_main_arg13 (F := F) (V (Proc.devRef .tc main_arg13)) _ f4_main_arg13
  have f5_main_arg14 := s5_main_arg14 (F := F) (V (Proc.devRef .tc main_arg14)) _ f4_main_arg14
  have f5_main_arg15 := s5_main_arg15 (F := F) (V (Proc.devRef .tc main_arg15)) _ f4_main_arg15
  have f5_main_arg16 := s5_main_arg16 (F := F) (V (Proc.devRef .tc main_arg16)) _ f4_main_arg16
  have f6_main_v46 := s6_main_v46 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f5_main_v38 f5_main_v35 f5_main_arg7 f5_main_arg8 f5_main_arg9 f5_main_arg10 f5_main_v3 f5_main_arg0 f5_main_arg11 f5_main_arg12 f5_main_arg13 f5_main_arg14 f5_main_arg15 f5_main_arg16
  have f6_main_arg9 := s6_main_arg9 (F := F) (V (Proc.devRef .tc main_arg9)) _ f5_main_arg9
  have f6_main_arg10 := s6_main_arg10 (F := F) (V (Proc.devRef .tc main_arg10)) _ f5_main_arg10
  have f6_main_v3 := s6_main_v3 (F := F) (V (Proc.devRef .tc main_arg1)) _ f5_main_v3
  have f6_main_arg0 := s6_main_arg0 (F := F) (V (Proc.devRef .tc main_arg0)) _ f5_main_arg0
  have f6_main_arg11 := s6_main_arg11 (F := F) (V (Proc.devRef .tc main_arg11)) _ f5_main_arg11
  have f6_main_arg12 := s6_main_arg12 (F := F) (V (Proc.devRef .tc main_arg12)) _ f5_main_arg12
  have f6_main_arg13 := s6_main_arg13 (F := F) (V (Proc.devRef .tc main_arg13)) _ f5_main_arg13
  have f6_main_arg14 := s6_main_arg14 (F := F) (V (Proc.devRef .tc main_arg14)) _ f5_main_arg14
  have f6_main_arg15 := s6_main_arg15 (F := F) (V (Proc.devRef .tc main_arg15)) _ f5_main_arg15
  have f6_main_arg16 := s6_main_arg16 (F := F) (V (Proc.devRef .tc main_arg16)) _ f5_main_arg16
  have f7_main_v3 := s7_main_v3 (F := F) (V (Proc.devRef .tc main_arg1)) _ f6_main_v3
  have f7_main_v53 := s7_main_v53 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f6_main_v46 f6_main_arg9 f6_main_arg10 f6_main_v3 f6_main_arg0 f6_main_arg11 f6_main_arg12 f6_main_arg13 f6_main_arg14 f6_main_arg15 f6_main_arg16
  have f7_main_arg0 := s7_main_arg0 (F := F) (V (Proc.devRef .tc main_arg0)) _ f6_main_arg0
  have f7_main_arg11 := s7_main_arg11 (F := F) (V (Proc.devRef .tc main_arg11)) _ f6_main_arg11
  have f7_main_arg12 := s7_main_arg12 (F := F) (V (Proc.devRef .tc main_arg12)) _ f6_main_arg12
  have f7_main_arg13 := s7_main_arg13 (F := F) (V (Proc.devRef .tc main_arg13)) _ f6_main_arg13
  have f7_main_arg14 := s7_main_arg14 (F := F) (V (Proc.devRef .tc main_arg14)) _ f6_main_arg14
  have f7_main_arg15 := s7_main_arg15 (F := F) (V (Proc.devRef .tc main_arg15)) _ f6_main_arg15
  have f7_main_arg16 := s7_main_arg16 (F := F) (V (Proc.devRef .tc main_arg16)) _ f6_main_arg16
  have f8_main_v57 := s8_main_v57 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f7_main_v3 f7_main_v53 f7_main_arg0 f7_main_arg11 f7_main_arg12 f7_main_arg13 f7_main_arg14 f7_main_arg15 f7_main_arg16
  have f8_main_v58 := s8_main_v58 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f7_main_v3 f7_main_v53 f7_main_arg0 f7_main_arg11 f7_main_arg12 f7_main_arg13 f7_main_arg14 f7_main_arg15 f7_main_arg16
  have f8_main_v53 := s8_main_v53 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) _ f7_main_v53
  have f8_main_arg0 := s8_main_arg0 (F := F) (V (Proc.devRef .tc main_arg0)) _ f7_main_arg0
  have f8_main_arg11 := s8_main_arg11 (F := F) (V (Proc.devRef .tc main_arg11)) _ f7_main_arg11
  have f8_main_arg12 := s8_main_arg12 (F := F) (V (Proc.devRef .tc main_arg12)) _ f7_main_arg12
  have f8_main_arg13 := s8_main_arg13 (F := F) (V (Proc.devRef .tc main_arg13)) _ f7_main_arg13
  have f8_main_arg14 := s8_main_arg14 (F := F) (V (Proc.devRef .tc main_arg14)) _ f7_main_arg14
  have f8_main_arg15 := s8_main_arg15 (F := F) (V (Proc.devRef .tc main_arg15)) _ f7_main_arg15
  have f8_main_arg16 := s8_main_arg16 (F := F) (V (Proc.devRef .tc main_arg16)) _ f7_main_arg16
  have f9_main_v64 := s9_main_v64 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f8_main_v57 f8_main_v58 f8_main_v53 f8_main_arg0 f8_main_arg11 f8_main_arg12 f8_main_arg13 f8_main_arg14 f8_main_arg15 f8_main_arg16
  have f9_main_v66 := s9_main_v66 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f8_main_v57 f8_main_v58 f8_main_v53 f8_main_arg0 f8_main_arg11 f8_main_arg12 f8_main_arg13 f8_main_arg14 f8_main_arg15 f8_main_arg16
  have f9_main_arg13 := s9_main_arg13 (F := F) (V (Proc.devRef .tc main_arg13)) _ f8_main_arg13
  have f9_main_arg14 := s9_main_arg14 (F := F) (V (Proc.devRef .tc main_arg14)) _ f8_main_arg14
  have f9_main_arg15 := s9_main_arg15 (F := F) (V (Proc.devRef .tc main_arg15)) _ f8_main_arg15
  have f9_main_arg16 := s9_main_arg16 (F := F) (V (Proc.devRef .tc main_arg16)) _ f8_main_arg16
  have f10_main_v72 := s10_main_v72 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f9_main_v64 f9_main_v66 f9_main_arg13 f9_main_arg14 f9_main_arg15 f9_main_arg16
  have f10_main_arg13 := s10_main_arg13 (F := F) (V (Proc.devRef .tc main_arg13)) _ f9_main_arg13
  have f10_main_arg14 := s10_main_arg14 (F := F) (V (Proc.devRef .tc main_arg14)) _ f9_main_arg14
  have f10_main_arg15 := s10_main_arg15 (F := F) (V (Proc.devRef .tc main_arg15)) _ f9_main_arg15
  have f10_main_arg16 := s10_main_arg16 (F := F) (V (Proc.devRef .tc main_arg16)) _ f9_main_arg16
  have f11_main_v78 := s11_main_v78 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f10_main_v72 f10_main_arg13 f10_main_arg14 f10_main_arg15 f10_main_arg16
  have f11_main_v76 := s11_main_v76 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f10_main_v72 f10_main_arg13 f10_main_arg14 f10_main_arg15 f10_main_arg16
  have f11_main_v72 := s11_main_v72 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) _ f10_main_v72
  have f11_main_arg13 := s11_main_arg13 (F := F) (V (Proc.devRef .tc main_arg13)) _ f10_main_arg13
  have f11_main_arg14 := s11_main_arg14 (F := F) (V (Proc.devRef .tc main_arg14)) _ f10_main_arg14
  have f11_main_arg15 := s11_main_arg15 (F := F) (V (Proc.devRef .tc main_arg15)) _ f10_main_arg15
  have f11_main_arg16 := s11_main_arg16 (F := F) (V (Proc.devRef .tc main_arg16)) _ f10_main_arg16
  have f12_main_v72 := s12_main_v72 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) _ f11_main_v72
  have f12_main_v84 := s12_main_v84 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f11_main_v78 f11_main_v76 f11_main_v72 f11_main_arg13 f11_main_arg14 f11_main_arg15 f11_main_arg16
  have f12_main_v83 := s12_main_v83 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f11_main_v78 f11_main_v76 f11_main_v72 f11_main_arg13 f11_main_arg14 f11_main_arg15 f11_main_arg16
  have f12_main_arg13 := s12_main_arg13 (F := F) (V (Proc.devRef .tc main_arg13)) _ f11_main_arg13
  have f12_main_arg14 := s12_main_arg14 (F := F) (V (Proc.devRef .tc main_arg14)) _ f11_main_arg14
  have f12_main_arg15 := s12_main_arg15 (F := F) (V (Proc.devRef .tc main_arg15)) _ f11_main_arg15
  have f12_main_arg16 := s12_main_arg16 (F := F) (V (Proc.devRef .tc main_arg16)) _ f11_main_arg16
  have f13_main_v91 := s13_main_v91 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f12_main_v72 f12_main_v84 f12_main_v83 f12_main_arg13 f12_main_arg14 f12_main_arg15 f12_main_arg16
  have f13_main_v90 := s13_main_v90 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f12_main_v72 f12_main_v84 f12_main_v83 f12_main_arg13 f12_main_arg14 f12_main_arg15 f12_main_arg16
  have f13_main_arg14 := s13_main_arg14 (F := F) (V (Proc.devRef .tc main_arg14)) _ f12_main_arg14
  have f13_main_arg15 := s13_main_arg15 (F := F) (V (Proc.devRef .tc main_arg15)) _ f12_main_arg15
  have f13_main_arg16 := s13_main_arg16 (F := F) (V (Proc.devRef .tc main_arg16)) _ f12_main_arg16
  have f14_main_v100 := s14_main_v100 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) _ f13_main_v91 f13_main_v90 f13_main_arg14 f13_main_arg15 f13_main_arg16
  exact f14_main_v100

/-! ## No operation writes an argument -/

/-- Every buffer the line writes. -/
def written : List (Ref sig .tc) :=
  [main_v0, main_v1, main_v2, main_v3, main_c, main_v4, main_v5, main_c_0, main_v6, main_v7, main_v8, main_v9, main_v10, main_v11, main_v12, main_v13, main_v14, main_v15, main_v16, main_v17, main_cst, main_v18, main_v19, main_cst_1, main_v20, main_v21, main_v22, main_cst_2, main_v23, main_v24, main_cst_3, main_v25, main_v26, main_v27, main_v28, main_v29, main_cst_4, main_v30, main_v31, main_cst_5, main_v32, main_v33, main_v34, main_v35, main_cst_6, main_v36, main_v37, main_v38, main_v39, main_v40, main_v41, main_v42, main_v43, main_v44, main_v45, main_v46, main_v47, main_v48, main_v49, main_v50, main_cst_7, main_v51, main_v52, main_v53, main_cst_8, main_v54, main_cst_9, main_v55, main_v56, main_v57, main_cst_10, main_v58, main_v59, main_v60, main_v61, main_v62, main_v63, main_v64, main_v65, main_v66, main_v67, main_cst_11, main_v68, main_v69, main_cst_12, main_v70, main_v71, main_v72, main_cst_13, main_v73, main_v74, main_cst_14, main_v75, main_v76, main_v77, main_v78, main_v79, main_cst_15, main_v80, main_v81, main_cst_16, main_v82, main_v83, main_v84, main_v85, main_cst_17, main_v86, main_v87, main_v88, main_v89, main_v90, main_v91, main_v92, main_v93, main_v94, main_v95, main_v96, main_v97, main_v98, main_v99, main_v100]

theorem ops_writes_sub :
    (ops : List (HloOp τ sig (Elt F))).Forall fun op => op.writes ⊆ (written.map (Proc.devRef (τ := τ) .tc)).toFinset := by
  simp only [ops, TRef.ternary, List.Forall, nullary_writes, unary_writes, binary_writes, ternary_writes, reshape_writes, nary_writes,
    Finset.singleton_subset_iff]
  repeat' apply And.intro
  all_goals exact List.mem_toFinset.mpr (List.mem_map.mpr ⟨_, by decide, rfl⟩)

theorem after_ops_arg0 (V : Valuation τ sig (Elt F)) :
    after (ops (F := F)) V (Proc.devRef .tc main_arg0) = V (Proc.devRef .tc main_arg0) :=
  after_of_writes_sub ops V ops_writes_sub (by decide)
theorem after_ops_arg1 (V : Valuation τ sig (Elt F)) :
    after (ops (F := F)) V (Proc.devRef .tc main_arg1) = V (Proc.devRef .tc main_arg1) :=
  after_of_writes_sub ops V ops_writes_sub (by decide)
theorem after_ops_arg2 (V : Valuation τ sig (Elt F)) :
    after (ops (F := F)) V (Proc.devRef .tc main_arg2) = V (Proc.devRef .tc main_arg2) :=
  after_of_writes_sub ops V ops_writes_sub (by decide)
theorem after_ops_arg3 (V : Valuation τ sig (Elt F)) :
    after (ops (F := F)) V (Proc.devRef .tc main_arg3) = V (Proc.devRef .tc main_arg3) :=
  after_of_writes_sub ops V ops_writes_sub (by decide)
theorem after_ops_arg4 (V : Valuation τ sig (Elt F)) :
    after (ops (F := F)) V (Proc.devRef .tc main_arg4) = V (Proc.devRef .tc main_arg4) :=
  after_of_writes_sub ops V ops_writes_sub (by decide)
theorem after_ops_arg5 (V : Valuation τ sig (Elt F)) :
    after (ops (F := F)) V (Proc.devRef .tc main_arg5) = V (Proc.devRef .tc main_arg5) :=
  after_of_writes_sub ops V ops_writes_sub (by decide)
theorem after_ops_arg6 (V : Valuation τ sig (Elt F)) :
    after (ops (F := F)) V (Proc.devRef .tc main_arg6) = V (Proc.devRef .tc main_arg6) :=
  after_of_writes_sub ops V ops_writes_sub (by decide)
theorem after_ops_arg7 (V : Valuation τ sig (Elt F)) :
    after (ops (F := F)) V (Proc.devRef .tc main_arg7) = V (Proc.devRef .tc main_arg7) :=
  after_of_writes_sub ops V ops_writes_sub (by decide)
theorem after_ops_arg8 (V : Valuation τ sig (Elt F)) :
    after (ops (F := F)) V (Proc.devRef .tc main_arg8) = V (Proc.devRef .tc main_arg8) :=
  after_of_writes_sub ops V ops_writes_sub (by decide)
theorem after_ops_arg9 (V : Valuation τ sig (Elt F)) :
    after (ops (F := F)) V (Proc.devRef .tc main_arg9) = V (Proc.devRef .tc main_arg9) :=
  after_of_writes_sub ops V ops_writes_sub (by decide)
theorem after_ops_arg10 (V : Valuation τ sig (Elt F)) :
    after (ops (F := F)) V (Proc.devRef .tc main_arg10) = V (Proc.devRef .tc main_arg10) :=
  after_of_writes_sub ops V ops_writes_sub (by decide)
theorem after_ops_arg11 (V : Valuation τ sig (Elt F)) :
    after (ops (F := F)) V (Proc.devRef .tc main_arg11) = V (Proc.devRef .tc main_arg11) :=
  after_of_writes_sub ops V ops_writes_sub (by decide)
theorem after_ops_arg12 (V : Valuation τ sig (Elt F)) :
    after (ops (F := F)) V (Proc.devRef .tc main_arg12) = V (Proc.devRef .tc main_arg12) :=
  after_of_writes_sub ops V ops_writes_sub (by decide)
theorem after_ops_arg13 (V : Valuation τ sig (Elt F)) :
    after (ops (F := F)) V (Proc.devRef .tc main_arg13) = V (Proc.devRef .tc main_arg13) :=
  after_of_writes_sub ops V ops_writes_sub (by decide)
theorem after_ops_arg14 (V : Valuation τ sig (Elt F)) :
    after (ops (F := F)) V (Proc.devRef .tc main_arg14) = V (Proc.devRef .tc main_arg14) :=
  after_of_writes_sub ops V ops_writes_sub (by decide)
theorem after_ops_arg15 (V : Valuation τ sig (Elt F)) :
    after (ops (F := F)) V (Proc.devRef .tc main_arg15) = V (Proc.devRef .tc main_arg15) :=
  after_of_writes_sub ops V ops_writes_sub (by decide)
theorem after_ops_arg16 (V : Valuation τ sig (Elt F)) :
    after (ops (F := F)) V (Proc.devRef .tc main_arg16) = V (Proc.devRef .tc main_arg16) :=
  after_of_writes_sub ops V ops_writes_sub (by decide)

/-- No operation of the line allocates a buffer. -/
theorem ops_fresh : (ops : List (HloOp τ sig (Elt F))).Forall fun op => op.fresh = ∅ := by
  simp only [ops, List.Forall]; repeat' constructor

/-! ## The run -/

/-- On every device, from any memory with zero counters: every weakly fair execution of @main terminates with the result
    buffer at the last stage function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v100).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _),
      (h c main_arg10).trans (after_ops_arg10 _),
      (h c main_arg11).trans (after_ops_arg11 _),
      (h c main_arg12).trans (after_ops_arg12 _),
      (h c main_arg13).trans (after_ops_arg13 _),
      (h c main_arg14).trans (after_ops_arg14 _),
      (h c main_arg15).trans (after_ops_arg15 _),
      (h c main_arg16).trans (after_ops_arg16 _)⟩)
    (run_seq scopedRefs_eq scopedSems_eq defs main (fun _ => ops) main_eq (fun _ => ops_sub) m ρ
      (fun _ => List.forall_iff_forall_mem.mp ops_fresh))

end Cert.ReferenceIdeal.RunP

end
-- ==== Proof.RefEdge.lean ====
/-
  The reference's edge MLP, read entry by entry: its result at (e, q) is the row MLP of row e's pre-activations, which
  are the concatenated row times the whole first-layer weight matrix plus the bias.
-/
import proofs.«113419_j65292092833799_1_alg».proof.Proof.RefRead
import proofs.«113419_j65292092833799_1_alg».proof.Proof.MlpSpec
import Idealize.ShloMosaic.PureOps.Ideal.Laws
import Idealize.ShloMosaic.Lib.ValueLayout
import Idealize.ShloMosaic.Lib.IdealHost
import Idealize.ShloMosaic.Lib.Pipeline.Value

set_option maxRecDepth 16384

noncomputable section

namespace Cert.ReferenceIdeal.EdgeValue

open Cert.ReferenceIdeal Cert.ReferenceIdeal.Gen Cert.ReferenceIdeal.ReadP Idealize.ShloMosaic Idealize.ShloMosaic.TcCoe Idealize.ShloMosaic.ValueIdx

/-! ### The index functions of the layout operations, at coordinates -/

private theorem lidx14 (e : Fin 800000) (j : Fin 128) (k : Fin 224) : lidx_main_v14 (ix2 e j) k = ix2 e k :=
  funext fun a => by match a with | ⟨0, _⟩ => rfl | ⟨1, _⟩ => rfl
private theorem ridx14 (e : Fin 800000) (j : Fin 128) (k : Fin 224) : ridx_main_v14 (ix2 e j) k = ix2 k j :=
  funext fun a => by match a with | ⟨0, _⟩ => rfl | ⟨1, _⟩ => rfl
private theorem idx15_16 (e : Fin 800000) (j : Fin 128) : idx_main_v15 (idx_main_v16 (ix2 e j)) = ix1 j :=
  funext fun a => by match a with | ⟨0, _⟩ => rfl
private theorem idx41_42 (e : Fin 800000) (j : Fin 128) : idx_main_v41 (idx_main_v42 (ix2 e j)) = ix1 j :=
  funext fun a => by match a with | ⟨0, _⟩ => rfl
private theorem idx44_45 (e : Fin 800000) (j : Fin 128) : idx_main_v44 (idx_main_v45 (ix2 e j)) = ix1 j :=
  funext fun a => by match a with | ⟨0, _⟩ => rfl
private theorem idx48_49 (e : Fin 800000) (j : Fin 128) : idx_main_v48 (idx_main_v49 (ix2 e j)) = ix1 j :=
  funext fun a => by match a with | ⟨0, _⟩ => rfl
private theorem idx23 (e : Fin 800000) (z : Fin 1) (k : Fin 128) : idx_main_v23 (idx_main_v24 (ix2 e z)) k = ix2 e k :=
  funext fun a => by match a with | ⟨0, _⟩ => rfl | ⟨1, _⟩ => rfl
private theorem idx30 (e : Fin 800000) (z : Fin 1) (k : Fin 128) : idx_main_v30 (idx_main_v31 (ix2 e z)) k = ix2 e k :=
  funext fun a => by match a with | ⟨0, _⟩ => rfl | ⟨1, _⟩ => rfl
private theorem idx27 (e : Fin 800000) (k : Fin 128) : idx_main_v27 (ix2 e k) = ix2 e (0 : Fin 1) :=
  funext fun a => by match a with | ⟨0, _⟩ => rfl | ⟨1, _⟩ => rfl
private theorem idx34 (e : Fin 800000) (k : Fin 128) : idx_main_v34 (ix2 e k) = ix2 e (0 : Fin 1) :=
  funext fun a => by match a with | ⟨0, _⟩ => rfl | ⟨1, _⟩ => rfl
private theorem idx39 (e : Fin 800000) (k : Fin 128) : idx_main_v39 (ix2 e k) = ix2 e (0 : Fin 1) :=
  funext fun a => by match a with | ⟨0, _⟩ => rfl | ⟨1, _⟩ => rfl
private theorem lidx47 (e : Fin 800000) (q k : Fin 128) : lidx_main_v47 (ix2 e q) k = ix2 e k :=
  funext fun a => by match a with | ⟨0, _⟩ => rfl | ⟨1, _⟩ => rfl
private theorem ridx47 (e : Fin 800000) (q k : Fin 128) : ridx_main_v47 (ix2 e q) k = ix2 k q :=
  funext fun a => by match a with | ⟨0, _⟩ => rfl | ⟨1, _⟩ => rfl

/-! ### The edge MLP read at coordinates: pre-activation, activation, row statistics, normalised row, result -/

/-- The pre-activation at (e, j): the concatenated row e times column j of the first-layer weights, plus the bias. -/
theorem val_main_v17_ix2 (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 : (⟨S128, .f32⟩ : BufTy).Contents (Elt Ideal)) (e : Fin 800000) (j : Fin 128) :
    val_main_v17 (F := Ideal) x0 x1 x2 x3 x5 x6 (ix2 e j)
      = (∑ k : Fin 224, val_main_v13 (F := Ideal) x0 x1 x2 x3 (ix2 e k) * x5 (ix2 k j)) + x6 (ix1 j) := by
  rw [val_main_v17_apply, val_main_v14_apply, val_main_v16_apply, val_main_v15_apply, idx15_16]
  simp only [lidx14, ridx14]
  rfl

/-- The activation at (e, j) is LeakyReLU of the pre-activation there. -/
theorem val_main_v22_ix2 (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 : (⟨S128, .f32⟩ : BufTy).Contents (Elt Ideal)) (e : Fin 800000) (j : Fin 128) :
    val_main_v22 (F := Ideal) x0 x1 x2 x3 x5 x6 (ix2 e j)
      = Cert.Gnn.leaky (val_main_v17 (F := Ideal) x0 x1 x2 x3 x5 x6 (ix2 e j)) := by
  rw [val_main_v22_apply, val_main_v19_apply, val_main_v21_apply, val_main_v18_apply, val_main_v20_apply,
    val_main_cst_apply, val_main_cst_1_apply]
  rfl

/-- The row mean the reference computes for row e is the mean of row e's activations. -/
theorem val_main_v26_ix2 (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 : (⟨S128, .f32⟩ : BufTy).Contents (Elt Ideal)) (e : Fin 800000) :
    val_main_v26 (F := Ideal) x0 x1 x2 x3 x5 x6 (ix2 e (0 : Fin 1))
      = Cert.Gnn.rowMean (fun j => val_main_v22 (F := Ideal) x0 x1 x2 x3 x5 x6 (ix2 e j)) := by
  rw [val_main_v26_apply, val_main_v24_apply, val_main_v25_apply, val_main_cst_3_apply, val_main_v23_apply,
    val_main_cst_2_apply]
  simp only [idx23]
  rw [Ideal.ofBits_def, Ideal.ofBits_zero_f32, zero_add]
  rfl

/-- The reciprocal standard deviation the reference computes for row e is that of row e's activations. -/
theorem val_main_v38_ix2 (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 : (⟨S128, .f32⟩ : BufTy).Contents (Elt Ideal)) (e : Fin 800000) :
    val_main_v38 (F := Ideal) x0 x1 x2 x3 x5 x6 (ix2 e (0 : Fin 1))
      = Cert.Gnn.rowRstd (fun j => val_main_v22 (F := Ideal) x0 x1 x2 x3 x5 x6 (ix2 e j)) := by
  rw [val_main_v38_apply, val_main_v37_apply, val_main_v33_apply, val_main_v36_apply, val_main_cst_6_apply,
    val_main_v31_apply, val_main_v32_apply, val_main_cst_5_apply, val_main_v30_apply, val_main_cst_4_apply]
  simp only [idx30, val_main_v29_apply, val_main_v28_apply, val_main_v27_apply, idx27, val_main_v26_ix2]
  rw [Ideal.ofBits_def, Ideal.ofBits_zero_f32, zero_add]
  rfl

/-- Entry k of the normalised, scaled and shifted row e. -/
theorem val_main_v46_ix2 (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 x7 x8 : (⟨S128, .f32⟩ : BufTy).Contents (Elt Ideal)) (e : Fin 800000) (k : Fin 128) :
    val_main_v46 (F := Ideal) x0 x1 x2 x3 x5 x6 x7 x8 (ix2 e k)
      = Cert.Gnn.normRow (fun j => val_main_v22 (F := Ideal) x0 x1 x2 x3 x5 x6 (ix2 e j))
          (fun k => x7 (ix1 k)) (fun k => x8 (ix1 k)) k := by
  rw [val_main_v46_apply, val_main_v43_apply, val_main_v40_apply, val_main_v35_apply, val_main_v34_apply,
    val_main_v39_apply, val_main_v42_apply, val_main_v41_apply, val_main_v45_apply, val_main_v44_apply,
    idx34, idx39, idx41_42, idx44_45, val_main_v26_ix2, val_main_v38_ix2]
  rfl

/-- The edge MLP's result at (e, q): the second linear layer over the normalised row e. -/
theorem val_main_v50_ix2 (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) (q : Fin 128) :
    val_main_v50 (F := Ideal) x0 x1 x2 x3 x5 x6 x7 x8 x9 x10 (ix2 e q)
      = Cert.Gnn.mlpTail (fun j => val_main_v22 (F := Ideal) x0 x1 x2 x3 x5 x6 (ix2 e j))
          (fun k => x7 (ix1 k)) (fun k => x8 (ix1 k)) (Cert.Gnn.mat x9) (fun q => x10 (ix1 q)) q := by
  rw [val_main_v50_apply, val_main_v47_apply, val_main_v49_apply, val_main_v48_apply, idx48_49]
  simp only [lidx47, ridx47, val_main_v46_ix2]
  rfl

/-- The reference's edge MLP result as the row MLP over the concatenated rows' pre-activations. -/
theorem val_main_v50_eq_mlp (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v50 (F := Ideal) x0 x1 x2 x3 x5 x6 x7 x8 x9 x10
      = Cert.Gnn.mlpRows
          (fun e j => (∑ k : Fin 224, val_main_v13 (F := Ideal) x0 x1 x2 x3 (ix2 e k) * x5 (ix2 k j)) + x6 (ix1 j))
          (fun k => x7 (ix1 k)) (fun k => x8 (ix1 k)) (Cert.Gnn.mat x9) (fun q => x10 (ix1 q)) := by
  funext i
  obtain ⟨e, q, rfl⟩ : ∃ (e : Fin 800000) (q : Fin 128), i = ix2 e q := ⟨i 0, i 1, eq_ix2 i⟩
  rw [Cert.Gnn.mlpRows_apply, val_main_v50_ix2]
  simp only [val_main_v22_ix2, val_main_v17_ix2]

end Cert.ReferenceIdeal.EdgeValue

end
-- ==== Proof.LibSumSplit.lean ====
/-
  Sums over an initial segment of the naturals split at a cut.

  In a commutative additive monoid a sum over 224 consecutive indices is the sum over the first 128, the next 64 and the
  last 32 of them, and a sum over 256 is the sum over the first 128 and the last 128; each part is written with the
  index it names in the whole range (k, 128 + k, 192 + k).
-/
import Mathlib.Algebra.BigOperators.Fin

namespace Cert.SumSplit

/-- A sum over 224 indices is the sum over the first 128, the next 64 and the last 32. -/
theorem sum_224 {M : Type} [AddCommMonoid M] (f : Fin 224 → M) :
    ∑ k : Fin 224, f k
      = ∑ k : Fin 128, f ⟨k.val, by omega⟩
        + (∑ k : Fin 64, f ⟨128 + k.val, by omega⟩ + ∑ k : Fin 32, f ⟨192 + k.val, by omega⟩) := by
  have h1 := Fin.sum_univ_add (M := M) (a := 128) (b := 96) f
  have h2 := Fin.sum_univ_add (M := M) (a := 64) (b := 32) (fun i : Fin 96 => f (Fin.natAdd 128 i))
  refine h1.trans ?_
  refine congrArg₂ (· + ·) rfl ?_
  refine h2.trans ?_
  refine congrArg₂ (· + ·) rfl ?_
  refine Finset.sum_congr rfl fun k _ => ?_
  refine congrArg f (Fin.ext ?_)
  show 128 + (64 + k.val) = 192 + k.val
  omega

/-- A sum over 256 indices is the sum over the first 128 and the last 128. -/
theorem sum_256 {M : Type} [AddCommMonoid M] (f : Fin 256 → M) :
    ∑ k : Fin 256, f k = ∑ k : Fin 128, f ⟨k.val, by omega⟩ + ∑ k : Fin 128, f ⟨128 + k.val, by omega⟩ :=
  Fin.sum_univ_add (M := M) (a := 128) (b := 128) f

end Cert.SumSplit
-- ==== Proof.BridgeEdge.lean ====
/-
  The edge MLP of the two programs is one function of the arguments: a row of the concatenation [x[src] | edge_attr | u]
  times the whole weight matrix is the sum of the three pieces' products with the matrix's three row ranges, and the
  kernel adds the third piece's product to the bias before the other two where the reference adds the bias last.
-/
import proofs.«113419_j65292092833799_1_alg».proof.Proof.KernelHost
import proofs.«113419_j65292092833799_1_alg».proof.Proof.RefEdge
import proofs.«113419_j65292092833799_1_alg».proof.Proof.LibMatmul
import proofs.«113419_j65292092833799_1_alg».proof.Proof.LibSumSplit
import Idealize.ShloMosaic.Lib.ValueLayout
import Idealize.ShloMosaic.Lib.Pipeline.Value

set_option maxRecDepth 16384

noncomputable section

namespace Cert.Bridge

open Idealize.ShloMosaic Idealize.ShloMosaic.ValueIdx

open Cert.KernelIdeal.HostVal Cert.ReferenceIdeal.ReadP

/-- Rows 0–127 of the first edge layer's weights, read at (k, j). -/
theorem w1x_apply (a5 : FVec Ideal Cert.KernelIdeal.S224x128 .f32) (k : Fin 128) (j : Fin 128) :
    w1x a5 (ix2 k j) = a5 (ix2 ⟨k.val, by omega⟩ j) := by
  unfold w1x
  exact slice2_axis0_apply 0 a5 _ k j ⟨k.val, by omega⟩ (Nat.zero_add _).symm

/-- Rows 128–191 of the first edge layer's weights, read at (k, j). -/
theorem w1e_apply (a5 : FVec Ideal Cert.KernelIdeal.S224x128 .f32) (k : Fin 64) (j : Fin 128) :
    w1e a5 (ix2 k j) = a5 (ix2 ⟨128 + k.val, by omega⟩ j) := by
  unfold w1e
  exact slice2_axis0_apply 128 a5 _ k j ⟨128 + k.val, by omega⟩ rfl

/-- Rows 192–223 of the first edge layer's weights, read at (k, j). -/
theorem w1u_apply (a5 : FVec Ideal Cert.KernelIdeal.S224x128 .f32) (k : Fin 32) (j : Fin 128) :
    w1u a5 (ix2 k j) = a5 (ix2 ⟨192 + k.val, by omega⟩ j) := by
  unfold w1u
  exact slice2_axis0_apply 192 a5 _ k j ⟨192 + k.val, by omega⟩ rfl

/-- A vector as a one-row matrix, read at (0, k). -/
theorem asRow_apply (v : FVec Ideal Cert.KernelIdeal.S128 .f32) (k : Fin 128) :
    asRow v (ix2 (0 : Fin 1) k) = v (ix1 k) := by
  unfold asRow
  exact broadcastInDim_apply _ _ v _ (ix1 k) (fun a => match a with
    | ⟨0, _⟩ => by show k.val = if (128 : Nat) = 1 then 0 else k.val; rw [if_neg (by decide)])

/-- Row 0 of a vector as a one-row matrix is the vector. -/
theorem row0_asRow (v : FVec Ideal Cert.KernelIdeal.S128 .f32) :
    Cert.Gnn.row0 (asRow v) = fun k => v (ix1 k) :=
  funext fun k => asRow_apply v k

/-- The global features' contribution with the bias, read at (0, j). -/
theorem uContrib_apply (a3 : FVec Ideal Cert.KernelIdeal.S32 .f32) (a5 : FVec Ideal Cert.KernelIdeal.S224x128 .f32)
    (a6 : FVec Ideal Cert.KernelIdeal.S128 .f32) (j : Fin 128) :
    uContrib a3 a5 a6 (ix2 (0 : Fin 1) j)
      = (∑ k : Fin 32, a3 (ix1 k) * a5 (ix2 ⟨192 + k.val, by omega⟩ j)) + a6 (ix1 j) := by
  unfold uContrib
  rw [addf_apply, asRow_apply]
  refine congrArg (· + a6 (ix1 j)) ?_
  show FloatOps.dotGeneral (DotDims.plain 1 32 128) none .single _ _ (ix2 (0 : Fin 1) j) = _
  rw [Cert.Matmul.dotGeneral_plain_apply]
  refine Finset.sum_congr rfl fun k _ => ?_
  rw [w1u_apply]
  refine congrArg (· * _) ?_
  exact broadcastInDim_apply _ _ a3 _ (ix1 k) (fun a => match a with
    | ⟨0, _⟩ => by show k.val = if (32 : Nat) = 1 then 0 else k.val; rw [if_neg (by decide)])

/-- The three-piece concatenation along the columns, read in its first piece. -/
theorem cat3_first {α : Type} (A : Cert.ReferenceIdeal.S800000x128.Idx → α) (B : Cert.ReferenceIdeal.S800000x64.Idx → α)
    (C : Cert.ReferenceIdeal.S800000x32.Idx → α)
    (h : Shape.Concatenates [Cert.ReferenceIdeal.S800000x128, Cert.ReferenceIdeal.S800000x64, Cert.ReferenceIdeal.S800000x32] Cert.ReferenceIdeal.S800000x224 1)
    (e : Fin 800000) (k : Fin 128) :
    concatenate Cert.ReferenceIdeal.S800000x224 1 [⟨Cert.ReferenceIdeal.S800000x128, A⟩, ⟨Cert.ReferenceIdeal.S800000x64, B⟩, ⟨Cert.ReferenceIdeal.S800000x32, C⟩] h
        (ix2 e ⟨k.val, by omega⟩) = A (ix2 e k) :=
  concatenate_apply_piece (t := Cert.ReferenceIdeal.S800000x224) 1
    [⟨Cert.ReferenceIdeal.S800000x128, A⟩, ⟨Cert.ReferenceIdeal.S800000x64, B⟩, ⟨Cert.ReferenceIdeal.S800000x32, C⟩] h
    (ix2 e ⟨k.val, by omega⟩) 0 (by show (0 : Nat) < 3; omega) Cert.ReferenceIdeal.S800000x128 A rfl rfl 0 rfl (ix2 e k)
    (fun b => match b with
      | ⟨0, _⟩ => fun _ => rfl
      | ⟨1, _⟩ => fun hb => absurd rfl hb)
    (Nat.zero_add _)

/-- The three-piece concatenation along the columns, read in its second piece. -/
theorem cat3_second {α : Type} (A : Cert.ReferenceIdeal.S800000x128.Idx → α) (B : Cert.ReferenceIdeal.S800000x64.Idx → α)
    (C : Cert.ReferenceIdeal.S800000x32.Idx → α)
    (h : Shape.Concatenates [Cert.ReferenceIdeal.S800000x128, Cert.ReferenceIdeal.S800000x64, Cert.ReferenceIdeal.S800000x32] Cert.ReferenceIdeal.S800000x224 1)
    (e : Fin 800000) (k : Fin 64) :
    concatenate Cert.ReferenceIdeal.S800000x224 1 [⟨Cert.ReferenceIdeal.S800000x128, A⟩, ⟨Cert.ReferenceIdeal.S800000x64, B⟩, ⟨Cert.ReferenceIdeal.S800000x32, C⟩] h
        (ix2 e ⟨128 + k.val, by omega⟩) = B (ix2 e k) :=
  concatenate_apply_piece (t := Cert.ReferenceIdeal.S800000x224) 1
    [⟨Cert.ReferenceIdeal.S800000x128, A⟩, ⟨Cert.ReferenceIdeal.S800000x64, B⟩, ⟨Cert.ReferenceIdeal.S800000x32, C⟩] h
    (ix2 e ⟨128 + k.val, by omega⟩) 1 (by show (1 : Nat) < 3; omega) Cert.ReferenceIdeal.S800000x64 B rfl rfl 128 rfl (ix2 e k)
    (fun b => match b with
      | ⟨0, _⟩ => fun _ => rfl
      | ⟨1, _⟩ => fun hb => absurd rfl hb)
    rfl

/-- The three-piece concatenation along the columns, read in its third piece. -/
theorem cat3_third {α : Type} (A : Cert.ReferenceIdeal.S800000x128.Idx → α) (B : Cert.ReferenceIdeal.S800000x64.Idx → α)
    (C : Cert.ReferenceIdeal.S800000x32.Idx → α)
    (h : Shape.Concatenates [Cert.ReferenceIdeal.S800000x128, Cert.ReferenceIdeal.S800000x64, Cert.ReferenceIdeal.S800000x32] Cert.ReferenceIdeal.S800000x224 1)
    (e : Fin 800000) (k : Fin 32) :
    concatenate Cert.ReferenceIdeal.S800000x224 1 [⟨Cert.ReferenceIdeal.S800000x128, A⟩, ⟨Cert.ReferenceIdeal.S800000x64, B⟩, ⟨Cert.ReferenceIdeal.S800000x32, C⟩] h
        (ix2 e ⟨192 + k.val, by omega⟩) = C (ix2 e k) :=
  concatenate_apply_piece (t := Cert.ReferenceIdeal.S800000x224) 1
    [⟨Cert.ReferenceIdeal.S800000x128, A⟩, ⟨Cert.ReferenceIdeal.S800000x64, B⟩, ⟨Cert.ReferenceIdeal.S800000x32, C⟩] h
    (ix2 e ⟨192 + k.val, by omega⟩) 2 (by show (2 : Nat) < 3; omega) Cert.ReferenceIdeal.S800000x32 C rfl rfl 192 rfl (ix2 e k)
    (fun b => match b with
      | ⟨0, _⟩ => fun _ => rfl
      | ⟨1, _⟩ => fun hb => absurd rfl hb)
    rfl

/-- The global features broadcast over the edges, read at (e, k). -/
theorem v12_apply (x3 : (⟨Cert.ReferenceIdeal.S32, .f32⟩ : BufTy).Contents (Elt Ideal)) (e : Fin 800000) (k : Fin 32) :
    val_main_v12 (F := Ideal) x3 (ix2 e k) = x3 (ix1 k) := by
  rw [val_main_v12_apply, val_main_v11_apply]
  exact congrArg x3 (funext fun a => match a with | ⟨0, _⟩ => rfl)

/-- The two programs gather the same source rows: the same chain of operations on the edge index's first row. -/
theorem xsrc_eq (x0 : (⟨Cert.ReferenceIdeal.S50000x128, .f32⟩ : BufTy).Contents (Elt Ideal)) (x1 : (⟨Cert.ReferenceIdeal.S2x800000, .i32⟩ : BufTy).Contents (Elt Ideal)) :
    xsrc x0 x1 = val_main_v10 (F := Ideal) x0 x1 := by
  unfold xsrc srcIdx val_main_v10 val_main_v9 val_main_v8 val_main_v7 val_main_v6 val_main_v5 val_main_v4 val_main_v1 val_main_v0 val_main_c val_main_c_0
  rfl

/-- The first edge layer's pre-activations: the kernel's three partial products and bias are the reference's product
    of the concatenated row with the whole matrix, plus the bias. -/
theorem pre_edge (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x3 : (⟨Cert.ReferenceIdeal.S32, .f32⟩ : BufTy).Contents (Elt Ideal)) (x5 : (⟨Cert.ReferenceIdeal.S224x128, .f32⟩ : BufTy).Contents (Elt Ideal)) (x6 : (⟨Cert.ReferenceIdeal.S128, .f32⟩ : BufTy).Contents (Elt Ideal))
    (e : Fin 800000) (j : Fin 128) :
    Cert.Gnn.pre2 (xsrc x0 x1) x2 (w1x x5) (w1e x5) (uContrib x3 x5 x6) e j
      = (∑ k : Fin 224, val_main_v13 (F := Ideal) x0 x1 x2 x3 (ix2 e k) * x5 (ix2 k j)) + x6 (ix1 j) := by
  have hA : ∀ k : Fin 128, val_main_v13 (F := Ideal) x0 x1 x2 x3 (ix2 e ⟨k.val, by omega⟩) = val_main_v10 (F := Ideal) x0 x1 (ix2 e k) :=
    fun k => cat3_first _ _ _ _ e k
  have hB : ∀ k : Fin 64, val_main_v13 (F := Ideal) x0 x1 x2 x3 (ix2 e ⟨128 + k.val, by omega⟩) = x2 (ix2 e k) :=
    fun k => cat3_second _ _ _ _ e k
  have hC : ∀ k : Fin 32, val_main_v13 (F := Ideal) x0 x1 x2 x3 (ix2 e ⟨192 + k.val, by omega⟩) = x3 (ix1 k) :=
    fun k => (cat3_third _ _ _ _ e k).trans (v12_apply x3 e k)
  unfold Cert.Gnn.pre2
  rw [Cert.SumSplit.sum_224, uContrib_apply, xsrc_eq]
  simp only [hA, hB, hC, w1x_apply, w1e_apply]
  simp only [add_assoc]

/-- The kernel program's edge result and the reference's are the same array. -/
theorem edgeOut_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x3 : (⟨Cert.ReferenceIdeal.S32, .f32⟩ : BufTy).Contents (Elt Ideal)) (x5 : (⟨Cert.ReferenceIdeal.S224x128, .f32⟩ : BufTy).Contents (Elt Ideal)) (x6 x7 x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) :
    Cert.KernelIdeal.HostVal.edgeOut x0 x1 x2 x3 x5 x6 x7 x8 x9 x10
      = Cert.ReferenceIdeal.ReadP.val_main_v50 (F := Ideal) x0 x1 x2 x3 x5 x6 x7 x8 x9 x10 := by
  rw [Cert.ReferenceIdeal.EdgeValue.val_main_v50_eq_mlp]
  unfold Cert.KernelIdeal.HostVal.edgeOut Cert.Gnn.mlp2
  rw [row0_asRow, row0_asRow, row0_asRow]
  refine congrArg (fun p => Cert.Gnn.mlpRows p _ _ _ _) ?_
  funext e j
  exact pre_edge x0 x1 x2 x3 x5 x6 e j

end Cert.Bridge

end
-- ==== Proof.RefNode.lean ====
/-
  The reference's node MLP, read entry by entry: its result at (n, q) is the row MLP of row n's pre-activations, which
  are the concatenated row [x | mean] times the whole first-layer weight matrix plus the bias.
-/
import proofs.«113419_j65292092833799_1_alg».proof.Proof.RefRead
import proofs.«113419_j65292092833799_1_alg».proof.Proof.MlpSpec
import Idealize.ShloMosaic.PureOps.Ideal.Laws
import Idealize.ShloMosaic.Lib.ValueLayout
import Idealize.ShloMosaic.Lib.IdealHost
import Idealize.ShloMosaic.Lib.Pipeline.Value

set_option maxRecDepth 16384

noncomputable section

namespace Cert.ReferenceIdeal.NodeValue

open Cert.ReferenceIdeal Cert.ReferenceIdeal.Gen Cert.ReferenceIdeal.ReadP Idealize.ShloMosaic Idealize.ShloMosaic.TcCoe Idealize.ShloMosaic.ValueIdx

section Stages

variable (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 x13 x14 : (⟨S128, .f32⟩ : BufTy).Contents (Elt Ideal)) (x15 : (⟨S128x128, .f32⟩ : BufTy).Contents (Elt Ideal)) (x16 : (⟨S128, .f32⟩ : BufTy).Contents (Elt Ideal))

/-- The first layer's left index at row n, column k. -/
theorem lidx64_at (n : Fin 50000) (j : Fin 128) (k : Fin 256) : lidx_main_v64 (ix2 n j) k = ix2 n k :=
  funext fun a => by match a with | ⟨0, _⟩ => rfl | ⟨1, _⟩ => rfl

theorem ridx64_at (n : Fin 50000) (j : Fin 128) (k : Fin 256) : ridx_main_v64 (ix2 n j) k = ix2 k j :=
  funext fun a => by match a with | ⟨0, _⟩ => rfl | ⟨1, _⟩ => rfl

theorem idx66_at (n : Fin 50000) (j : Fin 128) : idx_main_v65 (idx_main_v66 (ix2 n j)) = ix1 j :=
  funext fun a => by match a with | ⟨0, _⟩ => rfl

/-- The pre-activation at (n, j): row n of the concatenated input times column j of the weights, plus the bias. -/
theorem v67_at (n : Fin 50000) (j : Fin 128) :
    val_main_v67 (F := Ideal) x0 x1 x2 x3 x5 x6 x7 x8 x9 x10 x11 x12 (ix2 n j)
      = (∑ k : Fin 256, val_main_v63 (F := Ideal) x0 x1 x2 x3 x5 x6 x7 x8 x9 x10 (ix2 n k) * x11 (ix2 k j)) + x12 (ix1 j) := by
  rw [val_main_v67_apply, val_main_v64_apply, val_main_v66_apply, val_main_v65_apply, idx66_at]
  simp only [lidx64_at, ridx64_at]
  rfl

/-- The activation at (n, j) is LeakyReLU of the pre-activation. -/
theorem v72_at (n : Fin 50000) (j : Fin 128) :
    val_main_v72 (F := Ideal) x0 x1 x2 x3 x5 x6 x7 x8 x9 x10 x11 x12 (ix2 n j) = Cert.Gnn.leaky (val_main_v67 (F := Ideal) x0 x1 x2 x3 x5 x6 x7 x8 x9 x10 x11 x12 (ix2 n j)) := by
  rw [val_main_v72_apply, val_main_v69_apply, val_main_v71_apply, val_main_v68_apply, val_main_v70_apply]
  rfl

theorem idx73_at (n : Fin 50000) (k : Fin 128) : idx_main_v73 (ix1 n) k = ix2 n k :=
  funext fun a => by match a with | ⟨0, _⟩ => rfl | ⟨1, _⟩ => rfl

theorem idx80_at (n : Fin 50000) (k : Fin 128) : idx_main_v80 (ix1 n) k = ix2 n k :=
  funext fun a => by match a with | ⟨0, _⟩ => rfl | ⟨1, _⟩ => rfl

theorem idx74_at (n : Fin 50000) : idx_main_v74 (ix2 n (0 : Fin 1)) = ix1 n :=
  funext fun a => by match a with | ⟨0, _⟩ => rfl

theorem idx81_at (n : Fin 50000) : idx_main_v81 (ix2 n (0 : Fin 1)) = ix1 n :=
  funext fun a => by match a with | ⟨0, _⟩ => rfl

theorem idx77_at (n : Fin 50000) (j : Fin 128) : idx_main_v77 (ix2 n j) = ix2 n (0 : Fin 1) :=
  funext fun a => by match a with | ⟨0, _⟩ => rfl | ⟨1, _⟩ => rfl

theorem idx84_at (n : Fin 50000) (j : Fin 128) : idx_main_v84 (ix2 n j) = ix2 n (0 : Fin 1) :=
  funext fun a => by match a with | ⟨0, _⟩ => rfl | ⟨1, _⟩ => rfl

theorem idx89_at (n : Fin 50000) (j : Fin 128) : idx_main_v89 (ix2 n j) = ix2 n (0 : Fin 1) :=
  funext fun a => by match a with | ⟨0, _⟩ => rfl | ⟨1, _⟩ => rfl

theorem idx92_at (n : Fin 50000) (j : Fin 128) : idx_main_v91 (idx_main_v92 (ix2 n j)) = ix1 j :=
  funext fun a => by match a with | ⟨0, _⟩ => rfl

theorem idx95_at (n : Fin 50000) (j : Fin 128) : idx_main_v94 (idx_main_v95 (ix2 n j)) = ix1 j :=
  funext fun a => by match a with | ⟨0, _⟩ => rfl

theorem idx99_at (n : Fin 50000) (j : Fin 128) : idx_main_v98 (idx_main_v99 (ix2 n j)) = ix1 j :=
  funext fun a => by match a with | ⟨0, _⟩ => rfl

theorem lidx97_at (n : Fin 50000) (q k : Fin 128) : lidx_main_v97 (ix2 n q) k = ix2 n k :=
  funext fun a => by match a with | ⟨0, _⟩ => rfl | ⟨1, _⟩ => rfl

theorem ridx97_at (n : Fin 50000) (q k : Fin 128) : ridx_main_v97 (ix2 n q) k = ix2 k q :=
  funext fun a => by match a with | ⟨0, _⟩ => rfl | ⟨1, _⟩ => rfl

/-- The row sum of the activations. -/
theorem v73_at (n : Fin 50000) :
    val_main_v73 (F := Ideal) x0 x1 x2 x3 x5 x6 x7 x8 x9 x10 x11 x12 (ix1 n) = ∑ j : Fin 128, val_main_v72 (F := Ideal) x0 x1 x2 x3 x5 x6 x7 x8 x9 x10 x11 x12 (ix2 n j) := by
  rw [val_main_v73_apply]
  simp only [idx73_at]
  refine (congrArg (· + _) (?_ : val_main_cst_13 (F := Ideal) (Shape.Idx.first h_S_) = 0)).trans (zero_add _)
  exact Ideal.ofBits_zero_f32

/-- The row mean, held in the one-column array. -/
theorem v76_at (n : Fin 50000) :
    val_main_v76 (F := Ideal) x0 x1 x2 x3 x5 x6 x7 x8 x9 x10 x11 x12 (ix2 n (0 : Fin 1)) = Cert.Gnn.rowMean (fun j => val_main_v72 (F := Ideal) x0 x1 x2 x3 x5 x6 x7 x8 x9 x10 x11 x12 (ix2 n j)) := by
  rw [val_main_v76_apply, val_main_v74_apply, idx74_at, v73_at, val_main_v75_apply]
  rfl

/-- The deviation from the row mean. -/
theorem v78_at (n : Fin 50000) (j : Fin 128) :
    val_main_v78 (F := Ideal) x0 x1 x2 x3 x5 x6 x7 x8 x9 x10 x11 x12 (ix2 n j)
      = val_main_v72 (F := Ideal) x0 x1 x2 x3 x5 x6 x7 x8 x9 x10 x11 x12 (ix2 n j) - Cert.Gnn.rowMean (fun j => val_main_v72 (F := Ideal) x0 x1 x2 x3 x5 x6 x7 x8 x9 x10 x11 x12 (ix2 n j)) := by
  rw [val_main_v78_apply, val_main_v77_apply, idx77_at, v76_at]
  rfl

theorem v85_at (n : Fin 50000) (j : Fin 128) :
    val_main_v85 (F := Ideal) x0 x1 x2 x3 x5 x6 x7 x8 x9 x10 x11 x12 (ix2 n j)
      = val_main_v72 (F := Ideal) x0 x1 x2 x3 x5 x6 x7 x8 x9 x10 x11 x12 (ix2 n j) - Cert.Gnn.rowMean (fun j => val_main_v72 (F := Ideal) x0 x1 x2 x3 x5 x6 x7 x8 x9 x10 x11 x12 (ix2 n j)) := by
  rw [val_main_v85_apply, val_main_v84_apply, idx84_at, v76_at]
  rfl

/-- The row sum of the squared deviations. -/
theorem v80_at (n : Fin 50000) :
    val_main_v80 (F := Ideal) x0 x1 x2 x3 x5 x6 x7 x8 x9 x10 x11 x12 (ix1 n)
      = ∑ j : Fin 128, (val_main_v72 (F := Ideal) x0 x1 x2 x3 x5 x6 x7 x8 x9 x10 x11 x12 (ix2 n j) - Cert.Gnn.rowMean (fun j => val_main_v72 (F := Ideal) x0 x1 x2 x3 x5 x6 x7 x8 x9 x10 x11 x12 (ix2 n j)))
          * (val_main_v72 (F := Ideal) x0 x1 x2 x3 x5 x6 x7 x8 x9 x10 x11 x12 (ix2 n j) - Cert.Gnn.rowMean (fun j => val_main_v72 (F := Ideal) x0 x1 x2 x3 x5 x6 x7 x8 x9 x10 x11 x12 (ix2 n j))) := by
  rw [val_main_v80_apply]
  simp only [idx80_at, val_main_v79_apply, v78_at]
  refine (congrArg (· + _) (?_ : val_main_cst_15 (F := Ideal) (Shape.Idx.first h_S_) = 0)).trans (zero_add _)
  exact Ideal.ofBits_zero_f32

/-- The reciprocal standard deviation, held in the one-column array. -/
theorem v88_at (n : Fin 50000) :
    val_main_v88 (F := Ideal) x0 x1 x2 x3 x5 x6 x7 x8 x9 x10 x11 x12 (ix2 n (0 : Fin 1)) = Cert.Gnn.rowRstd (fun j => val_main_v72 (F := Ideal) x0 x1 x2 x3 x5 x6 x7 x8 x9 x10 x11 x12 (ix2 n j)) := by
  rw [val_main_v88_apply, val_main_v87_apply, val_main_v83_apply, val_main_v81_apply, idx81_at, v80_at,
    val_main_v82_apply, val_main_v86_apply]
  rfl

/-- The normalised, scaled and shifted entry. -/
theorem v96_at (n : Fin 50000) (k : Fin 128) :
    val_main_v96 (F := Ideal) x0 x1 x2 x3 x5 x6 x7 x8 x9 x10 x11 x12 x13 x14 (ix2 n k)
      = Cert.Gnn.normRow (fun j => val_main_v72 (F := Ideal) x0 x1 x2 x3 x5 x6 x7 x8 x9 x10 x11 x12 (ix2 n j)) (fun k => x13 (ix1 k)) (fun k => x14 (ix1 k)) k := by
  rw [val_main_v96_apply, val_main_v93_apply, val_main_v90_apply, v85_at, val_main_v89_apply, idx89_at, v88_at,
    val_main_v92_apply, val_main_v91_apply, idx92_at, val_main_v95_apply, val_main_v94_apply, idx95_at]
  rfl

/-- The result at (n, q): the second layer applied to the normalised row. -/
theorem v100_at (n : Fin 50000) (q : Fin 128) :
    val_main_v100 (F := Ideal) x0 x1 x2 x3 x5 x6 x7 x8 x9 x10 x11 x12 x13 x14 x15 x16 (ix2 n q)
      = Cert.Gnn.mlpTail (fun j => val_main_v72 (F := Ideal) x0 x1 x2 x3 x5 x6 x7 x8 x9 x10 x11 x12 (ix2 n j)) (fun k => x13 (ix1 k)) (fun k => x14 (ix1 k)) (Cert.Gnn.mat x15) (fun q => x16 (ix1 q)) q := by
  rw [val_main_v100_apply, val_main_v97_apply, val_main_v99_apply, val_main_v98_apply, idx99_at]
  simp only [lidx97_at, ridx97_at, v96_at]
  rfl

end Stages

/-- The reference's result as the row MLP over the concatenated rows' pre-activations. -/
theorem val_main_v100_eq_mlp (x0 : (⟨S50000x128, .f32⟩ : BufTy).Contents (Elt Ideal)) (x1 : (⟨S2x800000, .i32⟩ : BufTy).Contents (Elt Ideal)) (x2 : (⟨S800000x64, .f32⟩ : BufTy).Contents (Elt Ideal)) (x3 : (⟨S32, .f32⟩ : BufTy).Contents (Elt Ideal)) (x5 : (⟨S224x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 x13 x14 : (⟨S128, .f32⟩ : BufTy).Contents (Elt Ideal)) (x15 : (⟨S128x128, .f32⟩ : BufTy).Contents (Elt Ideal)) (x16 : (⟨S128, .f32⟩ : BufTy).Contents (Elt Ideal)) :
    val_main_v100 (F := Ideal) x0 x1 x2 x3 x5 x6 x7 x8 x9 x10 x11 x12 x13 x14 x15 x16
      = Cert.Gnn.mlpRows
          (fun n j => (∑ k : Fin 256, val_main_v63 (F := Ideal) x0 x1 x2 x3 x5 x6 x7 x8 x9 x10 (ix2 n k) * x11 (ix2 k j)) + x12 (ix1 j))
          (fun k => x13 (ix1 k)) (fun k => x14 (ix1 k)) (Cert.Gnn.mat x15) (fun q => x16 (ix1 q)) := by
  funext i
  obtain ⟨n, q, rfl⟩ : ∃ (n : Fin 50000) (q : Fin 128), i = ix2 n q := ⟨i 0, i 1, eq_ix2 i⟩
  have h : (fun j => val_main_v72 (F := Ideal) x0 x1 x2 x3 x5 x6 x7 x8 x9 x10 x11 x12 (ix2 n j))
      = fun j => Cert.Gnn.leaky ((∑ k : Fin 256, val_main_v63 (F := Ideal) x0 x1 x2 x3 x5 x6 x7 x8 x9 x10 (ix2 n k) * x11 (ix2 k j)) + x12 (ix1 j)) :=
    funext fun j => by rw [v72_at, v67_at]
  rw [Cert.Gnn.mlpRows_apply, v100_at, h]

end Cert.ReferenceIdeal.NodeValue

end
-- ==== Proof.Bridge.lean ====
/-
  The two programs compute one function of the arguments. The node MLP's first layer on the concatenation [x | mean] is
  the sum of the two pieces' products with the weight matrix's two row ranges; the mean is the same scatter-mean of the
  same edge result on both sides.
-/
import proofs.«113419_j65292092833799_1_alg».proof.Proof.BridgeEdge
import proofs.«113419_j65292092833799_1_alg».proof.Proof.RefNode

set_option maxRecDepth 16384

noncomputable section

namespace Cert.Bridge

open Idealize.ShloMosaic Idealize.ShloMosaic.ValueIdx

open Cert.KernelIdeal.HostVal

/-- Two row MLPs over equal components are equal. -/
theorem mlpRows_congr {R : Nat} {pre pre' : Fin R → Fin 128 → EReal} {g g' be be' : Fin 128 → EReal}
    {W W' : Fin 128 → Fin 128 → EReal} {b b' : Fin 128 → EReal}
    (h1 : pre = pre') (h2 : g = g') (h3 : be = be') (h4 : W = W') (h5 : b = b') :
    Cert.Gnn.mlpRows pre g be W b = Cert.Gnn.mlpRows pre' g' be' W' b' := by
  subst h1 h2 h3 h4 h5; rfl

/-- Rows 0–127 of the node layer's weights. -/
theorem w2x_apply (x11 : (⟨Cert.ReferenceIdeal.S256x128, .f32⟩ : BufTy).Contents (Elt Ideal)) (k j : Fin 128) :
    w2x x11 (ix2 k j) = x11 (ix2 (⟨k.val, by omega⟩ : Fin 256) j) := by
  unfold w2x
  exact slice2_axis0_apply 0 x11 _ k j _ (Nat.zero_add _).symm

/-- Rows 128–255 of the node layer's weights. -/
theorem w2a_apply (x11 : (⟨Cert.ReferenceIdeal.S256x128, .f32⟩ : BufTy).Contents (Elt Ideal)) (k j : Fin 128) :
    w2a x11 (ix2 k j) = x11 (ix2 (⟨128 + k.val, by omega⟩ : Fin 256) j) := by
  unfold w2a
  exact slice2_axis0_apply 128 x11 _ k j _ rfl

/-- The scatter-mean of an edge array by destination node is the same array in both programs. -/
theorem aggOf_eq (h : (⟨Cert.ReferenceIdeal.S800000x128, .f32⟩ : BufTy).Contents (Elt Ideal)) (x1 : (⟨Cert.ReferenceIdeal.S2x800000, .i32⟩ : BufTy).Contents (Elt Ideal)) :
    aggOf h x1 = Host.divf (Host.scatterAdd Cert.ReferenceIdeal.scatter_S50000x128_S800000x1_S800000x128_1_0_0_1 (Cert.ReferenceIdeal.ReadP.val_main_v51 (F := Ideal)) (Cert.ReferenceIdeal.ReadP.val_main_v52 (F := Ideal) x1) h) (Cert.ReferenceIdeal.ReadP.val_main_v61 (F := Ideal) x1) := by
  unfold aggOf dstIdx
  unfold Cert.ReferenceIdeal.ReadP.val_main_v61 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_v55 Cert.ReferenceIdeal.ReadP.val_main_v54 Cert.ReferenceIdeal.ReadP.val_main_v52 Cert.ReferenceIdeal.ReadP.val_main_v51 Cert.ReferenceIdeal.ReadP.val_main_v3 Cert.ReferenceIdeal.ReadP.val_main_v2 Cert.ReferenceIdeal.ReadP.val_main_cst_7 Cert.ReferenceIdeal.ReadP.val_main_cst_8 Cert.ReferenceIdeal.ReadP.val_main_cst_9 Cert.ReferenceIdeal.ReadP.val_main_cst_10
  rfl

/-- The kernel program's mean of the edge results is the reference's. -/
theorem agg_edgeOut_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x3 : (⟨Cert.ReferenceIdeal.S32, .f32⟩ : BufTy).Contents (Elt Ideal)) (x5 : (⟨Cert.ReferenceIdeal.S224x128, .f32⟩ : BufTy).Contents (Elt Ideal)) (x6 x7 x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) :
    aggOf (edgeOut x0 x1 x2 x3 x5 x6 x7 x8 x9 x10) x1 = Cert.ReferenceIdeal.ReadP.val_main_v62 (F := Ideal) x0 x1 x2 x3 x5 x6 x7 x8 x9 x10 := by
  rw [edgeOut_eq, aggOf_eq]
  rfl

/-- The first 128 columns of the concatenation [x | mean] are x. -/
theorem v63_left (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x3 : (⟨Cert.ReferenceIdeal.S32, .f32⟩ : BufTy).Contents (Elt Ideal)) (x5 : (⟨Cert.ReferenceIdeal.S224x128, .f32⟩ : BufTy).Contents (Elt Ideal)) (x6 x7 x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (n : Fin 50000) (k : Fin 128) :
    Cert.ReferenceIdeal.ReadP.val_main_v63 (F := Ideal) x0 x1 x2 x3 x5 x6 x7 x8 x9 x10 (ix2 n (⟨k.val, by omega⟩ : Fin 256)) = x0 (ix2 n k) := by
  unfold Cert.ReferenceIdeal.ReadP.val_main_v63
  refine concatenate_pair_apply_left (s₂ := Cert.ReferenceIdeal.S50000x128) 1 x0 _ _ (ix2 n (⟨k.val, by omega⟩ : Fin 256)) rfl (ix2 n k) ?_
  intro b
  match b with
  | ⟨0, _⟩ => rfl
  | ⟨1, _⟩ => rfl

/-- The last 128 columns of the concatenation [x | mean] are the mean. -/
theorem v63_right (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x3 : (⟨Cert.ReferenceIdeal.S32, .f32⟩ : BufTy).Contents (Elt Ideal)) (x5 : (⟨Cert.ReferenceIdeal.S224x128, .f32⟩ : BufTy).Contents (Elt Ideal)) (x6 x7 x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (n : Fin 50000) (k : Fin 128) :
    Cert.ReferenceIdeal.ReadP.val_main_v63 (F := Ideal) x0 x1 x2 x3 x5 x6 x7 x8 x9 x10 (ix2 n (⟨128 + k.val, by omega⟩ : Fin 256))
      = Cert.ReferenceIdeal.ReadP.val_main_v62 (F := Ideal) x0 x1 x2 x3 x5 x6 x7 x8 x9 x10 (ix2 n k) := by
  unfold Cert.ReferenceIdeal.ReadP.val_main_v63
  refine concatenate_pair_apply_right (s₂ := Cert.ReferenceIdeal.S50000x128) 1 x0 _ _ (ix2 n (⟨128 + k.val, by omega⟩ : Fin 256)) rfl rfl (ix2 n k) ?_ ?_
  · intro b
    match b with
    | ⟨0, _⟩ => exact fun _ => rfl
    | ⟨1, _⟩ => exact fun hb => absurd rfl hb
  · show k.val + 128 = 128 + k.val
    omega

/-- The kernel program's result and the reference's are the same array. -/
theorem kernelOut_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal)) (x3 : (⟨Cert.ReferenceIdeal.S32, .f32⟩ : BufTy).Contents (Elt Ideal)) (x5 : (⟨Cert.ReferenceIdeal.S224x128, .f32⟩ : BufTy).Contents (Elt Ideal)) (x6 x7 x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S256x128, .f32⟩ : BufTy).Contents (Elt Ideal)) (x12 x13 x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) :
    Cert.KernelIdeal.HostVal.kernelOut x0 x1 x2 x3 x5 x6 x7 x8 x9 x10 x11 x12 x13 x14 x15 x16
      = Cert.ReferenceIdeal.ReadP.val_main_v100 (F := Ideal) x0 x1 x2 x3 x5 x6 x7 x8 x9 x10 x11 x12 x13 x14 x15 x16 := by
  rw [Cert.ReferenceIdeal.NodeValue.val_main_v100_eq_mlp]
  unfold Cert.KernelIdeal.HostVal.kernelOut Cert.Gnn.mlp2
  refine mlpRows_congr ?_ (row0_asRow x13) (row0_asRow x14) rfl (row0_asRow x16)
  funext n j
  unfold Cert.Gnn.pre2
  rw [agg_edgeOut_eq, asRow_apply, Cert.SumSplit.sum_256]
  simp only [v63_left, v63_right, w2x_apply, w2a_apply]

end Cert.Bridge

end
-- ==== Proof.lean ====
/-
  The certificate of the graph-network node model: a Pallas program of two MLP kernels (edges, then nodes) with the
  gather and the scatter-mean on the host, against the jnp reference that concatenates each MLP's inputs.

  Over the extended reals both programs compute one function of the arguments. A first linear layer applied to a
  concatenation [a | b | c] is the sum of the pieces' products with the matching row ranges of the weight matrix, so the
  kernel's split first layers (the global features' contribution folded into the bias row on the host) equal the
  reference's; addition of extended reals is associative and commutative, and no finiteness is used. LeakyReLU, the layer
  normalisation, the second linear layer, the gather and the scatter-mean are the same operations on both sides.

  The three frames are the generated ones (the reference's: its run with the result dropped). The kernel program's
  result is read off its run region by region: every block a region writes back is the matching block of the row MLP
  of the region's operand arrays, and the blocks cover the array.
-/
import proofs.«113419_j65292092833799_1_alg».proof.Defs
import proofs.«113419_j65292092833799_1_alg».proof.Proof.Gen.Kernel
import proofs.«113419_j65292092833799_1_alg».proof.Proof.Gen.Kernel.Frame
import proofs.«113419_j65292092833799_1_alg».proof.Proof.Gen.KernelIdeal
import proofs.«113419_j65292092833799_1_alg».proof.Proof.Gen.KernelIdeal.Frame
import proofs.«113419_j65292092833799_1_alg».proof.Proof.Gen.ReferenceIdeal
import proofs.«113419_j65292092833799_1_alg».proof.Proof.Gen.Pre_finite_inputs
import proofs.«113419_j65292092833799_1_alg».proof.Proof.KernelRun
import proofs.«113419_j65292092833799_1_alg».proof.Proof.KernelValue
import proofs.«113419_j65292092833799_1_alg».proof.Proof.RefRun
import proofs.«113419_j65292092833799_1_alg».proof.Proof.Bridge
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- Both programs end with the same result array: the kernel program's, read region by region, and the reference's last
    stage are one function of the arguments. -/
theorem algebraic : Cert.algebraic_KernelIdeal_ReferenceIdeal := by
  intro m ρ m' ρ' _ hagree
  refine ⟨fun c => Cert.KernelIdeal.HostVal.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Value.W4_v40 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9, h10, h11, h12, h13, h14, h15, h16⟩ := hagree c
    rw [h0, h1, h2, h3, h5, h6, h7, h8, h9, h10, h11, h12, h13, h14, h15, h16]
    exact (Cert.Bridge.kernelOut_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
